-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S1024x512 : Shape := ⟨2, ![1024, 512]⟩
abbrev S2x1x512 : Shape := ⟨3, ![2, 1, 512]⟩
abbrev S2 : Shape := ⟨1, ![2]⟩
abbrev S_ : Shape := ⟨0, ![]⟩
abbrev S512x512 : Shape := ⟨2, ![512, 512]⟩
abbrev S1 : Shape := ⟨1, ![1]⟩
abbrev S1x1x512 : Shape := ⟨3, ![1, 1, 512]⟩
abbrev S1x512 : Shape := ⟨2, ![1, 512]⟩
abbrev S510x512 : Shape := ⟨2, ![510, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S2x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26 : BitVec 32 := 1#32
  let v44 : BitVec 32 := Scalar.muli v13 c1_i32_26
  let v45 : BitVec 32 := Scalar.addi c0_i32_27 v44
  v45.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_35 : BitVec 32 := 1#32
  let v53 : BitVec 32 := Scalar.muli v24 c1_i32_35
  let v54 : BitVec 32 := Scalar.addi c0_i32_36 v53
  v54.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S512x512 : S1024x512.Slices ![0, 0] S512x512
  slices_S1024x512_o1_0_S512x512 : S1024x512.Slices ![1, 0] S512x512
  slices_S1024x512_o2_0_S512x512 : S1024x512.Slices ![2, 0] S512x512
  inb_S1024x512_S512x512_1_0 : ∀ a, (![1, 0] : Fin 2 → Nat) a + S512x512.size a ≤ S1024x512.size a
  h_S512x512 : 0 < S512x512.numel
  hamt_2 : (2#32 : BitVec 32).msb = false
  inb_S2_S1_1 : ∀ a, (![1] : Fin 1 → Nat) a + S1.size a ≤ S2.size a
  squeezes_S1_S_ : S1.Squeezes S_
  inb_S2x1x512_S1x1x512_1_0_0 : ∀ a, (![1, 0, 0] : Fin 3 → Nat) a + S1x1x512.size a ≤ S2x1x512.size a
  squeezes_S1x1x512_S1x512 : S1x1x512.Squeezes S1x512
  inb_S1024x512_S1x512_0_0 : ∀ a, (![0, 0] : Fin 2 → Nat) a + S1x512.size a ≤ S1024x512.size a
  inb_S2_S1_0 : ∀ a, (![0] : Fin 1 → Nat) a + S1.size a ≤ S2.size a
  inb_S2x1x512_S1x1x512_0_0_0 : ∀ a, (![0, 0, 0] : Fin 3 → Nat) a + S1x1x512.size a ≤ S2x1x512.size a
  inb_S1024x512_S1x512_1023_0 : ∀ a, (![1023, 0] : Fin 2 → Nat) a + S1x512.size a ≤ S1024x512.size a
  slices_S1024x512_o512_0_S510x512 : S1024x512.Slices ![512, 0] S510x512
  slices_S1024x512_o513_0_S510x512 : S1024x512.Slices ![513, 0] S510x512
  slices_S1024x512_o514_0_S510x512 : S1024x512.Slices ![514, 0] S510x512
  inb_S1024x512_S510x512_513_0 : ∀ a, (![513, 0] : Fin 2 → Nat) a + S510x512.size a ≤ S1024x512.size a
  h_S510x512 : 0 < S510x512.numel
  slices_S1024x512_o0_0_S1x512 : S1024x512.Slices ![0, 0] S1x512
  slices_S1024x512_o1_0_S1x512 : S1024x512.Slices ![1, 0] S1x512
  slices_S1024x512_o1022_0_S1x512 : S1024x512.Slices ![1022, 0] S1x512
  slices_S1024x512_o1023_0_S1x512 : S1024x512.Slices ![1023, 0] S1x512
  h_S1x1x512 : 0 < S1x1x512.numel
  shapeCasts_S1x1x512_S1x512 : S1x1x512.ShapeCasts S1x512
  h_S1x512 : 0 < S1x512.numel
  hcc0_scratch1 : 2 + S2.numel ≤ 6
  hcc0_scratch2 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S1x512 : Shape := ⟨2, ![1, 512]⟩
abbrev S512 : Shape := ⟨1, ![512]⟩
abbrev S_ : Shape := ⟨0, ![]⟩
abbrev S1 : Shape := ⟨1, ![1]⟩
abbrev S8190x512 : Shape := ⟨2, ![8190, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512, .f32⟩
  | .hbm, ⟨4, _⟩ => ⟨S_, .i32⟩
  | .hbm, ⟨5, _⟩ => ⟨S1, .i32⟩
  | .hbm, ⟨6, _⟩ => ⟨S8192x512, .f32⟩
  | .hbm, ⟨7, _⟩ => ⟨S1x512, .f32⟩
  | .hbm, ⟨8, _⟩ => ⟨S512, .f32⟩
  | .hbm, ⟨9, _⟩ => ⟨S_, .i32⟩
  | .hbm, ⟨10, _⟩ => ⟨S1, .i32⟩
  | .hbm, ⟨11, _⟩ => ⟨S8192x512, .f32⟩
  | .hbm, ⟨12, _⟩ => ⟨S8190x512, .f32⟩
  | .hbm, ⟨13, _⟩ => ⟨S_, .f32⟩
  | .hbm, ⟨14, _⟩ => ⟨S8190x512, .f32⟩
  | .hbm, ⟨15, _⟩ => ⟨S8190x512, .f32⟩
  | .hbm, ⟨16, _⟩ => ⟨S8190x512, .f32⟩
  | .hbm, ⟨17, _⟩ => ⟨S_, .f32⟩
  | .hbm, ⟨18, _⟩ => ⟨S8190x512, .f32⟩
  | .hbm, ⟨19, _⟩ => ⟨S8190x512, .f32⟩
  | .hbm, ⟨20, _⟩ => ⟨S8190x512, .f32⟩
  | .hbm, ⟨21, _⟩ => ⟨S8190x512, .f32⟩
  | .hbm, ⟨22, _⟩ => ⟨S_, .f32⟩
  | .hbm, ⟨23, _⟩ => ⟨S8190x512, .f32⟩
  | .hbm, ⟨24, _⟩ => ⟨S8190x512, .f32⟩
  | .hbm, ⟨25, _⟩ => ⟨S8190x512, .f32⟩
  | .hbm, ⟨26, _⟩ => ⟨S_, .i32⟩
  | .hbm, ⟨27, _⟩ => ⟨S1, .i32⟩
  | .hbm, ⟨28, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S8192x512_S1x512_0_0 : S8192x512.Slices ![0, 0] S1x512
  shapeCasts_S1x512_S512 : S1x512.ShapeCasts S512
  bcast_S_S1 : S_.BroadcastsInDim S1 (![] : Fin 0 → Fin S1.rank)
  slices_S8192x512_S1x512_8191_0 : S8192x512.Slices ![8191, 0] S1x512
  slices_S8192x512_S8190x512_0_0 : S8192x512.Slices ![0, 0] S8190x512
  bcast_S_S8190x512 : S_.BroadcastsInDim S8190x512 (![] : Fin 0 → Fin S8190x512.rank)
  slices_S8192x512_S8190x512_1_0 : S8192x512.Slices ![1, 0] S8190x512
  slices_S8192x512_S8190x512_2_0 : S8192x512.Slices ![2, 0] S8190x512
  scatter_S8192x512_S1_S512_0_0_0_0_wf : ScatterDims.WF S8192x512 S1 S512 [0] [0] [0] 0
  scatter_S8192x512_S1_S8190x512_01_n_0_0_wf : ScatterDims.WF S8192x512 S1 S8190x512 [0, 1] [] [0] 0

variable [Facts₀]

def scatter_S8192x512_S1_S512_0_0_0_0 : ScatterDims S8192x512 S1 S512 where
  updateWindowDims := [0]
  insertedWindowDims := [0]
  scatterDimsToOperandDims := [0]
  indexVectorDim := 0
  wf := scatter_S8192x512_S1_S512_0_0_0_0_wf
def scatter_S8192x512_S1_S8190x512_01_n_0_0 : ScatterDims S8192x512 S1 S8190x512 where
  updateWindowDims := [0, 1]
  insertedWindowDims := []
  scatterDimsToOperandDims := [0]
  indexVectorDim := 0
  wf := scatter_S8192x512_S1_S8190x512_01_n_0_0_wf

class Facts : Prop extends Facts₀ where

variable [Facts]
-- ==== Proof.KernelIdealData.lean ====
/-
  The eight devices form a ring along the rows: device c holds rows [1024c, 1024c + 1024) of the array. Its first row
  needs the last row of the device before it, its last row the first row of the device after it. This module names
  the ring, the two rows each device sends, the two one-row slots each device receives into, the semaphores that count
  the four transfers and the entry handshake, and the contents every device starts from.
-/
import proofs.«900539_g7700000000000540_dist_halo_stencil_i_m1024_n512_v7x_i8_f32_1_alg».proof.Proof.Gen.KernelIdeal.Skeleton
import proofs.«900539_g7700000000000540_dist_halo_stencil_i_m1024_n512_v7x_i8_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

/-- The device holding the rows after `c`'s (cyclically), and the one holding the rows before. -/
def rgt (c : Dev nD) : Dev nD := ⟨(c.val + 1) % 8, Nat.mod_lt _ (by decide)⟩
def lft (c : Dev nD) : Dev nD := ⟨(c.val + 7) % 8, Nat.mod_lt _ (by decide)⟩

theorem lft_rgt (c : Dev nD) : lft (rgt c) = c := by revert c; decide
theorem rgt_lft (c : Dev nD) : rgt (lft c) = c := by revert c; decide
theorem rgt_ne_lft (c : Dev nD) : rgt c ≠ lft c := by revert c; decide
theorem lft_ne_rgt (c : Dev nD) : lft c ≠ rgt c := by revert c; decide

/-- The kernel's device words: (pos - 1) mod 8 is the device before, (pos + 1) mod 8 the device after. The two entry
    signals go before then after; the first transfer goes before, the second after. -/
theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = lft c := by revert c; decide +kernel
theorem dev4_eq (c : Dev nD) : (⟨k0_dev4 c, k0_dev4_lt c⟩ : Dev nD) = rgt c := by revert c; decide +kernel

def ringR : Dev nD ≃ Dev nD := ⟨rgt, lft, lft_rgt, rgt_lft⟩

/-! ## The buffers, the rows sent and the slots received into -/

abbrev xM : Memref sig .tc .vmem S1024x512 .f32 := Memref.whole cc0_stg0_0
abbrev oM : Memref sig .tc .vmem S1024x512 .f32 := Memref.whole cc0_stg1_0
abbrev hM : Memref sig .tc .vmem S2x1x512 .f32 := Memref.whole cc0_scratch0

abbrev rTop : Rect S1024x512 := Rect.unit (s := S1024x512) ![0, 0] S1x512.size inb_S1024x512_S1x512_0_0
abbrev rBot : Rect S1024x512 := Rect.unit (s := S1024x512) ![1023, 0] S1x512.size inb_S1024x512_S1x512_1023_0
abbrev rH0 : Rect S2x1x512 := Rect.unit (s := S2x1x512) ![0, 0, 0] S1x1x512.size inb_S2x1x512_S1x1x512_0_0_0
abbrev rH1 : Rect S2x1x512 := Rect.unit (s := S2x1x512) ![1, 0, 0] S1x1x512.size inb_S2x1x512_S1x1x512_1_0_0

/-- The first and the last row of a device's block: what it sends before and after. -/
abbrev xTop : Memref sig .tc .vmem S1x512 .f32 := xM.slice rTop (fun _ => rfl)
abbrev xBot : Memref sig .tc .vmem S1x512 .f32 := xM.slice rBot (fun _ => rfl)
/-- Slot 0 receives the last row of the device before, slot 1 the first row of the device after. -/
abbrev hS0 : Memref sig .tc .vmem S1x512 .f32 := (hM.slice rH0 (fun _ => rfl)).squeeze S1x512 squeezes_S1x1x512_S1x512
abbrev hS1 : Memref sig .tc .vmem S1x512 .f32 := (hM.slice rH1 (fun _ => rfl)).squeeze S1x512 squeezes_S1x1x512_S1x512

/-! ## The semaphores -/

abbrev barS : Sem sig := (SemArray.scalar (sig.barrier 0 rfl) : Sems sig S_).sem
/-- The send semaphores of the transfer before (index 1) and after (index 0); the receive semaphores counting the
    landing from the device after (index 1) and from the device before (index 0). -/
abbrev sndL : DmaSem sig := ((cc0_scratch1.slice (Rect.unit (s := S2) ![1] S1.size inb_S2_S1_1)).squeeze S_ squeezes_S1_S_).sem
abbrev sndR : DmaSem sig := ((cc0_scratch1.slice (Rect.unit (s := S2) ![0] S1.size inb_S2_S1_0)).squeeze S_ squeezes_S1_S_).sem
abbrev rcvR : DmaSem sig := ((cc0_scratch2.slice (Rect.unit (s := S2) ![1] S1.size inb_S2_S1_1)).squeeze S_ squeezes_S1_S_).sem
abbrev rcvL : DmaSem sig := ((cc0_scratch2.slice (Rect.unit (s := S2) ![0] S1.size inb_S2_S1_0)).squeeze S_ squeezes_S1_S_).sem

theorem sndL_eq : sndL = (3 : DmaSem sig) := by decide
theorem sndR_eq : sndR = (2 : DmaSem sig) := by decide
theorem rcvR_eq : rcvR = (5 : DmaSem sig) := by decide
theorem rcvL_eq : rcvL = (4 : DmaSem sig) := by decide

abbrev barCell (c : Dev nD) : GSem nD τ sig := ((c : Thread nD τ), .reg barS)
abbrev sLCell (c : Dev nD) : GSem nD τ sig := ((c : Thread nD τ), .dma sndL)
abbrev sRCell (c : Dev nD) : GSem nD τ sig := ((c : Thread nD τ), .dma sndR)
abbrev rLCell (c : Dev nD) : GSem nD τ sig := ((c : Thread nD τ), .dma rcvL)
abbrev rRCell (c : Dev nD) : GSem nD τ sig := ((c : Thread nD τ), .dma rcvR)

/-- The units one row's transfer credits. -/
abbrev N : ℕ := (hS0 : Memref sig .tc .vmem S1x512 .f32).view.dmaCredit
theorem N_pos : 0 < N := View.dmaCredit_pos _ (by decide)
theorem N_hS1 : (hS1 : Memref sig .tc .vmem S1x512 .f32).view.dmaCredit = N := by decide
theorem N_xTop : (xTop : Memref sig .tc .vmem S1x512 .f32).view.dmaCredit = N := by decide
theorem N_xBot : (xBot : Memref sig .tc .vmem S1x512 .f32).view.dmaCredit = N := by decide

/-! ## Contents -/

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Device `c`'s block of the array, as the pipeline stages it. -/
def xs (c : Dev nD) : (cc0_stg0_0 : Ref sig .tc).ty.Contents (Elt F) :=
  (win0_0.blk (0 : Fin 1)).view.read (Elt F) ((s₀ m ρ).mem ((c : Thread nD τ).loc main_arg0))

/-- The two slots filled: slot 0 with the last row of `xl`, slot 1 with the first row of `xr`. -/
def haloOf (xl xr : Vec F S1024x512 .f32) : Vec F S2x1x512 .f32 := fun i =>
  if (i 0).val = 0 then xl (ValueIdx.ix2 (⟨1023, by decide⟩ : Fin 1024) (i 2 : Fin 512))
  else xr (ValueIdx.ix2 (⟨0, by decide⟩ : Fin 1024) (i 2 : Fin 512))

/-- What device `c`'s two slots hold once both neighbours' rows have landed. -/
def hal (c : Dev nD) : (cc0_scratch0 : Ref sig .tc).ty.Contents (Elt F) := haloOf (xs m ρ (lft c)) (xs m ρ (rgt c))

/-! ## What a device computes -/

/-- The device's position on the ring as the kernel reads it: its logical id modulo 8. -/
def posWord (c : Dev nD) : BitVec 32 := Scalar.remsi (Scalar.divsi (Dev.word c) 1#32) 8#32

/-- The device's result block, by index, from its own block `x` and its two slots `h`: row 0 and row 1023 are the
    two boundary rows (the smoothing with the neighbour's row, or a copy on the first and the last device), rows 1 to
    512 and rows 513 to 1022 the two interior pieces. Each piece is the kernel body's own payload read at the piece's
    row. -/
def outAt (c : Dev nD) (x : Vec F S1024x512 .f32) (h : Vec F S2x1x512 .f32) : Vec F S1024x512 .f32 := fun i =>
  if h0 : (i 0).val = 0 then
    k0_pay8 (posWord c) (k0_pay1 x) ((hM : Memref sig .tc .vmem S2x1x512 .f32).view.readAt (Elt F) rH0.toLoadRect h)
      (ValueIdx.ix2 (⟨0, by decide⟩ : Fin 1) (i 1 : Fin 512))
  else if h1 : (i 0).val = 1023 then
    k0_pay9 (posWord c) (k0_pay6 (k0_pay1 x)) (k0_pay7 (k0_pay1 x)) ((hM : Memref sig .tc .vmem S2x1x512 .f32).view.readAt (Elt F) rH1.toLoadRect h)
      (ValueIdx.ix2 (⟨0, by decide⟩ : Fin 1) (i 1 : Fin 512))
  else if h2 : (i 0).val ≤ 512 then
    k0_pay3 (k0_pay1 x) (k0_pay2 x) (ValueIdx.ix2 (⟨(i 0).val - 1, by omega⟩ : Fin 512) (i 1 : Fin 512))
  else
    k0_pay5 (k0_pay1 x) (k0_pay4 (k0_pay1 x)) (Scalar.ofBits .f32 0x3E800000#32)
      (ValueIdx.ix2 (⟨(i 0).val - 513, by have h3 : (i 0).val < 1024 := (i 0).isLt; omega⟩ : Fin 510) (i 1 : Fin 512))

/-- Device `c`'s result block in the run from `m`. -/
def outOf (c : Dev nD) : (cc0_stg1_0 : Ref sig .tc).ty.Contents (Elt F) := outAt c (xs m ρ c) (hal m ρ c)

end Cert.KernelIdealProof

end
-- ==== Proof.KernelIdealSched.lean ====
/-
  The protocol of the eight devices, as a schedule of rounds. Every semaphore is waited once, so every cell has one
  round. A device's barrier cell collects one unit from each neighbour: the unit from the device before brings that
  device's slot 1 (where this device's first row will land), the unit from the device after brings that device's slot 0
  (where this device's last row will land). Each of the four transfer cells collects one row's credit: a send cell
  returns the row that was read, a receive cell hands over the slot with the neighbour's row in it.
-/
import proofs.«900539_g7700000000000540_dist_halo_stencil_i_m1024_n512_v7x_i8_f32_1_alg».proof.Proof.KernelIdealData

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## What is held of the buffers -/

/-- A device's slot 0 / slot 1 at some contents; its first / last row at the block's contents; the whole slots buffer. -/
def slot0Pts (c : Dev nD) (f : Buf (Elt F) ((hS0 : Memref sig .tc .vmem S1x512 .f32).view.loc (c : Thread nD τ))) : sProp 𝕄 :=
  (hS0 : Memref sig .tc .vmem S1x512 .f32).view.loc (c : Thread nD τ) ↦[(hS0 : Memref sig .tc .vmem S1x512 .f32).view.set]{fullShare} f
def slot1Pts (c : Dev nD) (f : Buf (Elt F) ((hS1 : Memref sig .tc .vmem S1x512 .f32).view.loc (c : Thread nD τ))) : sProp 𝕄 :=
  (hS1 : Memref sig .tc .vmem S1x512 .f32).view.loc (c : Thread nD τ) ↦[(hS1 : Memref sig .tc .vmem S1x512 .f32).view.set]{fullShare} f
def topPts (c : Dev nD) : sProp 𝕄 :=
  (xTop : Memref sig .tc .vmem S1x512 .f32).view.loc (c : Thread nD τ) ↦[(xTop : Memref sig .tc .vmem S1x512 .f32).view.set]{fullShare} xs m ρ c
def botPts (c : Dev nD) : sProp 𝕄 :=
  (xBot : Memref sig .tc .vmem S1x512 .f32).view.loc (c : Thread nD τ) ↦[(xBot : Memref sig .tc .vmem S1x512 .f32).view.set]{fullShare} xs m ρ c

omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance
omit [FloatOps F] in
instance topPts_storable (c : Dev nD) : BI.Storable (upEmb : UEmb _ 𝕄) (topPts (F := F) m ρ c) := by unfold topPts; infer_instance
omit [FloatOps F] in
instance botPts_storable (c : Dev nD) : BI.Storable (upEmb : UEmb _ 𝕄) (botPts (F := F) m ρ c) := by unfold botPts; infer_instance

/-! ## The schedule -/

/-- What the unit from the device before hands `c`: that device's slot 1 and that its receive-from-after cell is at
    round 0. What the unit from the device after hands `c`: that device's slot 0 and that its receive-from-before cell
    is at round 0. -/
def barPayF (c : Dev nD) : sProp 𝕄 := iprop((∃ f, slot1Pts (lft c) f) ∗ reached ER (rRCell (lft c)) 0)
def barPayT (c : Dev nD) : sProp 𝕄 := iprop((∃ f, slot0Pts (rgt c) f) ∗ reached ER (rLCell (rgt c)) 0)

abbrev IsBar (g : GSem nD τ sig) : Prop := g.1.2 = .tc ∧ g.2 = .reg barS
abbrev IsXfer (g : GSem nD τ sig) : Prop := g.1.2 = .tc ∧ (g.2 = .dma sndL ∨ g.2 = .dma sndR ∨ g.2 = .dma rcvL ∨ g.2 = .dma rcvR)

/-- One round, round 0: a barrier cell has the duties `false` (from the device before) and `true` (from the device
    after), one unit each; each transfer cell the duty `false` of one row's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayT g.1.1 else barPayF g.1.1)
    else if g.2 = .dma rcvL then slot0Pts g.1.1 (hal m ρ g.1.1)
    else if g.2 = .dma rcvR then slot1Pts g.1.1 (hal m ρ g.1.1)
    else if g.2 = .dma sndL then topPts m ρ g.1.1
    else if g.2 = .dma sndR then botPts m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then (if d then barPayT g.1.1 else barPayF g.1.1)
    else if g.2 = .dma rcvL then slot0Pts g.1.1 (hal m ρ g.1.1)
    else if g.2 = .dma rcvR then slot1Pts g.1.1 (hal m ρ g.1.1)
    else if g.2 = .dma sndL then topPts m ρ g.1.1
    else if g.2 = .dma sndR then botPts m ρ g.1.1
    else iprop(emp))
  unfold barPayT barPayF
  (repeat' split) <;> infer_instance

section Tables
variable (c : Dev nD)

theorem dma_ne_bar (q : DmaSem sig) : (SemLoc.dma q : SemLoc sig) ≠ .reg barS := fun h => by cases h
theorem sL_ne_rL : (SemLoc.dma sndL : SemLoc sig) ≠ .dma rcvL := by decide
theorem sL_ne_rR : (SemLoc.dma sndL : SemLoc sig) ≠ .dma rcvR := by decide
theorem sR_ne_rL : (SemLoc.dma sndR : SemLoc sig) ≠ .dma rcvL := by decide
theorem sR_ne_rR : (SemLoc.dma sndR : SemLoc sig) ≠ .dma rcvR := by decide
theorem sR_ne_sL : (SemLoc.dma sndR : SemLoc sig) ≠ .dma sndL := by decide
theorem rR_ne_rL : (SemLoc.dma rcvR : SemLoc sig) ≠ .dma rcvL := by decide

omit [FloatOps F] in
theorem duties_bar : (sched (F := F) m ρ).duties (barCell c) 0 = Finset.univ := by dsimp only [sched]; exact if_pos ⟨rfl, rfl, rfl⟩
omit [FloatOps F] in
theorem duties_sL : (sched (F := F) m ρ).duties (sLCell c) 0 = {false} := by
  dsimp only [sched]; rw [if_neg (fun h => dma_ne_bar _ h.2.2)]; exact if_pos ⟨rfl, rfl, .inl rfl⟩
omit [FloatOps F] in
theorem duties_sR : (sched (F := F) m ρ).duties (sRCell c) 0 = {false} := by
  dsimp only [sched]; rw [if_neg (fun h => dma_ne_bar _ h.2.2)]; exact if_pos ⟨rfl, rfl, .inr (.inl rfl)⟩
omit [FloatOps F] in
theorem duties_rL : (sched (F := F) m ρ).duties (rLCell c) 0 = {false} := by
  dsimp only [sched]; rw [if_neg (fun h => dma_ne_bar _ h.2.2)]; exact if_pos ⟨rfl, rfl, .inr (.inr (.inl rfl))⟩
omit [FloatOps F] in
theorem duties_rR : (sched (F := F) m ρ).duties (rRCell c) 0 = {false} := by
  dsimp only [sched]; rw [if_neg (fun h => dma_ne_bar _ h.2.2)]; exact if_pos ⟨rfl, rfl, .inr (.inr (.inr rfl))⟩
omit [FloatOps F] in
theorem duties_later (g : GSem nD τ sig) : ∀ r, 1 ≤ r → (sched (F := F) m ρ).duties g r = ∅ :=
  fun r hr => by dsimp only [sched]; rw [if_neg fun h => by omega, if_neg fun h => by omega]

omit [FloatOps F] in
theorem amount_bar (d : Bool) : (sched (F := F) m ρ).amount (barCell c) 0 d = 1 := by dsimp only [sched]; exact if_pos rfl
omit [FloatOps F] in
theorem amount_dma (q : DmaSem sig) (d : Bool) : (sched (F := F) m ρ).amount ((c : Thread nD τ), .dma q) 0 d = N := by
  dsimp only [sched]; exact if_neg (dma_ne_bar q)

omit [FloatOps F] in
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_sL : (sched (F := F) m ρ).expect (sLCell c) 0 = N := by
  unfold Schedule.expect Schedule.amountOf; rw [duties_sL, Finset.sum_singleton, amount_dma]
omit [FloatOps F] in
theorem expect_sR : (sched (F := F) m ρ).expect (sRCell c) 0 = N := by
  unfold Schedule.expect Schedule.amountOf; rw [duties_sR, Finset.sum_singleton, amount_dma]
omit [FloatOps F] in
theorem expect_rL : (sched (F := F) m ρ).expect (rLCell c) 0 = N := by
  unfold Schedule.expect Schedule.amountOf; rw [duties_rL, Finset.sum_singleton, amount_dma]
omit [FloatOps F] in
theorem expect_rR : (sched (F := F) m ρ).expect (rRCell c) 0 = N := by
  unfold Schedule.expect Schedule.amountOf; rw [duties_rR, Finset.sum_singleton, amount_dma]

omit [FloatOps F] in
theorem payload_bar_true : (sched (F := F) m ρ).payload (barCell c) 0 true = barPayT c := by dsimp only [sched]; rw [if_pos rfl, if_pos rfl]
omit [FloatOps F] in
theorem payload_bar_false : (sched (F := F) m ρ).payload (barCell c) 0 false = barPayF c := by
  dsimp only [sched]; rw [if_pos rfl]; exact if_neg Bool.false_ne_true
omit [FloatOps F] in
theorem payload_rL (d : Bool) : (sched (F := F) m ρ).payload (rLCell c) 0 d = slot0Pts c (hal m ρ c) := by
  dsimp only [sched]; rw [if_neg (dma_ne_bar _), if_pos rfl]
omit [FloatOps F] in
theorem payload_rR (d : Bool) : (sched (F := F) m ρ).payload (rRCell c) 0 d = slot1Pts c (hal m ρ c) := by
  dsimp only [sched]; rw [if_neg (dma_ne_bar _), if_neg rR_ne_rL, if_pos rfl]
omit [FloatOps F] in
theorem payload_sL (d : Bool) : (sched (F := F) m ρ).payload (sLCell c) 0 d = topPts m ρ c := by
  dsimp only [sched]; rw [if_neg (dma_ne_bar _), if_neg sL_ne_rL, if_neg sL_ne_rR, if_pos rfl]
omit [FloatOps F] in
theorem payload_sR (d : Bool) : (sched (F := F) m ρ).payload (sRCell c) 0 d = botPts m ρ c := by
  dsimp only [sched]; rw [if_neg (dma_ne_bar _), if_neg sR_ne_rL, if_neg sR_ne_rR, if_neg sR_ne_sL, if_pos rfl]

omit [FloatOps F] in
/-- The whole of the barrier cell's round: both neighbours' slots. -/
theorem rest_bar : bigSep ((sched (F := F) m ρ).duties (barCell c) 0 \ ∅) (fun d => (sched (F := F) m ρ).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
omit [FloatOps F] in
theorem rest_sL : bigSep ((sched (F := F) m ρ).duties (sLCell c) 0 \ ∅) (fun d => (sched (F := F) m ρ).payload (sLCell c) 0 d) = topPts m ρ c := by
  rw [Finset.sdiff_empty, duties_sL, bigSep_singleton, payload_sL]
omit [FloatOps F] in
theorem rest_sR : bigSep ((sched (F := F) m ρ).duties (sRCell c) 0 \ ∅) (fun d => (sched (F := F) m ρ).payload (sRCell c) 0 d) = botPts m ρ c := by
  rw [Finset.sdiff_empty, duties_sR, bigSep_singleton, payload_sR]
omit [FloatOps F] in
theorem rest_rL : bigSep ((sched (F := F) m ρ).duties (rLCell c) 0 \ ∅) (fun d => (sched (F := F) m ρ).payload (rLCell c) 0 d) = slot0Pts c (hal m ρ c) := by
  rw [Finset.sdiff_empty, duties_rL, bigSep_singleton, payload_rL]
omit [FloatOps F] in
theorem rest_rR : bigSep ((sched (F := F) m ρ).duties (rRCell c) 0 \ ∅) (fun d => (sched (F := F) m ρ).payload (rRCell c) 0 d) = slot1Pts c (hal m ρ c) := by
  rw [Finset.sdiff_empty, duties_rR, bigSep_singleton, payload_rR]

end Tables

/-! ## What each device owes at launch; the levels -/

/-- Device `c` owes one row's credit to the receive-from-before cell of the device after it and to the
    receive-from-after cell of the device before it, and one unit to each neighbour's barrier cell — summed so that
    its operations peel the summands from the right in program order: the signal before, the signal after, the
    transfer before, the transfer after. -/
def O₃ (c : Dev nD) : CellTallies nD τ sig Unit := tallyAt (rLCell (rgt c)) () N
def O₂ (c : Dev nD) : CellTallies nD τ sig Unit := O₃ c + tallyAt (rRCell (lft c)) () N
def O₁ (c : Dev nD) : CellTallies nD τ sig Unit := O₂ c + tallyAt (barCell (rgt c)) () 1
def O₀ (c : Dev nD) : CellTallies nD τ sig Unit := O₁ c + tallyAt (barCell (lft c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma rcvL ∨ g.2 = .dma rcvR then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) : g = rLCell (rgt c) ∨ g = rRCell (lft c) := by
  unfold O₂ O₃ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rLCell (rgt c) ∨ g = rRCell (lft c) ∨ g = barCell (rgt c) ∨ g = barCell (lft c) := by
  unfold O₀ O₁ O₂ O₃ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

theorem lv_rL (c : Dev nD) : lv (rLCell c) () = 2 := by dsimp only [lv]; rw [if_neg (dma_ne_bar _), if_pos (.inl rfl)]
theorem lv_rR (c : Dev nD) : lv (rRCell c) () = 2 := by dsimp only [lv]; rw [if_neg (dma_ne_bar _), if_pos (.inr rfl)]
theorem lv_bar (c : Dev nD) : lv (barCell c) () = 1 := by dsimp only [lv]; rw [if_pos rfl]

omit [FloatOps F] in
/-- A staging or send cell (level 0) may be waited on whatever the device still owes. -/
theorem mayWait_low (c : Dev nD) (q : DmaSem sig) (hq : SemLoc.dma q ≠ .dma rcvL ∧ SemLoc.dma q ≠ .dma rcvR) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by rw [Finset.mem_singleton.mp hp]; dsimp only [lv]; rw [if_neg (dma_ne_bar _), if_neg (fun h => h.elim hq.1 hq.2)])
      (fun g u hg => by
        rcases O₀_pos hg with rfl | rfl | rfl | rfl
        · rw [lv_rL]; decide
        · rw [lv_rR]; decide
        · rw [lv_bar]; decide
        · rw [lv_bar]; decide)
  · rw [MayWait_zero]; iintro -; iempintro

omit [FloatOps F] in
/-- At its barrier wait a device owes the two receive credits only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> (rw [L_tc]; exact Finset.mem_singleton_self _))
    (fun p hp => by rw [Finset.mem_singleton.mp hp]; exact (lv_bar c).le)
    (fun g u hg => by
      rcases O₂_pos hg with rfl | rfl
      · rw [lv_rL]; decide
      · rw [lv_rR]; decide)

end Cert.KernelIdealProof

end
-- ==== Proof.KernelIdealGhost.lean ====
/-
  What one device holds when its body starts and when it ends: the invariants of the cells it touches, its position on
  each of its own five cells, the tokens of the six duties it pays (one unit to each neighbour's barrier cell, one row
  to a receive cell of each neighbour, one row to each of its own send cells), the credit for its own three waits on
  cells others pay, and its slots buffer; and the pipeline's proof data built from them: the staged block unchanged,
  the result block the smoothing of the device's rows.
-/
import proofs.«900539_g7700000000000540_dist_halo_stencil_i_m1024_n512_v7x_i8_f32_1_alg».proof.Proof.KernelIdealSched

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by number, and the ghost state a device starts from -/

/-- A device's five cells: barrier, send before, send after, receive from before, receive from after. -/
abbrev csem : Fin 5 → SemLoc sig := fun | 0 => .reg barS | 1 => .dma sndL | 2 => .dma sndR | 3 => .dma rcvL | 4 => .dma rcvR
abbrev kcell (ck : Dev nD × Fin 5) : GSem nD τ sig := ((ck.1 : Thread nD τ), csem ck.2)

/-- The invariants device `c`'s body opens: its own five cells, both neighbours' barrier cells (its two signals), the
    receive-from-after cell of the device before and the receive-from-before cell of the device after (its transfers). -/
def invs (K : Dev nD × Fin 5 → ℕ) (c : Dev nD) : sProp 𝕄 :=
  iprop(cellInv ER (sched m ρ) (K (c, 0)) (barCell c) ∗ cellInv ER (sched m ρ) (K (c, 1)) (sLCell c) ∗ cellInv ER (sched m ρ) (K (c, 2)) (sRCell c)
    ∗ cellInv ER (sched m ρ) (K (c, 3)) (rLCell c) ∗ cellInv ER (sched m ρ) (K (c, 4)) (rRCell c)
    ∗ cellInv ER (sched m ρ) (K (lft c, 0)) (barCell (lft c)) ∗ cellInv ER (sched m ρ) (K (rgt c, 0)) (barCell (rgt c))
    ∗ cellInv ER (sched m ρ) (K (lft c, 4)) (rRCell (lft c)) ∗ cellInv ER (sched m ρ) (K (rgt c, 3)) (rLCell (rgt c)))

instance invs_persistent (K : Dev nD × Fin 5 → ℕ) (c : Dev nD) : BI.Persistent (invs m ρ K c) := by unfold invs; infer_instance

/-- The ghost state device `c` starts from: the invariants; its positions at round 0 of its five cells; round 0 reached
    of the cells it pays and of its own transfer cells; the six tokens of the duties it pays. -/
def ghost (K : Dev nD × Fin 5 → ℕ) (c : Dev nD) : sProp 𝕄 :=
  iprop(invs m ρ K c
    ∗ atPos ER (barCell c) 0 ∅ 0 ∗ atPos ER (sLCell c) 0 ∅ 0 ∗ atPos ER (sRCell c) 0 ∅ 0 ∗ atPos ER (rLCell c) 0 ∅ 0 ∗ atPos ER (rRCell c) 0 ∅ 0
    ∗ reached ER (barCell (lft c)) 0 ∗ reached ER (barCell (rgt c)) 0 ∗ reached ER (rRCell (lft c)) 0 ∗ reached ER (rLCell (rgt c)) 0
    ∗ reached ER (sLCell c) 0 ∗ reached ER (sRCell c) 0 ∗ reached ER (rLCell c) 0 ∗ reached ER (rRCell c) 0
    ∗ dutyTok ER (barCell (lft c)) 0 true ∗ dutyTok ER (barCell (rgt c)) 0 false
    ∗ dutyTok ER (rRCell (lft c)) 0 false ∗ dutyTok ER (rLCell (rgt c)) 0 false
    ∗ dutyTok ER (sLCell c) 0 false ∗ dutyTok ER (sRCell c) 0 false)

/-- The whole slots buffer of device `c` at some contents. -/
def hPts (c : Dev nD) (f : Buf (Elt F) ((c : Thread nD τ).loc cc0_scratch0)) : sProp 𝕄 := ((c : Thread nD τ).loc cc0_scratch0) ↦{fullShare} f

/-- What device `c`'s body starts from besides the staged blocks: the ghost state at some names, the credit of what it
    will wait for (two barrier units, one row on each receive cell) and the levels. -/
def start (c : Dev nD) : sProp 𝕄 :=
  iprop((∃ K, ghost m ρ K c) ∗ cred (tallyAt (barCell c) () 2) ∗ cred (tallyAt (rLCell c) () N) ∗ cred (tallyAt (rRCell c) () N) ∗ levAts L lv)

def Φ₀ (c : Dev nD) : sProp 𝕄 := iprop(start m ρ c ∗ ∃ f, hPts c f)
/-- After the body: the slots buffer back whole, the four own transfer cells closed at zero. -/
def Φ₁ (c : Dev nD) : sProp 𝕄 :=
  iprop((∃ f, hPts (F := F) c f) ∗ semVal (sLCell c) 0 ∗ semVal (sRCell c) 0 ∗ semVal (rLCell c) 0 ∗ semVal (rRCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outOf m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealLaunch.lean ====
/-
  The launch of the eight devices. Every device enters with all its semaphore counters at zero. From that and the
  protocol's launch element each of a device's five cells — its barrier cell, its two send cells, its two receive
  cells — gets its invariant, its owner's position at round 0 and the tokens of its duties; the tokens are then dealt
  around the ring to the devices that pay them: a barrier cell's duty false to the device before (which signals the
  device after it), its duty true to the device after, a receive-from-before cell's duty to the device before, a
  receive-from-after cell's duty to the device after. What every device owes at launch, summed over the ring, is the
  credit each device waits for: two units on its barrier cell, one row on each of its receive cells. With these the
  proof of one device's body gives the run of all eight: it terminates, the staged array is unchanged and each
  device's result array holds its result block.
-/
import proofs.«900539_g7700000000000540_dist_halo_stencil_i_m1024_n512_v7x_i8_f32_1_alg».proof.Proof.KernelIdealGhost

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells and the tokens -/

/-- The kernel's own scoped semaphores: the four that count its transfers. The barrier semaphore is not scoped. -/
abbrev osem : Fin 4 → SemLoc sig := fun | 0 => .dma sndL | 1 => .dma sndR | 2 => .dma rcvL | 3 => .dma rcvR

theorem ownSemFacts : Pipeline.OwnSemFacts cfg0.spec osem := by decide

theorem share_eq (c : Dev nD) (w : Fin cfg0.W) : (dats m ρ 0 c).share w = fullShare := by unfold Dat.share; split <;> rfl

theorem csem_injective : ∀ k k' : Fin 5, csem k = csem k' → k = k' := by decide

/-- Distinct (device, number) pairs name distinct cells. -/
theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : k = k' := csem_injective k k' (congrArg Prod.snd h)
  subst h2; rfl

/-- All forty cells of the protocol. -/
def haloCells : Finset (GSem nD τ sig) := Finset.univ.map ⟨kcell, kcell_injective⟩

/-- A device's own cells carry six duties: the barrier cell's two, one on each transfer cell. Duty j is on the cell
    numbered tokCell j and is the duty tokDuty j there. -/
abbrev tokCell : Fin 6 → Fin 5 := fun | 0 => 0 | 1 => 0 | 2 => 1 | 3 => 2 | 4 => 3 | 5 => 4
abbrev tokDuty : Fin 6 → Bool := fun | 0 => false | 1 => true | 2 => false | 3 => false | 4 => false | 5 => false
abbrev tokOf (cj : Dev nD × Fin 6) : GSem nD τ sig × ℕ × Bool := (kcell (cj.1, tokCell cj.2), 0, tokDuty cj.2)

theorem tok_split : ∀ j j' : Fin 6, tokCell j = tokCell j' → tokDuty j = tokDuty j' → j = j' := by decide

theorem tokOf_injective : Function.Injective (tokOf : Dev nD × Fin 6 → GSem nD τ sig × ℕ × Bool) := by
  rintro ⟨c, j⟩ ⟨c', j'⟩ h
  have hk : ((c, tokCell j) : Dev nD × Fin 5) = (c', tokCell j') := kcell_injective (congrArg Prod.fst h)
  have hd : tokDuty j = tokDuty j' := congrArg (fun x : GSem nD τ sig × ℕ × Bool => x.2.2) h
  have hc : c = c' := congrArg Prod.fst hk
  have hj : j = j' := tok_split j j' (congrArg Prod.snd hk) hd
  subst hc; subst hj; rfl

/-- All forty-eight duty tokens of round 0. -/
def haloToks : Finset (GSem nD τ sig × ℕ × Bool) := Finset.univ.map ⟨tokOf, tokOf_injective⟩

/-- The launch element: the pipeline's beside the protocol's. -/
def u₀ : UU :=
  (initOf (Pipeline.cells cfgs cellOf_inj) (Pipeline.launchToks cfgs cellOf_inj), initOf haloCells haloToks)

/-- The duty tokens of a device's own cells. -/
def toks (c : Dev nD) : sProp 𝕄 :=
  iprop(dutyTok ER (barCell c) 0 false ∗ dutyTok ER (barCell c) 0 true ∗ dutyTok ER (sLCell c) 0 false ∗ dutyTok ER (sRCell c) 0 false
    ∗ dutyTok ER (rLCell c) 0 false ∗ dutyTok ER (rRCell c) 0 false)

/-- What the launch element deals a device: the round state of its five cells at counter zero, its position on each
    with round 0 reached, and its cells' tokens. -/
def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)

/-- What a device holds once every cell's invariant is allocated and the tokens are dealt. -/
def G' (c : Dev nD) : sProp 𝕄 := iprop(∃ K, ghost m ρ K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The protocol's launch element, device by device. -/
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, and the tokens dealt around the ring -/

/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sLCell c) 0 ∗ semVal (sRCell c) 0 ∗ semVal (rLCell c) 0 ∗ semVal (rRCell c) 0) := by
  rw [Pipeline.ownSems0_eq_of_list c osem [0, 1, 2, 3] (by decide) (by decide)]; rfl
/-- the barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

/-- One device: from its five counters at zero and its cells' round states, the five invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may keep a copy of: all forty invariants at their names, and round 0 reached of all forty cells. -/
def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the six duties a device pays, -/
def payToks (c : Dev nD) : sProp 𝕄 :=
  iprop(dutyTok ER (barCell (lft c)) 0 true ∗ dutyTok ER (barCell (rgt c)) 0 false
    ∗ dutyTok ER (rRCell (lft c)) 0 false ∗ dutyTok ER (rLCell (rgt c)) 0 false
    ∗ dutyTok ER (sLCell c) 0 false ∗ dutyTok ER (sRCell c) 0 false)
/-- and, with its positions on its own five cells, all that it holds alone. -/
def linear (c : Dev nD) : sProp 𝕄 :=
  iprop((atPos ER (barCell c) 0 ∅ 0 ∗ atPos ER (sLCell c) 0 ∅ 0 ∗ atPos ER (sRCell c) 0 ∅ 0 ∗ atPos ER (rLCell c) 0 ∅ 0 ∗ atPos ER (rRCell c) 0 ∅ 0)
    ∗ payToks c)

theorem ghost_intro (K : Dev nD × Fin 5 → ℕ) (c : Dev nD) : iprop(records m ρ K ∗ linear c) ⊢ G' m ρ c := by
  unfold records linear payToks G' ghost invs
  iintro ⟨⟨#HI, #HR⟩, ⟨Ha0, Ha1, Ha2, Ha3, Ha4⟩, Ht1, Ht2, Ht3, Ht4, Ht5, Ht6⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (lft c, 0)); iexact HI
    isplitr; · iapply (inv_at m ρ K (rgt c, 0)); iexact HI
    isplitr; · iapply (inv_at m ρ K (lft c, 4)); iexact HI
    iapply (inv_at m ρ K (rgt c, 3)); iexact HI
  isplitl [Ha0]; · iexact Ha0
  isplitl [Ha1]; · iexact Ha1
  isplitl [Ha2]; · iexact Ha2
  isplitl [Ha3]; · iexact Ha3
  isplitl [Ha4]; · iexact Ha4
  isplitr; · iapply (reached_at (F := F) (lft c, 0)); iexact HR
  isplitr; · iapply (reached_at (F := F) (rgt c, 0)); iexact HR
  isplitr; · iapply (reached_at (F := F) (lft c, 4)); iexact HR
  isplitr; · iapply (reached_at (F := F) (rgt c, 3)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [Ht1]; · iexact Ht1
  isplitl [Ht2]; · iexact Ht2
  isplitl [Ht3]; · iexact Ht3
  isplitl [Ht4]; · iexact Ht4
  isplitl [Ht5]; · iexact Ht5
  iexact Ht6

/-- The tokens dealt around the ring: a barrier cell's duty false and a receive-from-before cell's duty go to the device
    before the cell's owner, a barrier cell's duty true and a receive-from-after cell's duty to the device after it; the
    send cells' duties stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv ringR (fun c : Dev nD => (dutyTok ER (barCell c) 0 false : sProp 𝕄)),
    bigSep_univ_equiv ringR.symm (fun c : Dev nD => (dutyTok ER (barCell c) 0 true : sProp 𝕄)),
    bigSep_univ_equiv ringR (fun c : Dev nD => (dutyTok ER (rLCell c) 0 false : sProp 𝕄)),
    bigSep_univ_equiv ringR.symm (fun c : Dev nD => (dutyTok ER (rRCell c) 0 false : sProp 𝕄))]
  iintro ⟨HbF, HbT, HsL, HsR, HrL, HrR⟩
  isplitl [HbT]; · iexact HbT
  isplitl [HbF]; · iexact HbF
  isplitl [HrR]; · iexact HrR
  isplitl [HrL]; · iexact HrL
  isplitl [HsL]; · iexact HsL
  iexact HsR

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices at once: the invariants named, everything persistent copied to every device, the tokens dealt. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit

What the devices owe at launch is a sum of four one-cell dues, each addressed through a bijection of the ring; so the
credit a device is dealt splits into four, each on one of its own cells. -/

theorem cred_rL (c : Dev nD) :
    (Pipeline.launchCred (fun d : Dev nD => (tallyAt (rLCell (rgt d)) () N : CellTallies nD τ sig Unit)) c : sProp 𝕄) ⊢ cred (tallyAt (rLCell c) () N) :=
  Pipeline.launchCred_tallyAt (.dma rcvL) rgt lft rgt_lft lft_rgt () N c
theorem cred_rR (c : Dev nD) :
    (Pipeline.launchCred (fun d : Dev nD => (tallyAt (rRCell (lft d)) () N : CellTallies nD τ sig Unit)) c : sProp 𝕄) ⊢ cred (tallyAt (rRCell c) () N) :=
  Pipeline.launchCred_tallyAt (.dma rcvR) lft rgt lft_rgt rgt_lft () N c
theorem cred_barR (c : Dev nD) :
    (Pipeline.launchCred (fun d : Dev nD => (tallyAt (barCell (rgt d)) () 1 : CellTallies nD τ sig Unit)) c : sProp 𝕄) ⊢ cred (tallyAt (barCell c) () 1) :=
  Pipeline.launchCred_tallyAt (.reg barS) rgt lft rgt_lft lft_rgt () 1 c
theorem cred_barL (c : Dev nD) :
    (Pipeline.launchCred (fun d : Dev nD => (tallyAt (barCell (lft d)) () 1 : CellTallies nD τ sig Unit)) c : sProp 𝕄) ⊢ cred (tallyAt (barCell c) () 1) :=
  Pipeline.launchCred_tallyAt (.reg barS) lft rgt lft_rgt rgt_lft () 1 c

theorem O₀_eq : (O₀ : Dev nD → CellTallies nD τ sig Unit)
    = fun d => ((tallyAt (rLCell (rgt d)) () N + tallyAt (rRCell (lft d)) () N) + tallyAt (barCell (rgt d)) () 1) + tallyAt (barCell (lft d)) () 1 := rfl

theorem bar_two (c : Dev nD) : (tallyAt (barCell c) () 2 : CellTallies nD τ sig Unit) = tallyAt (barCell c) () 1 + tallyAt (barCell c) () 1 :=
  (tallyAt_add (barCell c) () 1 1).symm

/-- The credit a device starts with: two units on its barrier cell, one row on each receive cell. -/
theorem creds (c : Dev nD) :
    (Pipeline.launchCred O₀ c : sProp 𝕄)
      ⊢ iprop(cred (tallyAt (barCell c) () 2) ∗ cred (tallyAt (rLCell c) () N) ∗ cred (tallyAt (rRCell c) () N)) := by
  rw [O₀_eq, Pipeline.launchCred_add, Pipeline.launchCred_add, Pipeline.launchCred_add, bar_two]
  iintro ⟨⟨⟨HrL, HrR⟩, HbR⟩, HbL⟩
  ihave H1 := (cred_rL (F := F) c) $$ HrL
  ihave H2 := (cred_rR (F := F) c) $$ HrR
  ihave H3 := (cred_barR (F := F) c) $$ HbR
  ihave H4 := (cred_barL (F := F) c) $$ HbL
  isplitl [H3 H4]
  · iapply (cred_add _ _).2
    isplitl [H3] <;> iassumption
  isplitl [H1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H2, HL, HR⟩
  imodintro
  unfold start G'
  isplitl
  · isplitl [HG]; · iexact HG
    isplitl [H2]; · iexact H2
    isplitl [HL]; · iexact HL
    isplitl [HR]; · iexact HR
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ hPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ hPts
  iintro ⟨⟨%f, Hr⟩, H1, H2, H3, H4⟩
  isplitr; · iempintro
  isplitl [H1 H2 H3 H4]
  · isplitl [H1]; · iexact H1
    isplitl [H2]; · iexact H2
    isplitl [H3] <;> iassumption
  iexists f; iexact Hr

/-- The pipeline's own waits are on staging cells, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The arrays of a device after the last point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: if one device's
    body, started from what the launch hands it, ends with its result block in the staging buffer and its slots and
    transfer semaphores given back, then every weakly fair execution of @main terminates, and in every final state
    each device's two arrays hold the final arrays named above. -/
theorem run_main_of (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The staged array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's result block: the one point writes the whole staging buffer
    back over the whole array. -/
theorem finalA_out (c : Dev nD) : finalA m ρ c (1 : Fin 2) = outOf m ρ c := by
  unfold finalA
  have h := (dats (F := F) m ρ 0 c).arrAt_succ (1 : Fin 2) t₀
  have hf : (cfg0.win (1 : Fin 2)).flush t₀ = true := by decide
  rw [hf, if_pos rfl] at h
  have hz : (fun a => (cfg0.win (1 : Fin 2)).index t₀ a * (cfg0.win (1 : Fin 2)).size a) = fun _ => 0 := funext fun a => Nat.zero_mul _
  exact h.trans (Memref.write_access_unit_zero_univ (Elt F) main_v1 hz _ _ _)

/-- info: 'Cert.KernelIdealProof.run_main_of' depends on axioms: [propext, Classical.choice, Quot.sound] -/
#guard_msgs in #print axioms run_main_of

/-- info: 'Cert.KernelIdealProof.finalA_out' depends on axioms: [propext, Classical.choice, Quot.sound] -/
#guard_msgs in #print axioms finalA_out

end Cert.KernelIdealProof

end
-- ==== Proof.KernelIdealClaims.lean ====
/-
  What the run of the eight devices leaves in memory, said of the launch contents alone. A device's staged block is
  its whole argument array, so its result block is a function of three argument arrays: its own and its two ring
  neighbours'. Hence: if one device's body meets its obligation, every weakly fair execution of @main terminates,
  each device's result array ends at that function of the three arrays, and every argument array ends unchanged.
-/
import proofs.«900539_g7700000000000540_dist_halo_stencil_i_m1024_n512_v7x_i8_f32_1_alg».proof.Proof.KernelIdealLaunch

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged block is the whole argument array: the window's one block covers it from offset zero. -/
theorem xs_eq (c : Dev nD) : xs m ρ c = m ((c : Thread nD τ).loc main_arg0) := by
  have hz : (fun a => win0_0.index (0 : Fin 1) a * win0_0.size a) = fun _ => 0 := funext fun a => Nat.zero_mul _
  unfold xs
  exact Memref.read_access_unit_zero (Elt F) main_arg0 hz _ _

/-- A device's result block from the three argument arrays it depends on. -/
theorem outOf_eq (c : Dev nD) :
    outOf m ρ c = outAt c (m ((c.tc : Thread nD τ).loc main_arg0))
      (haloOf (m (((lft c).tc : Thread nD τ).loc main_arg0)) (m (((rgt c).tc : Thread nD τ).loc main_arg0))) := by
  unfold outOf hal
  rw [xs_eq m ρ c, xs_eq m ρ (lft c), xs_eq m ρ (rgt c)]

/-- The run, with every value named from the launch contents: each device's result array holds its result block as a
    function of its own and its two neighbours' argument arrays, and its argument array holds what it held. -/
theorem run_values (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt c (m ((c.tc : Thread nD τ).loc main_arg0)) (haloOf (m (((lft c).tc : Thread nD τ).loc main_arg0)) (m (((rgt c).tc : Thread nD τ).loc main_arg0)))
      ∧ r.2.mem ((c.tc : Thread nD τ).loc main_arg0) = m ((c.tc : Thread nD τ).loc main_arg0)) :=
  (θ_run defs _ _).mono (fun r h c =>
      ⟨(h c (1 : Fin 2)).trans ((finalA_out m ρ c).trans (outOf_eq m ρ c)),
       (h c (0 : Fin 2)).trans (finalA_x m ρ c)⟩)
    (run_main_of m ρ hbody)

/-- info: 'Cert.KernelIdealProof.run_values' depends on axioms: [propext, Classical.choice, Quot.sound] -/
#guard_msgs in #print axioms run_values

end Cert.KernelIdealProof

end
-- ==== Proof.KernelData.lean ====
/-
  The eight devices form a ring along the rows: device c holds rows [1024c, 1024c + 1024) of the array. Its first row
  needs the last row of the device before it, its last row the first row of the device after it. This module names
  the ring, the two rows each device sends, the two one-row slots each device receives into, the semaphores that count
  the four transfers and the entry handshake, and the contents every device starts from.
-/
import proofs.«900539_g7700000000000540_dist_halo_stencil_i_m1024_n512_v7x_i8_f32_1_alg».proof.Proof.Gen.Kernel.Skeleton
import proofs.«900539_g7700000000000540_dist_halo_stencil_i_m1024_n512_v7x_i8_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring -/

/-- The device holding the rows after `c`'s (cyclically), and the one holding the rows before. -/
def rgt (c : Dev nD) : Dev nD := ⟨(c.val + 1) % 8, Nat.mod_lt _ (by decide)⟩
def lft (c : Dev nD) : Dev nD := ⟨(c.val + 7) % 8, Nat.mod_lt _ (by decide)⟩

theorem lft_rgt (c : Dev nD) : lft (rgt c) = c := by revert c; decide
theorem rgt_lft (c : Dev nD) : rgt (lft c) = c := by revert c; decide
theorem rgt_ne_lft (c : Dev nD) : rgt c ≠ lft c := by revert c; decide
theorem lft_ne_rgt (c : Dev nD) : lft c ≠ rgt c := by revert c; decide

/-- The kernel's device words: (pos - 1) mod 8 is the device before, (pos + 1) mod 8 the device after. The two entry
    signals go before then after; the first transfer goes before, the second after. -/
theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = lft c := by revert c; decide +kernel
theorem dev4_eq (c : Dev nD) : (⟨k0_dev4 c, k0_dev4_lt c⟩ : Dev nD) = rgt c := by revert c; decide +kernel

def ringR : Dev nD ≃ Dev nD := ⟨rgt, lft, lft_rgt, rgt_lft⟩

/-! ## The buffers, the rows sent and the slots received into -/

abbrev xM : Memref sig .tc .vmem S1024x512 .f32 := Memref.whole cc0_stg0_0
abbrev oM : Memref sig .tc .vmem S1024x512 .f32 := Memref.whole cc0_stg1_0
abbrev hM : Memref sig .tc .vmem S2x1x512 .f32 := Memref.whole cc0_scratch0

abbrev rTop : Rect S1024x512 := Rect.unit (s := S1024x512) ![0, 0] S1x512.size inb_S1024x512_S1x512_0_0
abbrev rBot : Rect S1024x512 := Rect.unit (s := S1024x512) ![1023, 0] S1x512.size inb_S1024x512_S1x512_1023_0
abbrev rH0 : Rect S2x1x512 := Rect.unit (s := S2x1x512) ![0, 0, 0] S1x1x512.size inb_S2x1x512_S1x1x512_0_0_0
abbrev rH1 : Rect S2x1x512 := Rect.unit (s := S2x1x512) ![1, 0, 0] S1x1x512.size inb_S2x1x512_S1x1x512_1_0_0

/-- The first and the last row of a device's block: what it sends before and after. -/
abbrev xTop : Memref sig .tc .vmem S1x512 .f32 := xM.slice rTop (fun _ => rfl)
abbrev xBot : Memref sig .tc .vmem S1x512 .f32 := xM.slice rBot (fun _ => rfl)
/-- Slot 0 receives the last row of the device before, slot 1 the first row of the device after. -/
abbrev hS0 : Memref sig .tc .vmem S1x512 .f32 := (hM.slice rH0 (fun _ => rfl)).squeeze S1x512 squeezes_S1x1x512_S1x512
abbrev hS1 : Memref sig .tc .vmem S1x512 .f32 := (hM.slice rH1 (fun _ => rfl)).squeeze S1x512 squeezes_S1x1x512_S1x512

/-! ## The semaphores -/

abbrev barS : Sem sig := (SemArray.scalar (sig.barrier 0 rfl) : Sems sig S_).sem
/-- The send semaphores of the transfer before (index 1) and after (index 0); the receive semaphores counting the
    landing from the device after (index 1) and from the device before (index 0). -/
abbrev sndL : DmaSem sig := ((cc0_scratch1.slice (Rect.unit (s := S2) ![1] S1.size inb_S2_S1_1)).squeeze S_ squeezes_S1_S_).sem
abbrev sndR : DmaSem sig := ((cc0_scratch1.slice (Rect.unit (s := S2) ![0] S1.size inb_S2_S1_0)).squeeze S_ squeezes_S1_S_).sem
abbrev rcvR : DmaSem sig := ((cc0_scratch2.slice (Rect.unit (s := S2) ![1] S1.size inb_S2_S1_1)).squeeze S_ squeezes_S1_S_).sem
abbrev rcvL : DmaSem sig := ((cc0_scratch2.slice (Rect.unit (s := S2) ![0] S1.size inb_S2_S1_0)).squeeze S_ squeezes_S1_S_).sem

theorem sndL_eq : sndL = (3 : DmaSem sig) := by decide
theorem sndR_eq : sndR = (2 : DmaSem sig) := by decide
theorem rcvR_eq : rcvR = (5 : DmaSem sig) := by decide
theorem rcvL_eq : rcvL = (4 : DmaSem sig) := by decide

abbrev barCell (c : Dev nD) : GSem nD τ sig := ((c : Thread nD τ), .reg barS)
abbrev sLCell (c : Dev nD) : GSem nD τ sig := ((c : Thread nD τ), .dma sndL)
abbrev sRCell (c : Dev nD) : GSem nD τ sig := ((c : Thread nD τ), .dma sndR)
abbrev rLCell (c : Dev nD) : GSem nD τ sig := ((c : Thread nD τ), .dma rcvL)
abbrev rRCell (c : Dev nD) : GSem nD τ sig := ((c : Thread nD τ), .dma rcvR)

/-- The units one row's transfer credits. -/
abbrev N : ℕ := (hS0 : Memref sig .tc .vmem S1x512 .f32).view.dmaCredit
theorem N_pos : 0 < N := View.dmaCredit_pos _ (by decide)
theorem N_hS1 : (hS1 : Memref sig .tc .vmem S1x512 .f32).view.dmaCredit = N := by decide
theorem N_xTop : (xTop : Memref sig .tc .vmem S1x512 .f32).view.dmaCredit = N := by decide
theorem N_xBot : (xBot : Memref sig .tc .vmem S1x512 .f32).view.dmaCredit = N := by decide

/-! ## Contents -/

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Device `c`'s block of the array, as the pipeline stages it. -/
def xs (c : Dev nD) : (cc0_stg0_0 : Ref sig .tc).ty.Contents (Elt F) :=
  (win0_0.blk (0 : Fin 1)).view.read (Elt F) ((s₀ m ρ).mem ((c : Thread nD τ).loc main_arg0))

/-- The two slots filled: slot 0 with the last row of `xl`, slot 1 with the first row of `xr`. -/
def haloOf (xl xr : Vec F S1024x512 .f32) : Vec F S2x1x512 .f32 := fun i =>
  if (i 0).val = 0 then xl (ValueIdx.ix2 (⟨1023, by decide⟩ : Fin 1024) (i 2 : Fin 512))
  else xr (ValueIdx.ix2 (⟨0, by decide⟩ : Fin 1024) (i 2 : Fin 512))

/-- What device `c`'s two slots hold once both neighbours' rows have landed. -/
def hal (c : Dev nD) : (cc0_scratch0 : Ref sig .tc).ty.Contents (Elt F) := haloOf (xs m ρ (lft c)) (xs m ρ (rgt c))

/-! ## What a device computes -/

/-- The device's position on the ring as the kernel reads it: its logical id modulo 8. -/
def posWord (c : Dev nD) : BitVec 32 := Scalar.remsi (Scalar.divsi (Dev.word c) 1#32) 8#32

/-- The device's result block, by index, from its own block `x` and its two slots `h`: row 0 and row 1023 are the
    two boundary rows (the smoothing with the neighbour's row, or a copy on the first and the last device), rows 1 to
    512 and rows 513 to 1022 the two interior pieces. Each piece is the kernel body's own payload read at the piece's
    row. -/
def outAt (c : Dev nD) (x : Vec F S1024x512 .f32) (h : Vec F S2x1x512 .f32) : Vec F S1024x512 .f32 := fun i =>
  if h0 : (i 0).val = 0 then
    k0_pay8 (posWord c) (k0_pay1 x) ((hM : Memref sig .tc .vmem S2x1x512 .f32).view.readAt (Elt F) rH0.toLoadRect h)
      (ValueIdx.ix2 (⟨0, by decide⟩ : Fin 1) (i 1 : Fin 512))
  else if h1 : (i 0).val = 1023 then
    k0_pay9 (posWord c) (k0_pay6 (k0_pay1 x)) (k0_pay7 (k0_pay1 x)) ((hM : Memref sig .tc .vmem S2x1x512 .f32).view.readAt (Elt F) rH1.toLoadRect h)
      (ValueIdx.ix2 (⟨0, by decide⟩ : Fin 1) (i 1 : Fin 512))
  else if h2 : (i 0).val ≤ 512 then
    k0_pay3 (k0_pay1 x) (k0_pay2 x) (ValueIdx.ix2 (⟨(i 0).val - 1, by omega⟩ : Fin 512) (i 1 : Fin 512))
  else
    k0_pay5 (k0_pay1 x) (k0_pay4 (k0_pay1 x)) (Scalar.ofBits .f32 0x3E800000#32)
      (ValueIdx.ix2 (⟨(i 0).val - 513, by have h3 : (i 0).val < 1024 := (i 0).isLt; omega⟩ : Fin 510) (i 1 : Fin 512))

/-- Device `c`'s result block in the run from `m`. -/
def outOf (c : Dev nD) : (cc0_stg1_0 : Ref sig .tc).ty.Contents (Elt F) := outAt c (xs m ρ c) (hal m ρ c)

end Cert.KernelProof

end
-- ==== Proof.KernelSched.lean ====
/-
  The protocol of the eight devices, as a schedule of rounds. Every semaphore is waited once, so every cell has one
  round. A device's barrier cell collects one unit from each neighbour: the unit from the device before brings that
  device's slot 1 (where this device's first row will land), the unit from the device after brings that device's slot 0
  (where this device's last row will land). Each of the four transfer cells collects one row's credit: a send cell
  returns the row that was read, a receive cell hands over the slot with the neighbour's row in it.
-/
import proofs.«900539_g7700000000000540_dist_halo_stencil_i_m1024_n512_v7x_i8_f32_1_alg».proof.Proof.KernelData

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## What is held of the buffers -/

/-- A device's slot 0 / slot 1 at some contents; its first / last row at the block's contents; the whole slots buffer. -/
def slot0Pts (c : Dev nD) (f : Buf (Elt F) ((hS0 : Memref sig .tc .vmem S1x512 .f32).view.loc (c : Thread nD τ))) : sProp 𝕄 :=
  (hS0 : Memref sig .tc .vmem S1x512 .f32).view.loc (c : Thread nD τ) ↦[(hS0 : Memref sig .tc .vmem S1x512 .f32).view.set]{fullShare} f
def slot1Pts (c : Dev nD) (f : Buf (Elt F) ((hS1 : Memref sig .tc .vmem S1x512 .f32).view.loc (c : Thread nD τ))) : sProp 𝕄 :=
  (hS1 : Memref sig .tc .vmem S1x512 .f32).view.loc (c : Thread nD τ) ↦[(hS1 : Memref sig .tc .vmem S1x512 .f32).view.set]{fullShare} f
def topPts (c : Dev nD) : sProp 𝕄 :=
  (xTop : Memref sig .tc .vmem S1x512 .f32).view.loc (c : Thread nD τ) ↦[(xTop : Memref sig .tc .vmem S1x512 .f32).view.set]{fullShare} xs m ρ c
def botPts (c : Dev nD) : sProp 𝕄 :=
  (xBot : Memref sig .tc .vmem S1x512 .f32).view.loc (c : Thread nD τ) ↦[(xBot : Memref sig .tc .vmem S1x512 .f32).view.set]{fullShare} xs m ρ c

omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance
omit [FloatOps F] in
instance topPts_storable (c : Dev nD) : BI.Storable (upEmb : UEmb _ 𝕄) (topPts (F := F) m ρ c) := by unfold topPts; infer_instance
omit [FloatOps F] in
instance botPts_storable (c : Dev nD) : BI.Storable (upEmb : UEmb _ 𝕄) (botPts (F := F) m ρ c) := by unfold botPts; infer_instance

/-! ## The schedule -/

/-- What the unit from the device before hands `c`: that device's slot 1 and that its receive-from-after cell is at
    round 0. What the unit from the device after hands `c`: that device's slot 0 and that its receive-from-before cell
    is at round 0. -/
def barPayF (c : Dev nD) : sProp 𝕄 := iprop((∃ f, slot1Pts (lft c) f) ∗ reached ER (rRCell (lft c)) 0)
def barPayT (c : Dev nD) : sProp 𝕄 := iprop((∃ f, slot0Pts (rgt c) f) ∗ reached ER (rLCell (rgt c)) 0)

abbrev IsBar (g : GSem nD τ sig) : Prop := g.1.2 = .tc ∧ g.2 = .reg barS
abbrev IsXfer (g : GSem nD τ sig) : Prop := g.1.2 = .tc ∧ (g.2 = .dma sndL ∨ g.2 = .dma sndR ∨ g.2 = .dma rcvL ∨ g.2 = .dma rcvR)

/-- One round, round 0: a barrier cell has the duties `false` (from the device before) and `true` (from the device
    after), one unit each; each transfer cell the duty `false` of one row's credit. -/
def sched : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPayT g.1.1 else barPayF g.1.1)
    else if g.2 = .dma rcvL then slot0Pts g.1.1 (hal m ρ g.1.1)
    else if g.2 = .dma rcvR then slot1Pts g.1.1 (hal m ρ g.1.1)
    else if g.2 = .dma sndL then topPts m ρ g.1.1
    else if g.2 = .dma sndR then botPts m ρ g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched (F := F) m ρ).payload g r d) := by
  show BI.Storable upEmb (if g.2 = .reg barS then (if d then barPayT g.1.1 else barPayF g.1.1)
    else if g.2 = .dma rcvL then slot0Pts g.1.1 (hal m ρ g.1.1)
    else if g.2 = .dma rcvR then slot1Pts g.1.1 (hal m ρ g.1.1)
    else if g.2 = .dma sndL then topPts m ρ g.1.1
    else if g.2 = .dma sndR then botPts m ρ g.1.1
    else iprop(emp))
  unfold barPayT barPayF
  (repeat' split) <;> infer_instance

section Tables
variable (c : Dev nD)

theorem dma_ne_bar (q : DmaSem sig) : (SemLoc.dma q : SemLoc sig) ≠ .reg barS := fun h => by cases h
theorem sL_ne_rL : (SemLoc.dma sndL : SemLoc sig) ≠ .dma rcvL := by decide
theorem sL_ne_rR : (SemLoc.dma sndL : SemLoc sig) ≠ .dma rcvR := by decide
theorem sR_ne_rL : (SemLoc.dma sndR : SemLoc sig) ≠ .dma rcvL := by decide
theorem sR_ne_rR : (SemLoc.dma sndR : SemLoc sig) ≠ .dma rcvR := by decide
theorem sR_ne_sL : (SemLoc.dma sndR : SemLoc sig) ≠ .dma sndL := by decide
theorem rR_ne_rL : (SemLoc.dma rcvR : SemLoc sig) ≠ .dma rcvL := by decide

omit [FloatOps F] in
theorem duties_bar : (sched (F := F) m ρ).duties (barCell c) 0 = Finset.univ := by dsimp only [sched]; exact if_pos ⟨rfl, rfl, rfl⟩
omit [FloatOps F] in
theorem duties_sL : (sched (F := F) m ρ).duties (sLCell c) 0 = {false} := by
  dsimp only [sched]; rw [if_neg (fun h => dma_ne_bar _ h.2.2)]; exact if_pos ⟨rfl, rfl, .inl rfl⟩
omit [FloatOps F] in
theorem duties_sR : (sched (F := F) m ρ).duties (sRCell c) 0 = {false} := by
  dsimp only [sched]; rw [if_neg (fun h => dma_ne_bar _ h.2.2)]; exact if_pos ⟨rfl, rfl, .inr (.inl rfl)⟩
omit [FloatOps F] in
theorem duties_rL : (sched (F := F) m ρ).duties (rLCell c) 0 = {false} := by
  dsimp only [sched]; rw [if_neg (fun h => dma_ne_bar _ h.2.2)]; exact if_pos ⟨rfl, rfl, .inr (.inr (.inl rfl))⟩
omit [FloatOps F] in
theorem duties_rR : (sched (F := F) m ρ).duties (rRCell c) 0 = {false} := by
  dsimp only [sched]; rw [if_neg (fun h => dma_ne_bar _ h.2.2)]; exact if_pos ⟨rfl, rfl, .inr (.inr (.inr rfl))⟩
omit [FloatOps F] in
theorem duties_later (g : GSem nD τ sig) : ∀ r, 1 ≤ r → (sched (F := F) m ρ).duties g r = ∅ :=
  fun r hr => by dsimp only [sched]; rw [if_neg fun h => by omega, if_neg fun h => by omega]

omit [FloatOps F] in
theorem amount_bar (d : Bool) : (sched (F := F) m ρ).amount (barCell c) 0 d = 1 := by dsimp only [sched]; exact if_pos rfl
omit [FloatOps F] in
theorem amount_dma (q : DmaSem sig) (d : Bool) : (sched (F := F) m ρ).amount ((c : Thread nD τ), .dma q) 0 d = N := by
  dsimp only [sched]; exact if_neg (dma_ne_bar q)

omit [FloatOps F] in
theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_sL : (sched (F := F) m ρ).expect (sLCell c) 0 = N := by
  unfold Schedule.expect Schedule.amountOf; rw [duties_sL, Finset.sum_singleton, amount_dma]
omit [FloatOps F] in
theorem expect_sR : (sched (F := F) m ρ).expect (sRCell c) 0 = N := by
  unfold Schedule.expect Schedule.amountOf; rw [duties_sR, Finset.sum_singleton, amount_dma]
omit [FloatOps F] in
theorem expect_rL : (sched (F := F) m ρ).expect (rLCell c) 0 = N := by
  unfold Schedule.expect Schedule.amountOf; rw [duties_rL, Finset.sum_singleton, amount_dma]
omit [FloatOps F] in
theorem expect_rR : (sched (F := F) m ρ).expect (rRCell c) 0 = N := by
  unfold Schedule.expect Schedule.amountOf; rw [duties_rR, Finset.sum_singleton, amount_dma]

omit [FloatOps F] in
theorem payload_bar_true : (sched (F := F) m ρ).payload (barCell c) 0 true = barPayT c := by dsimp only [sched]; rw [if_pos rfl, if_pos rfl]
omit [FloatOps F] in
theorem payload_bar_false : (sched (F := F) m ρ).payload (barCell c) 0 false = barPayF c := by
  dsimp only [sched]; rw [if_pos rfl]; exact if_neg Bool.false_ne_true
omit [FloatOps F] in
theorem payload_rL (d : Bool) : (sched (F := F) m ρ).payload (rLCell c) 0 d = slot0Pts c (hal m ρ c) := by
  dsimp only [sched]; rw [if_neg (dma_ne_bar _), if_pos rfl]
omit [FloatOps F] in
theorem payload_rR (d : Bool) : (sched (F := F) m ρ).payload (rRCell c) 0 d = slot1Pts c (hal m ρ c) := by
  dsimp only [sched]; rw [if_neg (dma_ne_bar _), if_neg rR_ne_rL, if_pos rfl]
omit [FloatOps F] in
theorem payload_sL (d : Bool) : (sched (F := F) m ρ).payload (sLCell c) 0 d = topPts m ρ c := by
  dsimp only [sched]; rw [if_neg (dma_ne_bar _), if_neg sL_ne_rL, if_neg sL_ne_rR, if_pos rfl]
omit [FloatOps F] in
theorem payload_sR (d : Bool) : (sched (F := F) m ρ).payload (sRCell c) 0 d = botPts m ρ c := by
  dsimp only [sched]; rw [if_neg (dma_ne_bar _), if_neg sR_ne_rL, if_neg sR_ne_rR, if_neg sR_ne_sL, if_pos rfl]

omit [FloatOps F] in
/-- The whole of the barrier cell's round: both neighbours' slots. -/
theorem rest_bar : bigSep ((sched (F := F) m ρ).duties (barCell c) 0 \ ∅) (fun d => (sched (F := F) m ρ).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
omit [FloatOps F] in
theorem rest_sL : bigSep ((sched (F := F) m ρ).duties (sLCell c) 0 \ ∅) (fun d => (sched (F := F) m ρ).payload (sLCell c) 0 d) = topPts m ρ c := by
  rw [Finset.sdiff_empty, duties_sL, bigSep_singleton, payload_sL]
omit [FloatOps F] in
theorem rest_sR : bigSep ((sched (F := F) m ρ).duties (sRCell c) 0 \ ∅) (fun d => (sched (F := F) m ρ).payload (sRCell c) 0 d) = botPts m ρ c := by
  rw [Finset.sdiff_empty, duties_sR, bigSep_singleton, payload_sR]
omit [FloatOps F] in
theorem rest_rL : bigSep ((sched (F := F) m ρ).duties (rLCell c) 0 \ ∅) (fun d => (sched (F := F) m ρ).payload (rLCell c) 0 d) = slot0Pts c (hal m ρ c) := by
  rw [Finset.sdiff_empty, duties_rL, bigSep_singleton, payload_rL]
omit [FloatOps F] in
theorem rest_rR : bigSep ((sched (F := F) m ρ).duties (rRCell c) 0 \ ∅) (fun d => (sched (F := F) m ρ).payload (rRCell c) 0 d) = slot1Pts c (hal m ρ c) := by
  rw [Finset.sdiff_empty, duties_rR, bigSep_singleton, payload_rR]

end Tables

/-! ## What each device owes at launch; the levels -/

/-- Device `c` owes one row's credit to the receive-from-before cell of the device after it and to the
    receive-from-after cell of the device before it, and one unit to each neighbour's barrier cell — summed so that
    its operations peel the summands from the right in program order: the signal before, the signal after, the
    transfer before, the transfer after. -/
def O₃ (c : Dev nD) : CellTallies nD τ sig Unit := tallyAt (rLCell (rgt c)) () N
def O₂ (c : Dev nD) : CellTallies nD τ sig Unit := O₃ c + tallyAt (rRCell (lft c)) () N
def O₁ (c : Dev nD) : CellTallies nD τ sig Unit := O₂ c + tallyAt (barCell (rgt c)) () 1
def O₀ (c : Dev nD) : CellTallies nD τ sig Unit := O₁ c + tallyAt (barCell (lft c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma rcvL ∨ g.2 = .dma rcvR then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) : g = rLCell (rgt c) ∨ g = rRCell (lft c) := by
  unfold O₂ O₃ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = rLCell (rgt c) ∨ g = rRCell (lft c) ∨ g = barCell (rgt c) ∨ g = barCell (lft c) := by
  unfold O₀ O₁ O₂ O₃ at h
  rw [Pi.add_apply, Finsupp.add_apply, Pi.add_apply, Finsupp.add_apply, Pi.add_apply, Finsupp.add_apply,
    tallyAt_apply, tallyAt_apply, tallyAt_apply, tallyAt_apply] at h
  by_contra hn
  rw [not_or, not_or, not_or] at hn
  rw [if_neg (fun h' => hn.1 h'.1), if_neg (fun h' => hn.2.1 h'.1), if_neg (fun h' => hn.2.2.1 h'.1), if_neg (fun h' => hn.2.2.2 h'.1)] at h
  exact Nat.lt_irrefl 0 h

theorem lv_rL (c : Dev nD) : lv (rLCell c) () = 2 := by dsimp only [lv]; rw [if_neg (dma_ne_bar _), if_pos (.inl rfl)]
theorem lv_rR (c : Dev nD) : lv (rRCell c) () = 2 := by dsimp only [lv]; rw [if_neg (dma_ne_bar _), if_pos (.inr rfl)]
theorem lv_bar (c : Dev nD) : lv (barCell c) () = 1 := by dsimp only [lv]; rw [if_pos rfl]

omit [FloatOps F] in
/-- A staging or send cell (level 0) may be waited on whatever the device still owes. -/
theorem mayWait_low (c : Dev nD) (q : DmaSem sig) (hq : SemLoc.dma q ≠ .dma rcvL ∧ SemLoc.dma q ≠ .dma rcvR) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl <;> exact Finset.mem_singleton_self _)
      (fun p hp => by rw [Finset.mem_singleton.mp hp]; dsimp only [lv]; rw [if_neg (dma_ne_bar _), if_neg (fun h => h.elim hq.1 hq.2)])
      (fun g u hg => by
        rcases O₀_pos hg with rfl | rfl | rfl | rfl
        · rw [lv_rL]; decide
        · rw [lv_rR]; decide
        · rw [lv_bar]; decide
        · rw [lv_bar]; decide)
  · rw [MayWait_zero]; iintro -; iempintro

omit [FloatOps F] in
/-- At its barrier wait a device owes the two receive credits only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> (rw [L_tc]; exact Finset.mem_singleton_self _))
    (fun p hp => by rw [Finset.mem_singleton.mp hp]; exact (lv_bar c).le)
    (fun g u hg => by
      rcases O₂_pos hg with rfl | rfl
      · rw [lv_rL]; decide
      · rw [lv_rR]; decide)

end Cert.KernelProof

end
-- ==== Proof.KernelGhost.lean ====
/-
  What one device holds when its body starts and when it ends: the invariants of the cells it touches, its position on
  each of its own five cells, the tokens of the six duties it pays (one unit to each neighbour's barrier cell, one row
  to a receive cell of each neighbour, one row to each of its own send cells), the credit for its own three waits on
  cells others pay, and its slots buffer; and the pipeline's proof data built from them: the staged block unchanged,
  the result block the smoothing of the device's rows.
-/
import proofs.«900539_g7700000000000540_dist_halo_stencil_i_m1024_n512_v7x_i8_f32_1_alg».proof.Proof.KernelSched

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by number, and the ghost state a device starts from -/

/-- A device's five cells: barrier, send before, send after, receive from before, receive from after. -/
abbrev csem : Fin 5 → SemLoc sig := fun | 0 => .reg barS | 1 => .dma sndL | 2 => .dma sndR | 3 => .dma rcvL | 4 => .dma rcvR
abbrev kcell (ck : Dev nD × Fin 5) : GSem nD τ sig := ((ck.1 : Thread nD τ), csem ck.2)

/-- The invariants device `c`'s body opens: its own five cells, both neighbours' barrier cells (its two signals), the
    receive-from-after cell of the device before and the receive-from-before cell of the device after (its transfers). -/
def invs (K : Dev nD × Fin 5 → ℕ) (c : Dev nD) : sProp 𝕄 :=
  iprop(cellInv ER (sched m ρ) (K (c, 0)) (barCell c) ∗ cellInv ER (sched m ρ) (K (c, 1)) (sLCell c) ∗ cellInv ER (sched m ρ) (K (c, 2)) (sRCell c)
    ∗ cellInv ER (sched m ρ) (K (c, 3)) (rLCell c) ∗ cellInv ER (sched m ρ) (K (c, 4)) (rRCell c)
    ∗ cellInv ER (sched m ρ) (K (lft c, 0)) (barCell (lft c)) ∗ cellInv ER (sched m ρ) (K (rgt c, 0)) (barCell (rgt c))
    ∗ cellInv ER (sched m ρ) (K (lft c, 4)) (rRCell (lft c)) ∗ cellInv ER (sched m ρ) (K (rgt c, 3)) (rLCell (rgt c)))

instance invs_persistent (K : Dev nD × Fin 5 → ℕ) (c : Dev nD) : BI.Persistent (invs m ρ K c) := by unfold invs; infer_instance

/-- The ghost state device `c` starts from: the invariants; its positions at round 0 of its five cells; round 0 reached
    of the cells it pays and of its own transfer cells; the six tokens of the duties it pays. -/
def ghost (K : Dev nD × Fin 5 → ℕ) (c : Dev nD) : sProp 𝕄 :=
  iprop(invs m ρ K c
    ∗ atPos ER (barCell c) 0 ∅ 0 ∗ atPos ER (sLCell c) 0 ∅ 0 ∗ atPos ER (sRCell c) 0 ∅ 0 ∗ atPos ER (rLCell c) 0 ∅ 0 ∗ atPos ER (rRCell c) 0 ∅ 0
    ∗ reached ER (barCell (lft c)) 0 ∗ reached ER (barCell (rgt c)) 0 ∗ reached ER (rRCell (lft c)) 0 ∗ reached ER (rLCell (rgt c)) 0
    ∗ reached ER (sLCell c) 0 ∗ reached ER (sRCell c) 0 ∗ reached ER (rLCell c) 0 ∗ reached ER (rRCell c) 0
    ∗ dutyTok ER (barCell (lft c)) 0 true ∗ dutyTok ER (barCell (rgt c)) 0 false
    ∗ dutyTok ER (rRCell (lft c)) 0 false ∗ dutyTok ER (rLCell (rgt c)) 0 false
    ∗ dutyTok ER (sLCell c) 0 false ∗ dutyTok ER (sRCell c) 0 false)

/-- The whole slots buffer of device `c` at some contents. -/
def hPts (c : Dev nD) (f : Buf (Elt F) ((c : Thread nD τ).loc cc0_scratch0)) : sProp 𝕄 := ((c : Thread nD τ).loc cc0_scratch0) ↦{fullShare} f

/-- What device `c`'s body starts from besides the staged blocks: the ghost state at some names, the credit of what it
    will wait for (two barrier units, one row on each receive cell) and the levels. -/
def start (c : Dev nD) : sProp 𝕄 :=
  iprop((∃ K, ghost m ρ K c) ∗ cred (tallyAt (barCell c) () 2) ∗ cred (tallyAt (rLCell c) () N) ∗ cred (tallyAt (rRCell c) () N) ∗ levAts L lv)

def Φ₀ (c : Dev nD) : sProp 𝕄 := iprop(start m ρ c ∗ ∃ f, hPts c f)
/-- After the body: the slots buffer back whole, the four own transfer cells closed at zero. -/
def Φ₁ (c : Dev nD) : sProp 𝕄 :=
  iprop((∃ f, hPts (F := F) c f) ∗ semVal (sLCell c) 0 ∗ semVal (sRCell c) 0 ∗ semVal (rLCell c) 0 ∗ semVal (rRCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outOf m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelLaunch.lean ====
/-
  The launch of the eight devices. Every device enters with all its semaphore counters at zero. From that and the
  protocol's launch element each of a device's five cells — its barrier cell, its two send cells, its two receive
  cells — gets its invariant, its owner's position at round 0 and the tokens of its duties; the tokens are then dealt
  around the ring to the devices that pay them: a barrier cell's duty false to the device before (which signals the
  device after it), its duty true to the device after, a receive-from-before cell's duty to the device before, a
  receive-from-after cell's duty to the device after. What every device owes at launch, summed over the ring, is the
  credit each device waits for: two units on its barrier cell, one row on each of its receive cells. With these the
  proof of one device's body gives the run of all eight: it terminates, the staged array is unchanged and each
  device's result array holds its result block.
-/
import proofs.«900539_g7700000000000540_dist_halo_stencil_i_m1024_n512_v7x_i8_f32_1_alg».proof.Proof.KernelGhost

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, the cells and the tokens -/

/-- The kernel's own scoped semaphores: the four that count its transfers. The barrier semaphore is not scoped. -/
abbrev osem : Fin 4 → SemLoc sig := fun | 0 => .dma sndL | 1 => .dma sndR | 2 => .dma rcvL | 3 => .dma rcvR

theorem ownSemFacts : Pipeline.OwnSemFacts cfg0.spec osem := by decide

theorem share_eq (c : Dev nD) (w : Fin cfg0.W) : (dats m ρ 0 c).share w = fullShare := by unfold Dat.share; split <;> rfl

theorem csem_injective : ∀ k k' : Fin 5, csem k = csem k' → k = k' := by decide

/-- Distinct (device, number) pairs name distinct cells. -/
theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : k = k' := csem_injective k k' (congrArg Prod.snd h)
  subst h2; rfl

/-- All forty cells of the protocol. -/
def haloCells : Finset (GSem nD τ sig) := Finset.univ.map ⟨kcell, kcell_injective⟩

/-- A device's own cells carry six duties: the barrier cell's two, one on each transfer cell. Duty j is on the cell
    numbered tokCell j and is the duty tokDuty j there. -/
abbrev tokCell : Fin 6 → Fin 5 := fun | 0 => 0 | 1 => 0 | 2 => 1 | 3 => 2 | 4 => 3 | 5 => 4
abbrev tokDuty : Fin 6 → Bool := fun | 0 => false | 1 => true | 2 => false | 3 => false | 4 => false | 5 => false
abbrev tokOf (cj : Dev nD × Fin 6) : GSem nD τ sig × ℕ × Bool := (kcell (cj.1, tokCell cj.2), 0, tokDuty cj.2)

theorem tok_split : ∀ j j' : Fin 6, tokCell j = tokCell j' → tokDuty j = tokDuty j' → j = j' := by decide

theorem tokOf_injective : Function.Injective (tokOf : Dev nD × Fin 6 → GSem nD τ sig × ℕ × Bool) := by
  rintro ⟨c, j⟩ ⟨c', j'⟩ h
  have hk : ((c, tokCell j) : Dev nD × Fin 5) = (c', tokCell j') := kcell_injective (congrArg Prod.fst h)
  have hd : tokDuty j = tokDuty j' := congrArg (fun x : GSem nD τ sig × ℕ × Bool => x.2.2) h
  have hc : c = c' := congrArg Prod.fst hk
  have hj : j = j' := tok_split j j' (congrArg Prod.snd hk) hd
  subst hc; subst hj; rfl

/-- All forty-eight duty tokens of round 0. -/
def haloToks : Finset (GSem nD τ sig × ℕ × Bool) := Finset.univ.map ⟨tokOf, tokOf_injective⟩

/-- The launch element: the pipeline's beside the protocol's. -/
def u₀ : UU :=
  (initOf (Pipeline.cells cfgs cellOf_inj) (Pipeline.launchToks cfgs cellOf_inj), initOf haloCells haloToks)

/-- The duty tokens of a device's own cells. -/
def toks (c : Dev nD) : sProp 𝕄 :=
  iprop(dutyTok ER (barCell c) 0 false ∗ dutyTok ER (barCell c) 0 true ∗ dutyTok ER (sLCell c) 0 false ∗ dutyTok ER (sRCell c) 0 false
    ∗ dutyTok ER (rLCell c) 0 false ∗ dutyTok ER (rRCell c) 0 false)

/-- What the launch element deals a device: the round state of its five cells at counter zero, its position on each
    with round 0 reached, and its cells' tokens. -/
def G (c : Dev nD) : sProp 𝕄 :=
  iprop((bigSep Finset.univ fun k : Fin 5 => roundState ER (sched m ρ) (kcell (c, k)) 0)
    ∗ (bigSep Finset.univ fun k : Fin 5 => iprop(atPos ER (kcell (c, k)) 0 ∅ 0 ∗ reached ER (kcell (c, k)) 0)) ∗ toks c)

/-- What a device holds once every cell's invariant is allocated and the tokens are dealt. -/
def G' (c : Dev nD) : sProp 𝕄 := iprop(∃ K, ghost m ρ K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The protocol's launch element, device by device. -/
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, and the tokens dealt around the ring -/

/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sLCell c) 0 ∗ semVal (sRCell c) 0 ∗ semVal (rLCell c) 0 ∗ semVal (rRCell c) 0) := by
  rw [Pipeline.ownSems0_eq_of_list c osem [0, 1, 2, 3] (by decide) (by decide)]; rfl
/-- the barrier semaphore is the one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

/-- One device: from its five counters at zero and its cells' round states, the five invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may keep a copy of: all forty invariants at their names, and round 0 reached of all forty cells. -/
def records (K : Dev nD × Fin 5 → ℕ) : sProp 𝕄 :=
  iprop((bigSep Finset.univ fun ck : Dev nD × Fin 5 => cellInv ER (sched m ρ) (K ck) (kcell ck))
    ∗ bigSep Finset.univ fun ck : Dev nD × Fin 5 => reached ER (kcell ck) 0)

instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (sched m ρ) (K ck) (kcell ck) : sProp 𝕄)) ⊢ cellInv ER (sched m ρ) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the six duties a device pays, -/
def payToks (c : Dev nD) : sProp 𝕄 :=
  iprop(dutyTok ER (barCell (lft c)) 0 true ∗ dutyTok ER (barCell (rgt c)) 0 false
    ∗ dutyTok ER (rRCell (lft c)) 0 false ∗ dutyTok ER (rLCell (rgt c)) 0 false
    ∗ dutyTok ER (sLCell c) 0 false ∗ dutyTok ER (sRCell c) 0 false)
/-- and, with its positions on its own five cells, all that it holds alone. -/
def linear (c : Dev nD) : sProp 𝕄 :=
  iprop((atPos ER (barCell c) 0 ∅ 0 ∗ atPos ER (sLCell c) 0 ∅ 0 ∗ atPos ER (sRCell c) 0 ∅ 0 ∗ atPos ER (rLCell c) 0 ∅ 0 ∗ atPos ER (rRCell c) 0 ∅ 0)
    ∗ payToks c)

theorem ghost_intro (K : Dev nD × Fin 5 → ℕ) (c : Dev nD) : iprop(records m ρ K ∗ linear c) ⊢ G' m ρ c := by
  unfold records linear payToks G' ghost invs
  iintro ⟨⟨#HI, #HR⟩, ⟨Ha0, Ha1, Ha2, Ha3, Ha4⟩, Ht1, Ht2, Ht3, Ht4, Ht5, Ht6⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (lft c, 0)); iexact HI
    isplitr; · iapply (inv_at m ρ K (rgt c, 0)); iexact HI
    isplitr; · iapply (inv_at m ρ K (lft c, 4)); iexact HI
    iapply (inv_at m ρ K (rgt c, 3)); iexact HI
  isplitl [Ha0]; · iexact Ha0
  isplitl [Ha1]; · iexact Ha1
  isplitl [Ha2]; · iexact Ha2
  isplitl [Ha3]; · iexact Ha3
  isplitl [Ha4]; · iexact Ha4
  isplitr; · iapply (reached_at (F := F) (lft c, 0)); iexact HR
  isplitr; · iapply (reached_at (F := F) (rgt c, 0)); iexact HR
  isplitr; · iapply (reached_at (F := F) (lft c, 4)); iexact HR
  isplitr; · iapply (reached_at (F := F) (rgt c, 3)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [Ht1]; · iexact Ht1
  isplitl [Ht2]; · iexact Ht2
  isplitl [Ht3]; · iexact Ht3
  isplitl [Ht4]; · iexact Ht4
  isplitl [Ht5]; · iexact Ht5
  iexact Ht6

/-- The tokens dealt around the ring: a barrier cell's duty false and a receive-from-before cell's duty go to the device
    before the cell's owner, a barrier cell's duty true and a receive-from-after cell's duty to the device after it; the
    send cells' duties stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv ringR (fun c : Dev nD => (dutyTok ER (barCell c) 0 false : sProp 𝕄)),
    bigSep_univ_equiv ringR.symm (fun c : Dev nD => (dutyTok ER (barCell c) 0 true : sProp 𝕄)),
    bigSep_univ_equiv ringR (fun c : Dev nD => (dutyTok ER (rLCell c) 0 false : sProp 𝕄)),
    bigSep_univ_equiv ringR.symm (fun c : Dev nD => (dutyTok ER (rRCell c) 0 false : sProp 𝕄))]
  iintro ⟨HbF, HbT, HsL, HsR, HrL, HrR⟩
  isplitl [HbT]; · iexact HbT
  isplitl [HbF]; · iexact HbF
  isplitl [HrR]; · iexact HrR
  isplitl [HrL]; · iexact HrL
  isplitl [HsL]; · iexact HsL
  iexact HsR

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices at once: the invariants named, everything persistent copied to every device, the tokens dealt. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (sched m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit

What the devices owe at launch is a sum of four one-cell dues, each addressed through a bijection of the ring; so the
credit a device is dealt splits into four, each on one of its own cells. -/

theorem cred_rL (c : Dev nD) :
    (Pipeline.launchCred (fun d : Dev nD => (tallyAt (rLCell (rgt d)) () N : CellTallies nD τ sig Unit)) c : sProp 𝕄) ⊢ cred (tallyAt (rLCell c) () N) :=
  Pipeline.launchCred_tallyAt (.dma rcvL) rgt lft rgt_lft lft_rgt () N c
theorem cred_rR (c : Dev nD) :
    (Pipeline.launchCred (fun d : Dev nD => (tallyAt (rRCell (lft d)) () N : CellTallies nD τ sig Unit)) c : sProp 𝕄) ⊢ cred (tallyAt (rRCell c) () N) :=
  Pipeline.launchCred_tallyAt (.dma rcvR) lft rgt lft_rgt rgt_lft () N c
theorem cred_barR (c : Dev nD) :
    (Pipeline.launchCred (fun d : Dev nD => (tallyAt (barCell (rgt d)) () 1 : CellTallies nD τ sig Unit)) c : sProp 𝕄) ⊢ cred (tallyAt (barCell c) () 1) :=
  Pipeline.launchCred_tallyAt (.reg barS) rgt lft rgt_lft lft_rgt () 1 c
theorem cred_barL (c : Dev nD) :
    (Pipeline.launchCred (fun d : Dev nD => (tallyAt (barCell (lft d)) () 1 : CellTallies nD τ sig Unit)) c : sProp 𝕄) ⊢ cred (tallyAt (barCell c) () 1) :=
  Pipeline.launchCred_tallyAt (.reg barS) lft rgt lft_rgt rgt_lft () 1 c

theorem O₀_eq : (O₀ : Dev nD → CellTallies nD τ sig Unit)
    = fun d => ((tallyAt (rLCell (rgt d)) () N + tallyAt (rRCell (lft d)) () N) + tallyAt (barCell (rgt d)) () 1) + tallyAt (barCell (lft d)) () 1 := rfl

theorem bar_two (c : Dev nD) : (tallyAt (barCell c) () 2 : CellTallies nD τ sig Unit) = tallyAt (barCell c) () 1 + tallyAt (barCell c) () 1 :=
  (tallyAt_add (barCell c) () 1 1).symm

/-- The credit a device starts with: two units on its barrier cell, one row on each receive cell. -/
theorem creds (c : Dev nD) :
    (Pipeline.launchCred O₀ c : sProp 𝕄)
      ⊢ iprop(cred (tallyAt (barCell c) () 2) ∗ cred (tallyAt (rLCell c) () N) ∗ cred (tallyAt (rRCell c) () N)) := by
  rw [O₀_eq, Pipeline.launchCred_add, Pipeline.launchCred_add, Pipeline.launchCred_add, bar_two]
  iintro ⟨⟨⟨HrL, HrR⟩, HbR⟩, HbL⟩
  ihave H1 := (cred_rL (F := F) c) $$ HrL
  ihave H2 := (cred_rR (F := F) c) $$ HrR
  ihave H3 := (cred_barR (F := F) c) $$ HbR
  ihave H4 := (cred_barL (F := F) c) $$ HbL
  isplitl [H3 H4]
  · iapply (cred_add _ _).2
    isplitl [H3] <;> iassumption
  isplitl [H1] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H2, HL, HR⟩
  imodintro
  unfold start G'
  isplitl
  · isplitl [HG]; · iexact HG
    isplitl [H2]; · iexact H2
    isplitl [HL]; · iexact HL
    isplitl [HR]; · iexact HR
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ hPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ hPts
  iintro ⟨⟨%f, Hr⟩, H1, H2, H3, H4⟩
  isplitr; · iempintro
  isplitl [H1 H2 H3 H4]
  · isplitl [H1]; · iexact H1
    isplitl [H2]; · iexact H2
    isplitl [H3] <;> iassumption
  iexists f; iexact Hr

/-- The pipeline's own waits are on staging cells, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- The arrays of a device after the last point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: if one device's
    body, started from what the launch hands it, ends with its result block in the staging buffer and its slots and
    transfer semaphores given back, then every weakly fair execution of @main terminates, and in every final state
    each device's two arrays hold the final arrays named above. -/
theorem run_main_of (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The staged array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's result block: the one point writes the whole staging buffer
    back over the whole array. -/
theorem finalA_out (c : Dev nD) : finalA m ρ c (1 : Fin 2) = outOf m ρ c := by
  unfold finalA
  have h := (dats (F := F) m ρ 0 c).arrAt_succ (1 : Fin 2) t₀
  have hf : (cfg0.win (1 : Fin 2)).flush t₀ = true := by decide
  rw [hf, if_pos rfl] at h
  have hz : (fun a => (cfg0.win (1 : Fin 2)).index t₀ a * (cfg0.win (1 : Fin 2)).size a) = fun _ => 0 := funext fun a => Nat.zero_mul _
  exact h.trans (Memref.write_access_unit_zero_univ (Elt F) main_v1 hz _ _ _)

/-- info: 'Cert.KernelProof.run_main_of' depends on axioms: [propext, Classical.choice, Quot.sound] -/
#guard_msgs in #print axioms run_main_of

/-- info: 'Cert.KernelProof.finalA_out' depends on axioms: [propext, Classical.choice, Quot.sound] -/
#guard_msgs in #print axioms finalA_out

end Cert.KernelProof

end
-- ==== Proof.KernelClaims.lean ====
/-
  What the run of the eight devices leaves in memory, said of the launch contents alone. A device's staged block is
  its whole argument array, so its result block is a function of three argument arrays: its own and its two ring
  neighbours'. Hence: if one device's body meets its obligation, every weakly fair execution of @main terminates,
  each device's result array ends at that function of the three arrays, and every argument array ends unchanged.
-/
import proofs.«900539_g7700000000000540_dist_halo_stencil_i_m1024_n512_v7x_i8_f32_1_alg».proof.Proof.KernelLaunch

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged block is the whole argument array: the window's one block covers it from offset zero. -/
theorem xs_eq (c : Dev nD) : xs m ρ c = m ((c : Thread nD τ).loc main_arg0) := by
  have hz : (fun a => win0_0.index (0 : Fin 1) a * win0_0.size a) = fun _ => 0 := funext fun a => Nat.zero_mul _
  unfold xs
  exact Memref.read_access_unit_zero (Elt F) main_arg0 hz _ _

/-- A device's result block from the three argument arrays it depends on. -/
theorem outOf_eq (c : Dev nD) :
    outOf m ρ c = outAt c (m ((c.tc : Thread nD τ).loc main_arg0))
      (haloOf (m (((lft c).tc : Thread nD τ).loc main_arg0)) (m (((rgt c).tc : Thread nD τ).loc main_arg0))) := by
  unfold outOf hal
  rw [xs_eq m ρ c, xs_eq m ρ (lft c), xs_eq m ρ (rgt c)]

/-- The run, with every value named from the launch contents: each device's result array holds its result block as a
    function of its own and its two neighbours' argument arrays, and its argument array holds what it held. -/
theorem run_values (hbody : ∀ c, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt c (m ((c.tc : Thread nD τ).loc main_arg0)) (haloOf (m (((lft c).tc : Thread nD τ).loc main_arg0)) (m (((rgt c).tc : Thread nD τ).loc main_arg0)))
      ∧ r.2.mem ((c.tc : Thread nD τ).loc main_arg0) = m ((c.tc : Thread nD τ).loc main_arg0)) :=
  (θ_run defs _ _).mono (fun r h c =>
      ⟨(h c (1 : Fin 2)).trans ((finalA_out m ρ c).trans (outOf_eq m ρ c)),
       (h c (0 : Fin 2)).trans (finalA_x m ρ c)⟩)
    (run_main_of m ρ hbody)

/-- info: 'Cert.KernelProof.run_values' depends on axioms: [propext, Classical.choice, Quot.sound] -/
#guard_msgs in #print axioms run_values

end Cert.KernelProof

end
-- ==== Proof.Spec.lean ====
/-
  The three-point smoothing along the rows of a matrix, as ONE function of the whole array over the extended reals:
  row r of the result is  ¼·x[r-1] + ½·x[r] + ¼·x[r+1]  (added left to right), except the first and the last row,
  which are copied. Both programs of the certificate are compared with this function: the one-device program computes
  it of the whole 8192 × 512 array, the eight devices compute its eight blocks of 1024 rows.
-/
import Idealize.ShloMosaic.PureOps.Ideal
import Idealize.ShloMosaic.Lib.ValueIdx

noncomputable section

namespace Cert.Stencil

open Idealize.ShloMosaic

/-- The whole array's shape and one device's block. -/
abbrev SW : Shape := ⟨2, ![8192, 512]⟩
abbrev SB : Shape := ⟨2, ![1024, 512]⟩

/-- The two weights, as the binary32 patterns both programs spell: 0.25 and 0.5. -/
def qtr : EReal := (FloatOps.ofBits (F := Ideal) .f32 0x3E800000#32)
def hlf : EReal := (FloatOps.ofBits (F := Ideal) .f32 0x3F000000#32)

/-- Smoothing along the rows of a matrix of `R` rows given by coordinates: the interior rows are the weighted sum of
    the row above, the row and the row below, in that order of addition; the two boundary rows are kept. -/
def smooth (R : Nat) (x : Fin R → Fin 512 → EReal) (r : Fin R) (j : Fin 512) : EReal :=
  if h0 : r.val = 0 then x r j
  else if h1 : r.val + 1 = R then x r j
  else qtr * x ⟨r.val - 1, by omega⟩ j + hlf * x r j + qtr * x ⟨r.val + 1, by omega⟩ j

/-- The smoothing of the whole 8192 × 512 array, by index. -/
def whole (x : SW.Idx → EReal) : SW.Idx → EReal :=
  fun i => smooth 8192 (fun r j => x (ValueIdx.ix2 r j)) (i 0) (i 1)

theorem whole_apply (x : SW.Idx → EReal) (r : Fin 8192) (j : Fin 512) :
    whole x (ValueIdx.ix2 r j) = smooth 8192 (fun r j => x (ValueIdx.ix2 r j)) r j := rfl

end Cert.Stencil

end
-- ==== Proof.RefRun.lean ====
/-
  The one-device program's run, written out. @main allocates a buffer of 8192 × 512 whose contents nothing determines,
  writes row 0 of the argument into it, then row 8191, then into rows 1 … 8190 the weighted sum
  ¼·x[r-1] + ½·x[r] + ¼·x[r+1] (added left to right) of three consecutive rows of the argument. Every row of the buffer is
  overwritten exactly once, so the result does not depend on what the allocation held: it is the smoothing
  `Cert.Stencil.whole` of the argument, and the argument is unchanged.

  Three parts. (1) The run: the allocation hands the buffer back at contents not chosen; the 27 operations after it are a
  straight line, whose effect on every buffer is the fold of their results. (2) A replacing scatter read at one index: a
  left fold of pointwise overwrites, which at an index hit by exactly one update holds that update and at an index hit by
  none holds the operand. (3) Where the three scatters land (row 0, row 8191, rows p + 1) and the case split on the row.
-/
import proofs.«900539_g7700000000000540_dist_halo_stencil_i_m1024_n512_v7x_i8_f32_1_alg».proof.Proof.Gen.ReferenceIdeal
import proofs.«900539_g7700000000000540_dist_halo_stencil_i_m1024_n512_v7x_i8_f32_1_alg».proof.Proof.Spec
import Idealize.ShloMosaic.Lib.StableHlo.Run
import Idealize.ShloMosaic.Lib.ValueIdx
import Idealize.ShloMosaic.Lib.ValueLayout

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The host operations of @main after the buffer's allocation, in order. -/
abbrev ops : List (HloOp τ sig (Elt F)) :=
  [ unary main_arg0 main_v1 ((extractStridedSlice S1x512 ![0, 0] · slices_S8192x512_S1x512_0_0) : (⟨S8192x512, .f32⟩ : BufTy).Contents (Elt F) → (⟨S1x512, .f32⟩ : BufTy).Contents (Elt F)),
    reshape main_v1 main_v2 rfl shapeCasts_S1x512_S512,
    nullary main_c (constantI S_ 32 0#32),
    unary main_c main_v3 (broadcastInDim S1 ![] bcast_S_S1 : (⟨S_, .i32⟩ : BufTy).Contents (Elt F) → (⟨S1, .i32⟩ : BufTy).Contents (Elt F)),
    ternary main_v0 main_v3 main_v2 main_v4 ((fun x i u => Host.scatter scatter_S8192x512_S1_S512_0_0_0_0 (fun _ b => b) x i u) : (⟨S8192x512, .f32⟩ : BufTy).Contents (Elt F) → (⟨S1, .i32⟩ : BufTy).Contents (Elt F) → (⟨S512, .f32⟩ : BufTy).Contents (Elt F) → (⟨S8192x512, .f32⟩ : BufTy).Contents (Elt F)),
    unary main_arg0 main_v5 ((extractStridedSlice S1x512 ![8191, 0] · slices_S8192x512_S1x512_8191_0) : (⟨S8192x512, .f32⟩ : BufTy).Contents (Elt F) → (⟨S1x512, .f32⟩ : BufTy).Contents (Elt F)),
    reshape main_v5 main_v6 rfl shapeCasts_S1x512_S512,
    nullary main_c_0 (constantI S_ 32 8191#32),
    unary main_c_0 main_v7 (broadcastInDim S1 ![] bcast_S_S1 : (⟨S_, .i32⟩ : BufTy).Contents (Elt F) → (⟨S1, .i32⟩ : BufTy).Contents (Elt F)),
    ternary main_v4 main_v7 main_v6 main_v8 ((fun x i u => Host.scatter scatter_S8192x512_S1_S512_0_0_0_0 (fun _ b => b) x i u) : (⟨S8192x512, .f32⟩ : BufTy).Contents (Elt F) → (⟨S1, .i32⟩ : BufTy).Contents (Elt F) → (⟨S512, .f32⟩ : BufTy).Contents (Elt F) → (⟨S8192x512, .f32⟩ : BufTy).Contents (Elt F)),
    unary main_arg0 main_v9 ((extractStridedSlice S8190x512 ![0, 0] · slices_S8192x512_S8190x512_0_0) : (⟨S8192x512, .f32⟩ : BufTy).Contents (Elt F) → (⟨S8190x512, .f32⟩ : BufTy).Contents (Elt F)),
    nullary main_cst (constant S_ .f32 0x3E800000#32),
    unary main_cst main_v10 (broadcastInDim S8190x512 ![] bcast_S_S8190x512 : (⟨S_, .f32⟩ : BufTy).Contents (Elt F) → (⟨S8190x512, .f32⟩ : BufTy).Contents (Elt F)),
    binary main_v10 main_v9 main_v11 (mulf : (⟨S8190x512, .f32⟩ : BufTy).Contents (Elt F) → (⟨S8190x512, .f32⟩ : BufTy).Contents (Elt F) → (⟨S8190x512, .f32⟩ : BufTy).Contents (Elt F)),
    unary main_arg0 main_v12 ((extractStridedSlice S8190x512 ![1, 0] · slices_S8192x512_S8190x512_1_0) : (⟨S8192x512, .f32⟩ : BufTy).Contents (Elt F) → (⟨S8190x512, .f32⟩ : BufTy).Contents (Elt F)),
    nullary main_cst_1 (constant S_ .f32 0x3F000000#32),
    unary main_cst_1 main_v13 (broadcastInDim S8190x512 ![] bcast_S_S8190x512 : (⟨S_, .f32⟩ : BufTy).Contents (Elt F) → (⟨S8190x512, .f32⟩ : BufTy).Contents (Elt F)),
    binary main_v13 main_v12 main_v14 (mulf : (⟨S8190x512, .f32⟩ : BufTy).Contents (Elt F) → (⟨S8190x512, .f32⟩ : BufTy).Contents (Elt F) → (⟨S8190x512, .f32⟩ : BufTy).Contents (Elt F)),
    binary main_v11 main_v14 main_v15 (addf : (⟨S8190x512, .f32⟩ : BufTy).Contents (Elt F) → (⟨S8190x512, .f32⟩ : BufTy).Contents (Elt F) → (⟨S8190x512, .f32⟩ : BufTy).Contents (Elt F)),
    unary main_arg0 main_v16 ((extractStridedSlice S8190x512 ![2, 0] · slices_S8192x512_S8190x512_2_0) : (⟨S8192x512, .f32⟩ : BufTy).Contents (Elt F) → (⟨S8190x512, .f32⟩ : BufTy).Contents (Elt F)),
    nullary main_cst_2 (constant S_ .f32 0x3E800000#32),
    unary main_cst_2 main_v17 (broadcastInDim S8190x512 ![] bcast_S_S8190x512 : (⟨S_, .f32⟩ : BufTy).Contents (Elt F) → (⟨S8190x512, .f32⟩ : BufTy).Contents (Elt F)),
    binary main_v17 main_v16 main_v18 (mulf : (⟨S8190x512, .f32⟩ : BufTy).Contents (Elt F) → (⟨S8190x512, .f32⟩ : BufTy).Contents (Elt F) → (⟨S8190x512, .f32⟩ : BufTy).Contents (Elt F)),
    binary main_v15 main_v18 main_v19 (addf : (⟨S8190x512, .f32⟩ : BufTy).Contents (Elt F) → (⟨S8190x512, .f32⟩ : BufTy).Contents (Elt F) → (⟨S8190x512, .f32⟩ : BufTy).Contents (Elt F)),
    nullary main_c_3 (constantI S_ 32 1#32),
    unary main_c_3 main_v20 (broadcastInDim S1 ![] bcast_S_S1 : (⟨S_, .i32⟩ : BufTy).Contents (Elt F) → (⟨S1, .i32⟩ : BufTy).Contents (Elt F)),
    ternary main_v8 main_v20 main_v19 main_v21 ((fun x i u => Host.scatter scatter_S8192x512_S1_S8190x512_01_n_0_0 (fun _ b => b) x i u) : (⟨S8192x512, .f32⟩ : BufTy).Contents (Elt F) → (⟨S1, .i32⟩ : BufTy).Contents (Elt F) → (⟨S8190x512, .f32⟩ : BufTy).Contents (Elt F) → (⟨S8192x512, .f32⟩ : BufTy).Contents (Elt F)) ]

/-- @main is the allocation, then those operations. -/
theorem main_eq (c : Dev nD) :
    main (F := F) c = ((hlo rfl (allocateBuffer main_v0) fun _ => .ret (⟨⟩ : PUnit)) >>= fun _ => seq ops) := rfl

/-- The signature scopes no buffer and no semaphore, and every operation touches TensorCore buffers only and
    determines its result. -/
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., nullary_bufs_sub .., unary_bufs_sub .., ternary_bufs_sub ..,
   unary_bufs_sub .., reshape_bufs_sub .., nullary_bufs_sub .., unary_bufs_sub .., ternary_bufs_sub ..,
   unary_bufs_sub .., nullary_bufs_sub .., unary_bufs_sub .., binary_bufs_sub ..,
   unary_bufs_sub .., nullary_bufs_sub .., unary_bufs_sub .., binary_bufs_sub .., binary_bufs_sub ..,
   unary_bufs_sub .., nullary_bufs_sub .., unary_bufs_sub .., binary_bufs_sub .., binary_bufs_sub ..,
   nullary_bufs_sub .., unary_bufs_sub .., ternary_bufs_sub ..⟩
theorem ops_fresh : ∀ op ∈ (ops : List (HloOp τ sig (Elt F))), op.fresh = ∅ := by
  intro _ h; (repeat (cases h with | head => rfl | tail _ h => ?_)); exact nomatch h

/-! ## The run

The allocation hands its buffer back at contents the program does not choose; the operations after it then run as a
straight line from the launch contents with that one buffer replaced. -/

section Run

open Idealize.SL Idealize.SL.RA Idealize.SL.BI
open scoped Idealize.SL.BI
open Idealize.SL.BI.BIBase Idealize.SL.BI.Laws Idealize.SL.ProofMode

local notation "𝕄" => MT nD τ sig Unit (Elt F) ℕ (Option PUnit) Unit

/-- The buffer @main allocates, as a device buffer. -/
abbrev y0 : DevRef τ sig := Proc.devRef .tc main_v0

/-- A valuation with the allocated buffer at contents `a`. -/
def withAlloc (V : Valuation τ sig (Elt F)) (a : (y0).ty.Contents (Elt F)) : Valuation τ sig (Elt F) :=
  Function.update V y0 a

/-- It reads `a` at the allocated buffer and `V` elsewhere. -/
theorem withAlloc_self (V : Valuation τ sig (Elt F)) (a : (y0).ty.Contents (Elt F)) : withAlloc V a y0 = a := by
  unfold withAlloc; exact Function.update_self ..
theorem withAlloc_ne (V : Valuation τ sig (Elt F)) (a : (y0).ty.Contents (Elt F)) {b : DevRef τ sig} (h : b ≠ y0) :
    withAlloc V a b = V b := by
  unfold withAlloc; exact Function.update_of_ne h ..

/-- The allocated buffer is one of the TensorCore's. -/
theorem y0_sub : ({y0} : Finset (DevRef τ sig)) ⊆ tcRefs τ sig :=
  Finset.singleton_subset_iff.mpr (devRef_mem_tcRefs main_v0)

/-- Holding one buffer is its points-to. -/
theorem held_singleton (c : Thread nD τ) (b : DevRef τ sig) (V : Valuation τ sig (Elt F)) :
    (held c {b} V : sProp 𝕄) = ((c.1, b) ↦{fullShare} V b) := by
  unfold held; exact bigSep_singleton

/-- The allocated buffer at `a` beside the other buffers at `V` is all the buffers at `withAlloc V a`. -/
theorem rejoin (c : Thread nD τ) (V : Valuation τ sig (Elt F)) (a : (y0).ty.Contents (Elt F)) :
    (iprop(((c.1, y0) ↦{fullShare} a) ∗ held c (tcRefs τ sig \ {y0}) V) : sProp 𝕄)
      = held c (tcRefs τ sig) (withAlloc V a) := by
  rw [held_sub_split c y0_sub (withAlloc V a), held_singleton, withAlloc_self,
    held_congr c (V := withAlloc V a) (V' := V) fun b hb =>
      withAlloc_ne V a fun e => (Finset.mem_sdiff.mp hb).2 (Finset.mem_singleton.mpr e)]

/-- What each core ends holding: every buffer, at the operations' results from the launch contents with the allocated
    buffer at some contents. -/
def Φrun (m : (ℓ : Loc nD τ sig) → Buf (Elt F) ℓ) (d : Dev nD) : sProp 𝕄 :=
  iprop(∃ a : (y0).ty.Contents (Elt F), held (d.tc : Thread nD τ) (tcRefs τ sig) (after ops (withAlloc (launchContents m d) a)))

-- a rule stated for any thread is applied at the TensorCore thread `d.tc`: unification must unfold plain
-- definitions in a metavariable's type
set_option backward.isDefEq.respectTransparency.types false in
/-- Each core's run of @main from what the launch deals it: the allocation, then the straight line. -/
theorem step_main (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.none (d.tc : Thread nD τ) none) Set.univ (main (F := F) d)
          (fun _ => post (liftTc (Φrun m) BI.emp) (d.tc : Thread nD τ) : PUnit → sProp 𝕄) := by
  have hbufs : (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = iprop((((d.tc : Thread nD τ).1, y0) ↦{fullShare} launchContents m d y0)
          ∗ held (d.tc : Thread nD τ) (tcRefs τ sig \ {y0}) (launchContents m d)) := by
    rw [← held_singleton, ← held_sub_split _ y0_sub]
    unfold held tcRefs; rw [bigSep_map]; rfl
  rw [hbufs, main_eq, wp_bind]
  iintro ⟨⟨Hy, Hrest⟩, HO, -, Hidle⟩
  ihave Hb := (boundary_of_opIdle (d.tc : Thread nD τ) (by rw [scopedRefs_tc, scopedRefs_eq, Finset.map_empty])
    (by rw [show (d.tc : Thread nD τ) = (d, .tc) from rfl, scopedCells_tc, scopedSems_eq, Finset.map_empty])) $$ Hidle
  iapply (wp_allocateBuffer (defs := defs (F := F)) Variants.none (d.tc : Thread nD τ) none Set.univ main_v0 ⟨by decide, rfl⟩ (hp := rfl)
      (k := fun _ => (.ret ⟨⟩ : Prog (TpuEff nD τ sig (Elt F) _ .tc) PUnit)) (V := launchContents m d)
      (Q := fun _ => wp frame (wpE (defs (F := F)) Variants.none (d.tc : Thread nD τ) none) Set.univ (seq ops)
        (fun _ => post (liftTc (Φrun m) BI.emp) (d.tc : Thread nD τ)))) $$ [Hb Hy]
  · isplitl [Hb]; · iexact Hb
    iexact Hy
  iintro %r ⟨Hb, Hy⟩
  rw [wp_ret]; imodintro
  rw [show seq (ops (F := F)) = (seq ops >>= fun u => Pure.pure u) from (bind_pure _).symm]
  iapply (wp_seq Variants.none none Set.univ d (tcRefs τ sig) (fun u => Pure.pure u) ops (List.forall_iff_forall_mem.1 ops_sub) ops_fresh
      (withAlloc (launchContents m d) (r ⟨y0, Finset.mem_singleton_self _⟩))) $$ [Hb Hy Hrest]
  · isplitl [Hb]; · iexact Hb
    rw [← rejoin]
    isplitl [Hy]; · iexact Hy
    iexact Hrest
  iintro ⟨-, Hheld⟩
  rw [wp_pure]; imodintro
  unfold post Φrun; simp only [liftTc_tc]
  isplitl [Hheld]; · iexists _; iexact Hheld
  iexists ∅; iexact HO

/-- That post read against the state interpretation: every buffer's physical contents, for some allocated contents. -/
theorem post_main (m : (ℓ : Loc nD τ sig) → Buf (Elt F) ℓ) (d : Dev nD) (s' : Phys nD τ sig (Elt F)) :
    iprop(Φrun m d ∗ SI s')
      ⊢ (⌜∃ a : (y0).ty.Contents (Elt F), ∀ b : Ref sig .tc,
            s'.mem.mem ((d.tc : Thread nD τ).loc b) = after ops (withAlloc (launchContents m d) a) (Proc.devRef .tc b)⌝ : sProp 𝕄) := by
  unfold Φrun held
  iintro ⟨⟨%a, H⟩, HSI⟩
  ihave %h := (SI_pointsTo_bufs_agree (qs := fun _ => fullShare) (tcRefs τ sig)) $$ [HSI H]
  · isplitl [HSI]; · iexact HSI
    iexact H
  ipureintro
  exact ⟨a, fun b => h _ (devRef_mem_tcRefs b)⟩

/-- From any memory with zero counters every weakly fair execution of @main terminates, and every buffer ends at the
    operations' results from the launch contents with the allocated buffer at SOME contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ d : Dev nD, ∃ a : (y0).ty.Contents (Elt F), ∀ b : Ref sig .tc,
        r.2.mem ((d.tc : Thread nD τ).loc b) = after ops (withAlloc (launchContents m d) a) (Proc.devRef .tc b) :=
  adequate_tpu defs _ _ _ (reflect_intro_silent_tc (Ix := Unit) (Name := ℕ) (U := Option PUnit) (Lvl := Unit)
    Variants.none none (Φrun m)
    (fun d mem => ∃ a : (y0).ty.Contents (Elt F), ∀ b : Ref sig .tc,
      mem.mem ((d.tc : Thread nD τ).loc b) = after ops (withAlloc (launchContents m d) a) (Proc.devRef .tc b))
    (step_main m ρ) (post_main m) (fun _ h d => h d))

end Run

/-! ## A replacing scatter read at one index

The scatter is a left fold, over the update indices in row-major order, of steps that each overwrite the one element the
update lands at. Read at a fixed index `i'`: if no update lands there the operand's element survives; if exactly one
update index lands there the element is that update's, wherever in the order it comes. -/

section Fold
variable {s si u : Shape} {α : Type} {w : Nat}

/-- One step of the fold: update `n` overwrites the element it lands at, or is dropped. -/
def scatStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The replacing scatter is the fold of those steps. -/
theorem scatter_eq_foldl (d : ScatterDims s si u) (x : s.Idx → α) (idx : IVec si w) (upd : u.Idx → α) :
    Host.scatter d (fun _ b => b) x idx upd = (List.finRange u.numel).foldl (scatStep d idx upd) x := rfl

/-- A step whose update does not land at `i'` leaves the element at `i'`. -/
theorem scatStep_miss (d : ScatterDims s si u) (idx : IVec si w) (upd : u.Idx → α) (r : s.Idx → α) (n : Fin u.numel) (i' : s.Idx)
    (h : d.resultIdx? (u.rowMajor.symm n) idx ≠ some i') : scatStep d idx upd r n i' = r i' := by
  unfold scatStep
  cases hr : d.resultIdx? (u.rowMajor.symm n) idx with
  | none => rfl
  | some i =>
    have hne : i' ≠ i := fun e => h (by rw [hr, e])
    simp only [if_neg hne]

/-- A step whose update lands at `i'` puts the update there. -/
theorem scatStep_hit (d : ScatterDims s si u) (idx : IVec si w) (upd : u.Idx → α) (r : s.Idx → α) (n : Fin u.numel) (i' : s.Idx)
    (h : d.resultIdx? (u.rowMajor.symm n) idx = some i') : scatStep d idx upd r n i' = upd (u.rowMajor.symm n) := by
  unfold scatStep
  simp only [h, if_true]

/-- Steps none of which lands at `i'` leave the element at `i'`. -/
theorem foldl_miss (d : ScatterDims s si u) (idx : IVec si w) (upd : u.Idx → α) (i' : s.Idx) :
    ∀ (l : List (Fin u.numel)) (x : s.Idx → α), (∀ n ∈ l, d.resultIdx? (u.rowMajor.symm n) idx ≠ some i') →
      l.foldl (scatStep d idx upd) x i' = x i'
  | [], _, _ => rfl
  | n :: t, x, h => by
    rw [List.foldl_cons, foldl_miss d idx upd i' t _ fun m hm => h m (List.mem_cons_of_mem _ hm),
      scatStep_miss d idx upd x n i' (h n List.mem_cons_self)]

/-- If `n₀` is the only update landing at `i'` and it is among the steps, the element at `i'` ends as update `n₀`:
    after the last occurrence of `n₀` no step touches `i'`. -/
theorem foldl_hit (d : ScatterDims s si u) (idx : IVec si w) (upd : u.Idx → α) (i' : s.Idx) (n₀ : Fin u.numel)
    (h₀ : d.resultIdx? (u.rowMajor.symm n₀) idx = some i')
    (huniq : ∀ n, d.resultIdx? (u.rowMajor.symm n) idx = some i' → n = n₀) :
    ∀ (l : List (Fin u.numel)) (x : s.Idx → α), n₀ ∈ l → l.foldl (scatStep d idx upd) x i' = upd (u.rowMajor.symm n₀)
  | [], _, h => absurd h List.not_mem_nil
  | n :: t, x, h => by
    rw [List.foldl_cons]
    by_cases ht : n₀ ∈ t
    · exact foldl_hit d idx upd i' n₀ h₀ huniq t _ ht
    · have hn : n₀ = n := by
        rcases List.mem_cons.mp h with e | e
        · exact e
        · exact absurd e ht
      subst hn
      rw [foldl_miss d idx upd i' t _ fun m hm hr => ht (huniq m hr ▸ hm), scatStep_hit d idx upd x n₀ i' h₀]

/-- No update lands at `i'`: the operand's element. -/
theorem scatter_miss (d : ScatterDims s si u) (x : s.Idx → α) (idx : IVec si w) (upd : u.Idx → α) (i' : s.Idx)
    (h : ∀ j, d.resultIdx? j idx ≠ some i') : Host.scatter d (fun _ b => b) x idx upd i' = x i' := by
  rw [scatter_eq_foldl]
  exact foldl_miss d idx upd i' _ x fun n _ => h _

/-- Exactly the update index `j₀` lands at `i'`: that update. -/
theorem scatter_hit (d : ScatterDims s si u) (x : s.Idx → α) (idx : IVec si w) (upd : u.Idx → α) (i' : s.Idx) (j₀ : u.Idx)
    (h₀ : d.resultIdx? j₀ idx = some i') (huniq : ∀ j, d.resultIdx? j idx = some i' → j = j₀) :
    Host.scatter d (fun _ b => b) x idx upd i' = upd j₀ := by
  rw [scatter_eq_foldl]
  have e : u.rowMajor.symm (u.rowMajor j₀) = j₀ := Equiv.symm_apply_apply _ _
  have := foldl_hit d idx upd i' (u.rowMajor j₀) (by rw [e]; exact h₀)
    (fun n hn => by rw [← huniq _ hn, Equiv.apply_symm_apply]) (List.finRange u.numel) x (List.mem_finRange _)
  rw [this, e]

end Fold

/-! ## Where the three scatters land -/

section Land
open Idealize.ShloMosaic.ValueIdx
variable [Cert.ReferenceIdeal.Facts₀]

/-- The one-row scatter at the constant start row `r`: update column `j` lands at `(r, j)`. -/
theorem rowLand (k : BitVec 32) (r : Fin 8192) (hk : k.toInt = (r.val : Int)) (idx : IVec S1 32) (hidx : ∀ i, idx i = k)
    (j : S512.Idx) :
    scatter_S8192x512_S1_S512_0_0_0_0.resultIdx? j idx = some (ix2 r (j 0)) := by
  have h0 : scatter_S8192x512_S1_S512_0_0_0_0.start j idx 0 = (r.val : Int) := by
    show (idx _).toInt = _
    rw [hidx, hk]
  have h1 : scatter_S8192x512_S1_S512_0_0_0_0.start j idx 1 = 0 := rfl
  have w0 : scatter_S8192x512_S1_S512_0_0_0_0.window j 0 = 0 := rfl
  have w1 : scatter_S8192x512_S1_S512_0_0_0_0.window j 1 = (j 0).val := rfl
  have hr := r.isLt
  have hj : (j 0).val < 512 := (j 0).isLt
  unfold ScatterDims.resultIdx?
  rw [dif_pos (by
    intro a
    match a with
    | ⟨0, _⟩ =>
      show 0 ≤ scatter_S8192x512_S1_S512_0_0_0_0.start j idx 0 + (scatter_S8192x512_S1_S512_0_0_0_0.window j 0 : Int)
        ∧ scatter_S8192x512_S1_S512_0_0_0_0.start j idx 0 + (scatter_S8192x512_S1_S512_0_0_0_0.window j 0 : Int) < (8192 : Nat)
      rw [h0, w0]; omega
    | ⟨1, _⟩ =>
      show 0 ≤ scatter_S8192x512_S1_S512_0_0_0_0.start j idx 1 + (scatter_S8192x512_S1_S512_0_0_0_0.window j 1 : Int)
        ∧ scatter_S8192x512_S1_S512_0_0_0_0.start j idx 1 + (scatter_S8192x512_S1_S512_0_0_0_0.window j 1 : Int) < (512 : Nat)
      rw [h1, w1]; omega)]
  congr 1
  funext a
  match a with
  | ⟨0, _⟩ =>
    refine Fin.ext ?_
    show (scatter_S8192x512_S1_S512_0_0_0_0.start j idx 0 + (scatter_S8192x512_S1_S512_0_0_0_0.window j 0 : Int)).toNat = r.val
    rw [h0, w0]; omega
  | ⟨1, _⟩ =>
    refine Fin.ext ?_
    show (scatter_S8192x512_S1_S512_0_0_0_0.start j idx 1 + (scatter_S8192x512_S1_S512_0_0_0_0.window j 1 : Int)).toNat = (j 0).val
    rw [h1, w1]; omega

/-- The block scatter at the constant start row 1: update `(p, q)` lands at `(p + 1, q)`. -/
theorem blockLand (idx : IVec S1 32) (hidx : ∀ i, idx i = 1#32) (j : S8190x512.Idx) :
    scatter_S8192x512_S1_S8190x512_01_n_0_0.resultIdx? j idx
      = some (ix2 (⟨(j 0).val + 1, by have : (j 0).val < 8190 := (j 0).isLt; omega⟩ : Fin 8192) (j 1)) := by
  have h0 : scatter_S8192x512_S1_S8190x512_01_n_0_0.start j idx 0 = 1 := by
    show (idx _).toInt = _
    rw [hidx]; rfl
  have h1 : scatter_S8192x512_S1_S8190x512_01_n_0_0.start j idx 1 = 0 := rfl
  have w0 : scatter_S8192x512_S1_S8190x512_01_n_0_0.window j 0 = (j 0).val := rfl
  have w1 : scatter_S8192x512_S1_S8190x512_01_n_0_0.window j 1 = (j 1).val := rfl
  have hj0 : (j 0).val < 8190 := (j 0).isLt
  have hj1 : (j 1).val < 512 := (j 1).isLt
  unfold ScatterDims.resultIdx?
  rw [dif_pos (by
    intro a
    match a with
    | ⟨0, _⟩ =>
      show 0 ≤ scatter_S8192x512_S1_S8190x512_01_n_0_0.start j idx 0 + (scatter_S8192x512_S1_S8190x512_01_n_0_0.window j 0 : Int)
        ∧ scatter_S8192x512_S1_S8190x512_01_n_0_0.start j idx 0 + (scatter_S8192x512_S1_S8190x512_01_n_0_0.window j 0 : Int) < (8192 : Nat)
      rw [h0, w0]; omega
    | ⟨1, _⟩ =>
      show 0 ≤ scatter_S8192x512_S1_S8190x512_01_n_0_0.start j idx 1 + (scatter_S8192x512_S1_S8190x512_01_n_0_0.window j 1 : Int)
        ∧ scatter_S8192x512_S1_S8190x512_01_n_0_0.start j idx 1 + (scatter_S8192x512_S1_S8190x512_01_n_0_0.window j 1 : Int) < (512 : Nat)
      rw [h1, w1]; omega)]
  congr 1
  funext a
  match a with
  | ⟨0, _⟩ =>
    refine Fin.ext ?_
    show (scatter_S8192x512_S1_S8190x512_01_n_0_0.start j idx 0 + (scatter_S8192x512_S1_S8190x512_01_n_0_0.window j 0 : Int)).toNat = (j 0).val + 1
    rw [h0, w0]; omega
  | ⟨1, _⟩ =>
    refine Fin.ext ?_
    show (scatter_S8192x512_S1_S8190x512_01_n_0_0.start j idx 1 + (scatter_S8192x512_S1_S8190x512_01_n_0_0.window j 1 : Int)).toNat = (j 1).val
    rw [h1, w1]; omega

end Land

/-! ## The result, index by index -/

section Value
open Cert.Stencil Idealize.ShloMosaic.ValueIdx

/-- The start index of a scatter: the word `k`, at every index. -/
def startAt (k : BitVec 32) : IVec S1 32 := broadcastInDim S1 ![] bcast_S_S1 (constantI S_ 32 k)

theorem startAt_apply (k : BitVec 32) (i : S1.Idx) : startAt k i = k := by
  unfold startAt
  rw [broadcastInDim_apply (![] : Fin 0 → Fin S1.rank) bcast_S_S1 (constantI S_ 32 k) i ix0 (fun a => a.elim0), constantI_apply]

/-- Row `o` of the array, as a vector of 512: the slice `[o : o + 1, 0 : 512]` reshaped. -/
def rowOf (o : Nat) (h : S8192x512.Slices ![o, 0] S1x512) (x : SW.Idx → EReal) : S512.Idx → EReal :=
  shapeCast S512 (extractStridedSlice S1x512 ![o, 0] x h) shapeCasts_S1x512_S512

theorem rowOf_apply (o : Nat) (h : S8192x512.Slices ![o, 0] S1x512) (x : SW.Idx → EReal) (j : Fin 512) :
    rowOf o h x (ix1 j) = x (ix2 ⟨o + 0, Nat.lt_of_lt_of_le (Nat.add_lt_add_left (Nat.zero_lt_one) o) (h.2 0)⟩ j) := by
  unfold rowOf
  rw [shapeCast_1a_a_apply, slice2_axis0_eq]
  rfl

/-- The weighted sum of three consecutive rows, for the 8190 interior rows. -/
def interior (x : SW.Idx → EReal) : S8190x512.Idx → EReal :=
  addf (addf (mulf (broadcastInDim S8190x512 ![] bcast_S_S8190x512 (constant (F := Ideal) S_ .f32 0x3E800000#32))
                   (extractStridedSlice S8190x512 ![0, 0] x slices_S8192x512_S8190x512_0_0))
             (mulf (broadcastInDim S8190x512 ![] bcast_S_S8190x512 (constant (F := Ideal) S_ .f32 0x3F000000#32))
                   (extractStridedSlice S8190x512 ![1, 0] x slices_S8192x512_S8190x512_1_0)))
       (mulf (broadcastInDim S8190x512 ![] bcast_S_S8190x512 (constant (F := Ideal) S_ .f32 0x3E800000#32))
             (extractStridedSlice S8190x512 ![2, 0] x slices_S8192x512_S8190x512_2_0))

theorem splat_apply (b : BitVec 32) (i : S8190x512.Idx) :
    broadcastInDim S8190x512 ![] bcast_S_S8190x512 (constant (F := Ideal) S_ .f32 b) i = Ideal.ofBits .f32 b := by
  rw [broadcastInDim_apply (![] : Fin 0 → Fin S8190x512.rank) bcast_S_S8190x512 _ i ix0 (fun a => a.elim0), constant_apply]

theorem interior_apply (x : SW.Idx → EReal) (p : Fin 8190) (j : Fin 512) :
    interior x (ix2 p j)
      = qtr * x (ix2 (⟨0 + p.val, by omega⟩ : Fin 8192) j) + hlf * x (ix2 (⟨1 + p.val, by omega⟩ : Fin 8192) j)
        + qtr * x (ix2 (⟨2 + p.val, by omega⟩ : Fin 8192) j) := by
  unfold interior
  rw [addf_apply, addf_apply, mulf_apply, mulf_apply, mulf_apply, splat_apply, splat_apply,
    slice2_axis0_eq, slice2_axis0_eq, slice2_axis0_eq]
  rfl

/-- @main's result as a term of the allocated buffer's contents `a` and the argument `x`. -/
def resultOf (a x : SW.Idx → EReal) : SW.Idx → EReal :=
  Host.scatter scatter_S8192x512_S1_S8190x512_01_n_0_0 (fun _ b => b)
    (Host.scatter scatter_S8192x512_S1_S512_0_0_0_0 (fun _ b => b)
      (Host.scatter scatter_S8192x512_S1_S512_0_0_0_0 (fun _ b => b) a (startAt 0#32)
        (rowOf 0 slices_S8192x512_S1x512_0_0 x))
      (startAt 8191#32) (rowOf 8191 slices_S8192x512_S1x512_8191_0 x))
    (startAt 1#32) (interior x)

/-- An interior row is written by the last scatter. -/
theorem resultOf_interior (a x : SW.Idx → EReal) (r : Fin 8192) (j : Fin 512) (h0 : r.val ≠ 0) (h1 : r.val + 1 ≠ 8192) :
    resultOf a x (ix2 r j) = interior x (ix2 (⟨r.val - 1, by omega⟩ : Fin 8190) j) := by
  unfold resultOf
  refine scatter_hit _ _ _ _ _ (ix2 (⟨r.val - 1, by omega⟩ : Fin 8190) j) ?_ ?_
  · rw [blockLand _ (startAt_apply 1#32)]
    congr 2
    exact Fin.ext (by show r.val - 1 + 1 = r.val; omega)
  · intro j' hj'
    rw [blockLand _ (startAt_apply 1#32)] at hj'
    have e := Option.some.inj hj'
    have e0 := congrArg (fun i => (i 0).val) e
    have e1 := congrArg (fun i => i 1) e
    have p0 : j' 0 = (⟨r.val - 1, by omega⟩ : Fin 8190) := Fin.ext (by
      have : (j' 0).val + 1 = r.val := e0
      show (j' 0).val = r.val - 1
      omega)
    have p1 : j' 1 = j := e1
    rw [eq_ix2 j']
    exact congrArg₂ ix2 p0 p1

/-- A boundary row is not touched by the last scatter. -/
theorem resultOf_boundary (a x : SW.Idx → EReal) (r : Fin 8192) (j : Fin 512) (h : r.val = 0 ∨ r.val + 1 = 8192) :
    resultOf a x (ix2 r j)
      = Host.scatter scatter_S8192x512_S1_S512_0_0_0_0 (fun _ b => b)
          (Host.scatter scatter_S8192x512_S1_S512_0_0_0_0 (fun _ b => b) a (startAt 0#32)
            (rowOf 0 slices_S8192x512_S1x512_0_0 x))
          (startAt 8191#32) (rowOf 8191 slices_S8192x512_S1x512_8191_0 x) (ix2 r j) := by
  unfold resultOf
  refine scatter_miss _ _ _ _ _ fun j' hj' => ?_
  rw [blockLand _ (startAt_apply 1#32)] at hj'
  have e0 : (j' 0).val + 1 = r.val := congrArg (fun i => (i 0).val) (Option.some.inj hj')
  have : (j' 0).val < 8190 := (j' 0).isLt
  omega

/-- Row 8191 is written by the second scatter. -/
theorem resultOf_last (a x : SW.Idx → EReal) (r : Fin 8192) (j : Fin 512) (h : r.val + 1 = 8192) :
    resultOf a x (ix2 r j) = x (ix2 r j) := by
  rw [resultOf_boundary a x r j (Or.inr h)]
  have hr : r = (⟨8191, by decide⟩ : Fin 8192) := Fin.ext (by show r.val = 8191; omega)
  subst hr
  rw [scatter_hit _ _ _ _ (ix2 (⟨8191, by decide⟩ : Fin 8192) j) (ix1 j) (rowLand 8191#32 ⟨8191, by decide⟩ rfl _ (startAt_apply 8191#32) (ix1 j))
    (fun j' hj' => by
      rw [rowLand 8191#32 ⟨8191, by decide⟩ rfl _ (startAt_apply 8191#32)] at hj'
      rw [eq_ix1 j']
      exact congrArg ix1 (congrArg (fun i => i 1) (Option.some.inj hj'))),
    rowOf_apply]

/-- Row 0 is written by the first scatter and not by the second. -/
theorem resultOf_first (a x : SW.Idx → EReal) (r : Fin 8192) (j : Fin 512) (h : r.val = 0) :
    resultOf a x (ix2 r j) = x (ix2 r j) := by
  rw [resultOf_boundary a x r j (Or.inl h)]
  have hr : r = (⟨0, by decide⟩ : Fin 8192) := Fin.ext h
  subst hr
  rw [scatter_miss _ _ _ _ _ (fun j' hj' => by
      rw [rowLand 8191#32 ⟨8191, by decide⟩ rfl _ (startAt_apply 8191#32)] at hj'
      have e : (8191 : Nat) = 0 := congrArg (fun i => (i 0).val) (Option.some.inj hj')
      exact absurd e (by decide)),
    scatter_hit _ _ _ _ (ix2 (⟨0, by decide⟩ : Fin 8192) j) (ix1 j) (rowLand 0#32 ⟨0, by decide⟩ rfl _ (startAt_apply 0#32) (ix1 j))
    (fun j' hj' => by
      rw [rowLand 0#32 ⟨0, by decide⟩ rfl _ (startAt_apply 0#32)] at hj'
      rw [eq_ix1 j']
      exact congrArg ix1 (congrArg (fun i => i 1) (Option.some.inj hj'))),
    rowOf_apply]

/-- Whatever the allocated buffer held, the result is the smoothing of the argument. -/
theorem resultOf_eq (a x : SW.Idx → EReal) : resultOf a x = whole x := by
  funext i
  obtain ⟨r, j, rfl⟩ : ∃ (r : Fin 8192) (j : Fin 512), i = ix2 r j := ⟨i 0, i 1, eq_ix2 i⟩
  rw [whole_apply]
  unfold smooth
  by_cases h0 : r.val = 0
  · rw [dif_pos h0, resultOf_first a x r j h0]
  · rw [dif_neg h0]
    by_cases h1 : r.val + 1 = 8192
    · rw [dif_pos h1, resultOf_last a x r j h1]
    · rw [dif_neg h1, resultOf_interior a x r j h0 h1, interior_apply]
      have q0 : (⟨0 + (r.val - 1), by omega⟩ : Fin 8192) = ⟨r.val - 1, by omega⟩ := Fin.ext (by show 0 + (r.val - 1) = r.val - 1; omega)
      have q1 : (⟨1 + (r.val - 1), by omega⟩ : Fin 8192) = r := Fin.ext (by show 1 + (r.val - 1) = r.val; omega)
      have q2 : (⟨2 + (r.val - 1), by omega⟩ : Fin 8192) = ⟨r.val + 1, by omega⟩ := Fin.ext (by show 2 + (r.val - 1) = r.val + 1; omega)
      show qtr * x (ix2 (⟨0 + (r.val - 1), by omega⟩ : Fin 8192) j) + hlf * x (ix2 (⟨1 + (r.val - 1), by omega⟩ : Fin 8192) j)
          + qtr * x (ix2 (⟨2 + (r.val - 1), by omega⟩ : Fin 8192) j) = _
      rw [q0, q1, q2]

end Value

/-! ## The run read back -/

section Final
open Idealize.ShloMosaic.ValueIdx

/-- The result buffer after the operations: `resultOf` of the allocated contents and the argument. -/
theorem after_v21 (V : Valuation τ sig (Elt Ideal)) (a : (y0).ty.Contents (Elt Ideal)) :
    after (ops (F := Ideal)) (withAlloc V a) (Proc.devRef .tc main_v21) = resultOf a (V (Proc.devRef .tc main_arg0)) := by
  after_results
  rw [withAlloc_self, withAlloc_ne V a (devRef_ne_of_ne (x := main_arg0) (y := main_v0) (by decide))]
  rfl

/-- No operation writes the argument. -/
theorem after_arg0 (V : Valuation τ sig (Elt Ideal)) (a : (y0).ty.Contents (Elt Ideal)) :
    after (ops (F := Ideal)) (withAlloc V a) (Proc.devRef .tc main_arg0) = V (Proc.devRef .tc main_arg0) := by
  after_results
  exact withAlloc_ne V a (devRef_ne_of_ne (x := main_arg0) (y := main_v0) (by decide))

/-- From any memory with zero counters every weakly fair execution of the one-device program terminates, its result
    the smoothing of the argument and the argument unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      r.2.mem (((0 : Dev Cert.ReferenceIdeal.nD).tc : Thread Cert.ReferenceIdeal.nD Cert.ReferenceIdeal.τ).loc Cert.ReferenceIdeal.main_v21)
          = Cert.Stencil.whole (m (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => by
      obtain ⟨a, ha⟩ := h 0
      exact ⟨(ha main_v21).trans ((after_v21 _ a).trans (resultOf_eq a _)), (ha main_arg0).trans (after_arg0 _ a)⟩)
    (run_after m g)

end Final

/-- info: 'Cert.RefRun.run' depends on axioms: [propext, Classical.choice, Quot.sound] -/
#guard_msgs in #print axioms Cert.RefRun.run

end Cert.RefRun

end
-- ==== Proof.Bridge.lean ====
/-
  What one device computes, compared with the smoothing of the whole array. Device c of eight holds rows
  [1024c, 1024c + 1024) of an 8192 × 512 array W; its result block is given by index as the kernel body's payloads read at
  a row, from its own block and the two rows received from its neighbours on the ring. This module reads every payload at
  an index over the extended reals — a product of a splat constant and a slice is the constant times the block's element
  at the shifted row, a sum is the sum, a select on the device's position is decided per device — and lands each of the
  four row ranges on the matching branch of the three-point smoothing of W: global row 1024c + r is the first row only
  for c = 0, r = 0 and the last only for c = 7, r = 1023; for row 0 of a device c ≠ 0 the row above is row 1023 of the
  block before it, for row 1023 of a device c ≠ 7 the row below is row 0 of the block after it. Both sides are the same
  products and sums in the same order, so no finiteness is used.
-/
import proofs.«900539_g7700000000000540_dist_halo_stencil_i_m1024_n512_v7x_i8_f32_1_alg».proof.Proof.KernelIdealData
import proofs.«900539_g7700000000000540_dist_halo_stencil_i_m1024_n512_v7x_i8_f32_1_alg».proof.Proof.Spec
import Idealize.ShloMosaic.Lib.Layout
import Idealize.ShloMosaic.Lib.Pipeline.Value
import Idealize.ShloMosaic.Lib.ValueIdx

noncomputable section

namespace Cert.Bridge

open Idealize.ShloMosaic Idealize.ShloMosaic.ValueIdx
open Cert.KernelIdeal Cert.KernelIdeal.Gen Cert.KernelIdealProof Cert.Stencil

/-! ## The two received rows read back, for every float instance -/

section Slots
variable {F : FTy → Type} [FloatOps F]

/-- A load of slot 0 of the two-slot buffer reads, at (0, 0, t), the contents at (0, 0, t): the rectangle starts at
    offset (0, 0, 0) with unit strides, and its first two axes have one coordinate. -/
theorem readH0 (h : Vec F S2x1x512 .f32) (j : S1x1x512.Idx) :
    ((hM : Memref sig .tc .vmem S2x1x512 .f32).view.readAt (Elt F) rH0.toLoadRect h) j
      = h (ix3 (⟨0, by decide⟩ : Fin 2) (⟨0, by decide⟩ : Fin 1) (j 2 : Fin 512)) := by
  rw [View.readAt_apply]
  show h _ = h _
  refine congrArg h (funext fun a => ?_)
  match a with
  | ⟨0, _⟩ => exact Fin.ext (by show 0 + 1 * (j 0).val = 0; have : (j 0).val < 1 := (j 0).isLt; omega)
  | ⟨1, _⟩ => exact Fin.ext (by show 0 + 1 * (j 1).val = 0; have : (j 1).val < 1 := (j 1).isLt; omega)
  | ⟨2, _⟩ => exact Fin.ext (by show 0 + 1 * (j 2).val = (j 2).val; omega)

/-- A load of slot 1 reads, at (0, 0, t), the contents at (1, 0, t): the rectangle starts at offset (1, 0, 0). -/
theorem readH1 (h : Vec F S2x1x512 .f32) (j : S1x1x512.Idx) :
    ((hM : Memref sig .tc .vmem S2x1x512 .f32).view.readAt (Elt F) rH1.toLoadRect h) j
      = h (ix3 (⟨1, by decide⟩ : Fin 2) (⟨0, by decide⟩ : Fin 1) (j 2 : Fin 512)) := by
  rw [View.readAt_apply]
  show h _ = h _
  refine congrArg h (funext fun a => ?_)
  match a with
  | ⟨0, _⟩ => exact Fin.ext (by show 1 + 1 * (j 0).val = 1; have : (j 0).val < 1 := (j 0).isLt; omega)
  | ⟨1, _⟩ => exact Fin.ext (by show 0 + 1 * (j 1).val = 0; have : (j 1).val < 1 := (j 1).isLt; omega)
  | ⟨2, _⟩ => exact Fin.ext (by show 0 + 1 * (j 2).val = (j 2).val; omega)

/-- Slot 0 of the filled slots is the last row of the block before. -/
theorem readH0_halo (xl xr : Vec F S1024x512 .f32) (j : S1x1x512.Idx) :
    ((hM : Memref sig .tc .vmem S2x1x512 .f32).view.readAt (Elt F) rH0.toLoadRect (haloOf xl xr)) j
      = xl (ix2 (⟨1023, by decide⟩ : Fin 1024) (j 2 : Fin 512)) := by
  rw [readH0]
  exact if_pos rfl

/-- Slot 1 of the filled slots is the first row of the block after. -/
theorem readH1_halo (xl xr : Vec F S1024x512 .f32) (j : S1x1x512.Idx) :
    ((hM : Memref sig .tc .vmem S2x1x512 .f32).view.readAt (Elt F) rH1.toLoadRect (haloOf xl xr)) j
      = xr (ix2 (⟨0, by decide⟩ : Fin 1024) (j 2 : Fin 512)) := by
  rw [readH1]
  exact if_neg (by show ¬ (1 : Nat) = 0; omega)

/-- The block cast to its own shape is the block. -/
theorem pay1_eq (x : Vec F S1024x512 .f32) : k0_pay1 x = x := shapeCast_self x _

end Slots

/-! ## Slices and the unit-axis cast at an index -/

section Rows
variable {α : Type}

/-- A slice of `k` rows of a block from row `off`, read at (p, j), is the block at row `off + p` — named `n` so that the
    row shows as the caller spells it. -/
theorem slice_at {k : Nat} (x : S1024x512.Idx → α) (off : Nat) (hs : S1024x512.Slices ![off, 0] ⟨2, ![k, 512]⟩)
    (p : Fin k) (j : Fin 512) (n : Nat) (hn : n < 1024) (e : n = off + p.val) :
    extractStridedSlice ⟨2, ![k, 512]⟩ ![off, 0] x hs (ix2 p j) = x (ix2 (⟨n, hn⟩ : Fin 1024) j) :=
  extractStridedSlice_apply ![off, 0] x hs (ix2 p j) _ (fun a => match a with
    | ⟨0, _⟩ => e
    | ⟨1, _⟩ => (Nat.zero_add _).symm)

/-- A received row [1, 1, 512] viewed [1, 512] reads (0, j) at (0, 0, j). -/
theorem dropUnit_at (v : S1x1x512.Idx → α) (j : Fin 512) :
    shapeCast S1x512 v shapeCasts_S1x1x512_S1x512 (ix2 (⟨0, by decide⟩ : Fin 1) j)
      = v (ix3 (⟨0, by decide⟩ : Fin 1) (⟨0, by decide⟩ : Fin 1) j) := by
  rw [shapeCast_dropUnit_apply]
  refine congrArg v (funext fun a => ?_)
  match a with
  | ⟨0, _⟩ => rfl
  | ⟨1, _⟩ => rfl
  | ⟨2, _⟩ => rfl

end Rows

/-! ## The four payloads at an index, over the extended reals -/

section AtIdeal

/-- Rows 1 to 512 of the result: at local row `n` of the piece, ¼ · x[n] + ½ · x[n + 1] + ¼ · x[n + 2]. -/
theorem pay3_at (x : Vec Ideal S1024x512 .f32) (n : Nat) (hn : n < 512) (j : Fin 512) :
    k0_pay3 (k0_pay1 x) (k0_pay2 x) (ix2 (⟨n, hn⟩ : Fin 512) j)
      = qtr * (x (ix2 (⟨n, by omega⟩ : Fin 1024) j) : EReal)
        + hlf * (x (ix2 (⟨n + 1, by omega⟩ : Fin 1024) j) : EReal)
        + qtr * (x (ix2 (⟨n + 2, by omega⟩ : Fin 1024) j) : EReal) := by
  unfold k0_pay3 k0_pay2
  rw [pay1_eq]
  show qtr * extractStridedSlice S512x512 ![0, 0] x _ (ix2 _ j)
      + hlf * extractStridedSlice S512x512 ![1, 0] x _ (ix2 _ j)
      + qtr * extractStridedSlice S512x512 ![2, 0] x _ (ix2 _ j) = _
  rw [slice_at x 0 _ _ j n (by omega) (Nat.zero_add n).symm, slice_at x 1 _ _ j (n + 1) (by omega) (Nat.add_comm n 1),
    slice_at x 2 _ _ j (n + 2) (by omega) (Nat.add_comm n 2)]

/-- Rows 513 to 1022 of the result: at local row `n` of the piece, ¼ · x[n + 512] + ½ · x[n + 513] + ¼ · x[n + 514]. -/
theorem pay5_at (x : Vec Ideal S1024x512 .f32) (n : Nat) (hn : n < 510) (j : Fin 512) :
    k0_pay5 (k0_pay1 x) (k0_pay4 (k0_pay1 x)) (Scalar.ofBits .f32 0x3E800000#32) (ix2 (⟨n, hn⟩ : Fin 510) j)
      = qtr * (x (ix2 (⟨n + 512, by omega⟩ : Fin 1024) j) : EReal)
        + hlf * (x (ix2 (⟨n + 513, by omega⟩ : Fin 1024) j) : EReal)
        + qtr * (x (ix2 (⟨n + 514, by omega⟩ : Fin 1024) j) : EReal) := by
  unfold k0_pay5 k0_pay4
  rw [pay1_eq]
  show qtr * extractStridedSlice S510x512 ![512, 0] x _ (ix2 _ j)
      + hlf * extractStridedSlice S510x512 ![513, 0] x _ (ix2 _ j)
      + qtr * extractStridedSlice S510x512 ![514, 0] x _ (ix2 _ j) = _
  rw [slice_at x 512 _ _ j (n + 512) (by omega) (Nat.add_comm n 512), slice_at x 513 _ _ j (n + 513) (by omega) (Nat.add_comm n 513),
    slice_at x 514 _ _ j (n + 514) (by omega) (Nat.add_comm n 514)]

/-- Row 0 on the device whose position word is 0: the block's own row 0. -/
theorem pay8_first (w : BitVec 32) (hw : Scalar.cmpi .eq w 0#32 = 1#1) (x : Vec Ideal S1024x512 .f32)
    (v : Vec Ideal S1x1x512 .f32) (j : Fin 512) :
    k0_pay8 w (k0_pay1 x) v (ix2 (⟨0, by decide⟩ : Fin 1) j) = x (ix2 (⟨0, by decide⟩ : Fin 1024) j) := by
  unfold k0_pay8
  rw [pay1_eq]
  show Scalar.select (Scalar.cmpi .eq w 0#32) (extractStridedSlice S1x512 ![0, 0] x _) _ (ix2 _ j) = _
  rw [hw, select_one]
  exact slice_at x 0 _ _ j 0 (by decide) rfl

/-- Row 0 on any other device: ¼ · (the received row above) + ½ · x[0] + ¼ · x[1]. -/
theorem pay8_inner (w : BitVec 32) (hw : Scalar.cmpi .eq w 0#32 = 0#1) (x : Vec Ideal S1024x512 .f32)
    (v : Vec Ideal S1x1x512 .f32) (j : Fin 512) :
    k0_pay8 w (k0_pay1 x) v (ix2 (⟨0, by decide⟩ : Fin 1) j)
      = qtr * (v (ix3 (⟨0, by decide⟩ : Fin 1) (⟨0, by decide⟩ : Fin 1) j) : EReal)
        + hlf * (x (ix2 (⟨0, by decide⟩ : Fin 1024) j) : EReal)
        + qtr * (x (ix2 (⟨1, by decide⟩ : Fin 1024) j) : EReal) := by
  unfold k0_pay8
  rw [pay1_eq]
  show Scalar.select (Scalar.cmpi .eq w 0#32) (extractStridedSlice S1x512 ![0, 0] x _) _ (ix2 _ j) = _
  rw [hw, select_zero]
  show qtr * shapeCast S1x512 v _ (ix2 _ j) + hlf * extractStridedSlice S1x512 ![0, 0] x _ (ix2 _ j)
      + qtr * extractStridedSlice S1x512 ![1, 0] x _ (ix2 _ j) = _
  rw [dropUnit_at, slice_at x 0 _ _ j 0 (by decide) rfl, slice_at x 1 _ _ j 1 (by decide) rfl]

/-- Row 1023 on the device whose position word is 7: the block's own row 1023. -/
theorem pay9_last (w : BitVec 32) (hw : Scalar.cmpi .eq w 7#32 = 1#1) (x : Vec Ideal S1024x512 .f32)
    (v : Vec Ideal S1x1x512 .f32) (j : Fin 512) :
    k0_pay9 w (k0_pay6 (k0_pay1 x)) (k0_pay7 (k0_pay1 x)) v (ix2 (⟨0, by decide⟩ : Fin 1) j)
      = x (ix2 (⟨1023, by decide⟩ : Fin 1024) j) := by
  unfold k0_pay9 k0_pay7
  rw [pay1_eq]
  show Scalar.select (Scalar.cmpi .eq w 7#32) (extractStridedSlice S1x512 ![1023, 0] x _) _ (ix2 _ j) = _
  rw [hw, select_one]
  exact slice_at x 1023 _ _ j 1023 (by decide) rfl

/-- Row 1023 on any other device: ¼ · x[1022] + ½ · x[1023] + ¼ · (the received row below). -/
theorem pay9_inner (w : BitVec 32) (hw : Scalar.cmpi .eq w 7#32 = 0#1) (x : Vec Ideal S1024x512 .f32)
    (v : Vec Ideal S1x1x512 .f32) (j : Fin 512) :
    k0_pay9 w (k0_pay6 (k0_pay1 x)) (k0_pay7 (k0_pay1 x)) v (ix2 (⟨0, by decide⟩ : Fin 1) j)
      = qtr * (x (ix2 (⟨1022, by decide⟩ : Fin 1024) j) : EReal)
        + hlf * (x (ix2 (⟨1023, by decide⟩ : Fin 1024) j) : EReal)
        + qtr * (v (ix3 (⟨0, by decide⟩ : Fin 1) (⟨0, by decide⟩ : Fin 1) j) : EReal) := by
  unfold k0_pay9 k0_pay7 k0_pay6
  rw [pay1_eq]
  show Scalar.select (Scalar.cmpi .eq w 7#32) (extractStridedSlice S1x512 ![1023, 0] x _) _ (ix2 _ j) = _
  rw [hw, select_zero]
  show qtr * extractStridedSlice S1x512 ![1022, 0] x _ (ix2 _ j) + hlf * extractStridedSlice S1x512 ![1023, 0] x _ (ix2 _ j)
      + qtr * shapeCast S1x512 v _ (ix2 _ j) = _
  rw [dropUnit_at, slice_at x 1022 _ _ j 1022 (by decide) rfl, slice_at x 1023 _ _ j 1023 (by decide) rfl]

end AtIdeal

/-! ## The position word compared with 0 and with 7, device by device -/

section Devices

theorem pos_first (c : Dev nD) (hc : c.val = 0) : Scalar.cmpi .eq (posWord c) 0#32 = 1#1 := by
  revert c; decide +kernel
theorem pos_not_first (c : Dev nD) (hc : ¬ c.val = 0) : Scalar.cmpi .eq (posWord c) 0#32 = 0#1 := by
  revert c; decide +kernel
theorem pos_last (c : Dev nD) (hc : c.val = 7) : Scalar.cmpi .eq (posWord c) 7#32 = 1#1 := by
  revert c; decide +kernel
theorem pos_not_last (c : Dev nD) (hc : ¬ c.val = 7) : Scalar.cmpi .eq (posWord c) 7#32 = 0#1 := by
  revert c; decide +kernel

end Devices

/-! ## Blocks of the whole array and the smoothing's three branches, by row number -/

section Whole

/-- Where block `c`'s row `n` lies in the whole array: row `1024 c + n`, the same column. -/
theorem blk_at (W : SW.Idx → EReal) (c : Dev nD) (n : Nat) (hn : n < 1024) (j : Fin 512) :
    (Layout.block ⟨2, ![1024, 512]⟩ ⟨2, ![8192, 512]⟩ 0 8 c W) (ix2 (⟨n, hn⟩ : Fin 1024) j)
      = W (ix2 (⟨c.val * 1024 + n, by have : c.val < 8 := c.isLt; omega⟩ : Fin 8192) j) := by
  rw [Layout.block_apply]
  refine congrArg W (funext fun a => ?_)
  match a with
  | ⟨0, _⟩ => exact Fin.ext rfl
  | ⟨1, _⟩ => exact Fin.ext rfl

/-- The first row of the whole array is kept. -/
theorem whole_first (W : SW.Idx → EReal) (n : Nat) (hn : n < 8192) (j : Fin 512) (h0 : n = 0) :
    whole W (ix2 (⟨n, hn⟩ : Fin 8192) j) = W (ix2 (⟨n, hn⟩ : Fin 8192) j) := dif_pos h0

/-- The last row of the whole array is kept. -/
theorem whole_last (W : SW.Idx → EReal) (n : Nat) (hn : n < 8192) (j : Fin 512) (h0 : ¬ n = 0) (h1 : n + 1 = 8192) :
    whole W (ix2 (⟨n, hn⟩ : Fin 8192) j) = W (ix2 (⟨n, hn⟩ : Fin 8192) j) := (dif_neg h0).trans (dif_pos h1)

/-- Every other row is the weighted sum of the row above, the row and the row below. -/
theorem whole_inner (W : SW.Idx → EReal) (n : Nat) (hn : n < 8192) (j : Fin 512) (h0 : ¬ n = 0) (h1 : ¬ n + 1 = 8192) :
    whole W (ix2 (⟨n, hn⟩ : Fin 8192) j)
      = qtr * W (ix2 (⟨n - 1, by omega⟩ : Fin 8192) j) + hlf * W (ix2 (⟨n, hn⟩ : Fin 8192) j)
        + qtr * W (ix2 (⟨n + 1, by omega⟩ : Fin 8192) j) := (dif_neg h0).trans (dif_neg h1)

/-- Equal row numbers read the same element. -/
theorem one_congr (W : SW.Idx → EReal) (j : Fin 512) {a a' : Nat} (ha : a < 8192) (ha' : a' < 8192) (ea : a = a') :
    W (ix2 (⟨a, ha⟩ : Fin 8192) j) = W (ix2 (⟨a', ha'⟩ : Fin 8192) j) := by subst ea; rfl

/-- Equal row numbers give the same three-point sum. -/
theorem three_congr (W : SW.Idx → EReal) (j : Fin 512) {a b d a' b' d' : Nat} (ha : a < 8192) (hb : b < 8192) (hd : d < 8192)
    (ha' : a' < 8192) (hb' : b' < 8192) (hd' : d' < 8192) (ea : a = a') (eb : b = b') (ed : d = d') :
    qtr * W (ix2 (⟨a, ha⟩ : Fin 8192) j) + hlf * W (ix2 (⟨b, hb⟩ : Fin 8192) j) + qtr * W (ix2 (⟨d, hd⟩ : Fin 8192) j)
      = qtr * W (ix2 (⟨a', ha'⟩ : Fin 8192) j) + hlf * W (ix2 (⟨b', hb'⟩ : Fin 8192) j)
        + qtr * W (ix2 (⟨d', hd'⟩ : Fin 8192) j) := by subst ea eb ed; rfl

end Whole

/-! ## The result block's four row ranges -/

section Rows4
variable {F : FTy → Type} [FloatOps F]

theorem outAt_row0 (c : Dev nD) (x : Vec F S1024x512 .f32) (h : Vec F S2x1x512 .f32) (r : Fin 1024) (j : Fin 512)
    (h0 : r.val = 0) :
    outAt c x h (ix2 r j)
      = k0_pay8 (posWord c) (k0_pay1 x) ((hM : Memref sig .tc .vmem S2x1x512 .f32).view.readAt (Elt F) rH0.toLoadRect h)
          (ix2 (⟨0, by decide⟩ : Fin 1) j) := dif_pos h0

theorem outAt_row1023 (c : Dev nD) (x : Vec F S1024x512 .f32) (h : Vec F S2x1x512 .f32) (r : Fin 1024) (j : Fin 512)
    (h0 : ¬ r.val = 0) (h1 : r.val = 1023) :
    outAt c x h (ix2 r j)
      = k0_pay9 (posWord c) (k0_pay6 (k0_pay1 x)) (k0_pay7 (k0_pay1 x))
          ((hM : Memref sig .tc .vmem S2x1x512 .f32).view.readAt (Elt F) rH1.toLoadRect h)
          (ix2 (⟨0, by decide⟩ : Fin 1) j) := (dif_neg h0).trans (dif_pos h1)

theorem outAt_lo (c : Dev nD) (x : Vec F S1024x512 .f32) (h : Vec F S2x1x512 .f32) (r : Fin 1024) (j : Fin 512)
    (h0 : ¬ r.val = 0) (h1 : ¬ r.val = 1023) (h2 : r.val ≤ 512) :
    outAt c x h (ix2 r j) = k0_pay3 (k0_pay1 x) (k0_pay2 x) (ix2 (⟨r.val - 1, by omega⟩ : Fin 512) j) :=
  (dif_neg h0).trans ((dif_neg h1).trans (dif_pos h2))

theorem outAt_hi (c : Dev nD) (x : Vec F S1024x512 .f32) (h : Vec F S2x1x512 .f32) (r : Fin 1024) (j : Fin 512)
    (h0 : ¬ r.val = 0) (h1 : ¬ r.val = 1023) (h2 : ¬ r.val ≤ 512) :
    outAt c x h (ix2 r j)
      = k0_pay5 (k0_pay1 x) (k0_pay4 (k0_pay1 x)) (Scalar.ofBits .f32 0x3E800000#32)
          (ix2 (⟨r.val - 513, by have := r.isLt; omega⟩ : Fin 510) j) :=
  (dif_neg h0).trans ((dif_neg h1).trans (dif_neg h2))

end Rows4

/-! ## A device's result block is its block of the smoothing of the whole array -/

section Main

/-- At row `r`, column `j` of device `c`'s block: the kernel's value is the smoothing of the whole array at row
    `1024 c + r`. Four row ranges; on the two boundary rows the device decides between a copy and the sum with the
    neighbour's row, exactly where the global row is the whole array's first or last. -/
theorem outAt_at (W : SW.Idx → EReal) (X : Dev nD → Vec Ideal S1024x512 .f32)
    (hX : ∀ c, X c = Layout.block ⟨2, ![1024, 512]⟩ ⟨2, ![8192, 512]⟩ 0 8 c W) (c : Dev nD) (r : Fin 1024) (j : Fin 512) :
    outAt (F := Ideal) c (X c) (haloOf (X (lft c)) (X (rgt c))) (ix2 r j)
      = whole W (ix2 (⟨c.val * 1024 + r.val, by have : c.val < 8 := c.isLt; have := r.isLt; omega⟩ : Fin 8192) j) := by
  have hc : c.val < 8 := c.isLt
  have hr := r.isLt
  have hl : (lft c).val = (c.val + 7) % 8 := rfl
  have hg : (rgt c).val = (c.val + 1) % 8 := rfl
  have hXat : ∀ (d : Dev nD) (n : Nat) (hn : n < 1024),
      (X d (ix2 (⟨n, hn⟩ : Fin 1024) j) : EReal)
        = W (ix2 (⟨d.val * 1024 + n, by have : d.val < 8 := d.isLt; omega⟩ : Fin 8192) j) :=
    fun d n hn => (congrFun (hX d) _).trans (blk_at W d n hn j)
  by_cases h0 : r.val = 0
  · rw [outAt_row0 c _ _ r j h0]
    by_cases hc0 : c.val = 0
    · rw [pay8_first _ (pos_first c hc0), hXat c 0 _, whole_first W _ _ j (by omega)]
      exact one_congr W j _ _ (by omega)
    · rw [pay8_inner _ (pos_not_first c hc0), readH0_halo, hXat (lft c) 1023 _, hXat c 0 _, hXat c 1 _,
        whole_inner W _ _ j (by omega) (by omega)]
      exact three_congr W j _ _ _ _ _ _ (by omega) (by omega) (by omega)
  · by_cases h1 : r.val = 1023
    · rw [outAt_row1023 c _ _ r j h0 h1]
      by_cases hc7 : c.val = 7
      · rw [pay9_last _ (pos_last c hc7), hXat c 1023 _, whole_last W _ _ j (by omega) (by omega)]
        exact one_congr W j _ _ (by omega)
      · rw [pay9_inner _ (pos_not_last c hc7), readH1_halo, hXat c 1022 _, hXat c 1023 _, hXat (rgt c) 0 _,
          whole_inner W _ _ j (by omega) (by omega)]
        exact three_congr W j _ _ _ _ _ _ (by omega) (by omega) (by omega)
    · by_cases h2 : r.val ≤ 512
      · rw [outAt_lo c _ _ r j h0 h1 h2, pay3_at, hXat c _ _, hXat c _ _, hXat c _ _,
          whole_inner W _ _ j (by omega) (by omega)]
        exact three_congr W j _ _ _ _ _ _ (by omega) (by omega) (by omega)
      · rw [outAt_hi c _ _ r j h0 h1 h2, pay5_at, hXat c _ _, hXat c _ _, hXat c _ _,
          whole_inner W _ _ j (by omega) (by omega)]
        exact three_congr W j _ _ _ _ _ _ (by omega) (by omega) (by omega)

/-- Device `c`'s result block is block `c` of the smoothing of the whole array, when every device's block is its block of
    the whole array `W`. -/
theorem outAt_block (W : Cert.Stencil.SW.Idx → EReal) (X : Dev Cert.KernelIdeal.nD → Vec Ideal Cert.KernelIdeal.S1024x512 .f32)
    (hX : ∀ c, X c = Layout.block ⟨2, ![1024, 512]⟩ ⟨2, ![8192, 512]⟩ 0 8 c W) (c : Dev Cert.KernelIdeal.nD) :
    Cert.KernelIdealProof.outAt (F := Ideal) c (X c) (Cert.KernelIdealProof.haloOf (X (Cert.KernelIdealProof.lft c)) (X (Cert.KernelIdealProof.rgt c)))
      = Layout.block ⟨2, ![1024, 512]⟩ ⟨2, ![8192, 512]⟩ 0 8 c (Cert.Stencil.whole W) := by
  funext i
  obtain ⟨r, j, rfl⟩ : ∃ (r : Fin 1024) (j : Fin 512), i = ix2 r j := ⟨i 0, i 1, eq_ix2 i⟩
  exact (outAt_at W X hX c r j).trans (blk_at (whole W) c r.val r.isLt j).symm

end Main

/-- info: 'Cert.Bridge.outAt_block' depends on axioms: [propext, Classical.choice, Quot.sound] -/
#guard_msgs in #print axioms Cert.Bridge.outAt_block

end Cert.Bridge

end
-- ==== Proof.Conjuncts.lean ====
/-
  The five conjuncts of the claim, each from what is proved of the programs' runs, with the proof of one device's body
  at each instance taken as a hypothesis. The two frames of the eight-device program are its run with the result's
  value dropped. The one-device program's frame is its run with the result dropped. The idealization rewrote no
  operation. For the comparison: each device's block is its block of the whole array, so the function of three
  blocks that a device's result is equals that device's block of the smoothing of the whole array, which is what
  the one-device program leaves in its result.
-/
import proofs.«900539_g7700000000000540_dist_halo_stencil_i_m1024_n512_v7x_i8_f32_1_alg».proof.Defs
import proofs.«900539_g7700000000000540_dist_halo_stencil_i_m1024_n512_v7x_i8_f32_1_alg».proof.Proof.Gen.Kernel
import proofs.«900539_g7700000000000540_dist_halo_stencil_i_m1024_n512_v7x_i8_f32_1_alg».proof.Proof.Gen.KernelIdeal
import proofs.«900539_g7700000000000540_dist_halo_stencil_i_m1024_n512_v7x_i8_f32_1_alg».proof.Proof.Gen.ReferenceIdeal
import proofs.«900539_g7700000000000540_dist_halo_stencil_i_m1024_n512_v7x_i8_f32_1_alg».proof.Proof.Gen.Pre_finite_inputs_Kernel
import proofs.«900539_g7700000000000540_dist_halo_stencil_i_m1024_n512_v7x_i8_f32_1_alg».proof.Proof.Gen.Pre_finite_inputs_ReferenceIdeal
import proofs.«900539_g7700000000000540_dist_halo_stencil_i_m1024_n512_v7x_i8_f32_1_alg».proof.Proof.KernelIdealClaims
import proofs.«900539_g7700000000000540_dist_halo_stencil_i_m1024_n512_v7x_i8_f32_1_alg».proof.Proof.KernelClaims
import proofs.«900539_g7700000000000540_dist_halo_stencil_i_m1024_n512_v7x_i8_f32_1_alg».proof.Proof.RefRun
import proofs.«900539_g7700000000000540_dist_halo_stencil_i_m1024_n512_v7x_i8_f32_1_alg».proof.Proof.Bridge

noncomputable section

namespace Cert.Conjuncts

open Idealize.ShloMosaic Idealize.SL.Sem
open Idealize.ShloMosaic.Pipeline (BodyObligation)

/-- The word-level program runs and leaves every device's argument array unchanged. -/
theorem frame_Kernel_of
    (hb : ∀ (m : (ℓ : Loc Cert.Kernel.nD Cert.Kernel.τ Cert.Kernel.sig) → Buf (Elt Bits) ℓ) (ρ : Dev Cert.Kernel.nD → PrngReg) (c : Dev Cert.Kernel.nD),
      BodyObligation (Cert.KernelProof.dats (F := Bits) m ρ 0 c) (Cert.Kernel.defs₀ (F := Bits)) Cert.KernelProof.𝒱₀ () Set.univ) :
    Cert.frame_Kernel (hKernel := Cert.Kernel.Gen.facts) (hPre_finite_inputs_Kernel := Cert.Pre_finite_inputs_Kernel.Gen.facts) :=
  fun m g _ => (θ_run _ _ _).mono (fun _ h c => (h c).2) (Cert.KernelProof.run_values m g (hb m g))

/-- The same program read over the extended reals runs and leaves every device's argument array unchanged. -/
theorem frame_KernelIdeal_of
    (hb : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdealProof.dats (F := Ideal) m ρ 0 c) (Cert.KernelIdeal.defs₀ (F := Ideal)) Cert.KernelIdealProof.𝒱₀ () Set.univ) :
    Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdealProof.run_values m g (hb m g))

/-- The one-device program runs and leaves its argument array unchanged. -/
theorem frame_ReferenceIdeal :
    Cert.frame_ReferenceIdeal (hReferenceIdeal := Cert.ReferenceIdeal.Gen.facts) (hPre_finite_inputs_ReferenceIdeal := Cert.Pre_finite_inputs_ReferenceIdeal.Gen.facts) :=
  fun m g _ => (θ_run _ _ _).mono (fun _ h c => by obtain rfl : c = 0 := Subsingleton.elim _ _; exact h.2) (Cert.RefRun.run m g)

/-- The idealization rewrote no operation. -/
theorem preserves : Cert.preserves_Kernel_KernelIdeal := trivial

/-- Over the extended reals, from memories in which each device's argument array is its block of the one-device
    program's: both programs run, the one-device program's result is the smoothing of its argument, each device's
    result is its block of that smoothing, and all arguments end unchanged. -/
theorem algebraic_of
    (hb : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdealProof.dats (F := Ideal) m ρ 0 c) (Cert.KernelIdeal.defs₀ (F := Ideal)) Cert.KernelIdealProof.𝒱₀ () Set.univ) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m g m' g' _ hX =>
    ⟨Cert.Stencil.whole (m' (((0 : Dev Cert.ReferenceIdeal.nD).tc : Thread Cert.ReferenceIdeal.nD Cert.ReferenceIdeal.τ).loc Cert.ReferenceIdeal.main_arg0)),
      (θ_run _ _ _).mono (fun _ h c =>
          ⟨(h c).1.trans (Cert.Bridge.outAt_block
              (m' (((0 : Dev Cert.ReferenceIdeal.nD).tc : Thread Cert.ReferenceIdeal.nD Cert.ReferenceIdeal.τ).loc Cert.ReferenceIdeal.main_arg0))
              (fun d => m ((d.tc : Thread Cert.KernelIdeal.nD Cert.KernelIdeal.τ).loc Cert.KernelIdeal.main_arg0)) hX c),
           (h c).2⟩)
        (Cert.KernelIdealProof.run_values m g (hb m g)),
      Cert.RefRun.run m' g'⟩

/-- info: 'Cert.Conjuncts.frame_Kernel_of' depends on axioms: [propext, Classical.choice, Quot.sound] -/
#guard_msgs in #print axioms frame_Kernel_of
/-- info: 'Cert.Conjuncts.frame_KernelIdeal_of' depends on axioms: [propext, Classical.choice, Quot.sound] -/
#guard_msgs in #print axioms frame_KernelIdeal_of
/-- info: 'Cert.Conjuncts.frame_ReferenceIdeal' depends on axioms: [propext, Classical.choice, Quot.sound] -/
#guard_msgs in #print axioms frame_ReferenceIdeal
/-- info: 'Cert.Conjuncts.algebraic_of' depends on axioms: [propext, Classical.choice, Quot.sound] -/
#guard_msgs in #print axioms algebraic_of

/-- The whole claim from the proofs of one device's body at the two instances. -/
theorem claim_of
    (hbB : ∀ (m : (ℓ : Loc Cert.Kernel.nD Cert.Kernel.τ Cert.Kernel.sig) → Buf (Elt Bits) ℓ) (ρ : Dev Cert.Kernel.nD → PrngReg) (c : Dev Cert.Kernel.nD),
      BodyObligation (Cert.KernelProof.dats (F := Bits) m ρ 0 c) (Cert.Kernel.defs₀ (F := Bits)) Cert.KernelProof.𝒱₀ () Set.univ)
    (hbI : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdealProof.dats (F := Ideal) m ρ 0 c) (Cert.KernelIdeal.defs₀ (F := Ideal)) Cert.KernelIdealProof.𝒱₀ () Set.univ) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel_of hbB, frame_KernelIdeal_of hbI, frame_ReferenceIdeal, preserves, algebraic_of hbI⟩

/-- info: 'Cert.Conjuncts.claim_of' depends on axioms: [propext, Classical.choice, Quot.sound] -/
#guard_msgs in #print axioms claim_of

end Cert.Conjuncts

end
-- ==== Proof.KernelIdealRegions.lean ====
/-
  How a device's two buffers are cut into the regions the protocol hands around. The slots buffer (two rows of 512) is
  its two one-row slots: they share no element and together are every element. The staged block (1024 rows of 512) is
  its first row, its last row and the 1022 rows between. A row that lands in a slot overwrites exactly that slot's
  elements, so what the slot holds afterwards is read off the sender's block: slot 0 takes the sender's last row,
  slot 1 the sender's first row.
-/
import proofs.«900539_g7700000000000540_dist_halo_stencil_i_m1024_n512_v7x_i8_f32_1_alg».proof.Proof.KernelIdealSched
import Idealize.ShloMosaic.Lib.Pipeline.Value
import Idealize.ShloMosaic.Lib.ValueLayout

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots buffer is its two slots -/

/-- A slot's elements are those of its one-row rectangle of the slots buffer: dropping the unit axis moves no element. -/
theorem hS0_set : (hS0 : Memref sig .tc .vmem S1x512 .f32).view.set = rH0.set :=
  (View.set_reshape _ _).trans (View.set_slice_whole _ _)
theorem hS1_set : (hS1 : Memref sig .tc .vmem S1x512 .f32).view.set = rH1.set :=
  (View.set_reshape _ _).trans (View.set_slice_whole _ _)

/-- Slot 0 is row 0 and slot 1 is row 1 of the buffer's leading axis: no common element. -/
theorem slots_disjoint :
    Disjoint (hS0 : Memref sig .tc .vmem S1x512 .f32).view.set (hS1 : Memref sig .tc .vmem S1x512 .f32).view.set := by
  rw [hS0_set, hS1_set]
  exact Rect.unit_disjoint (0 : Fin 3) (.inl (Nat.le_refl 1))

/-- The leading axis has two coordinates, the middle one a single one, and each slot keeps all 512 of the last: every
    element is in slot 0 or in slot 1. -/
theorem slots_cover :
    (hS0 : Memref sig .tc .vmem S1x512 .f32).view.set ∪ (hS1 : Memref sig .tc .vmem S1x512 .f32).view.set = Finset.univ := by
  rw [hS0_set, hS1_set]
  ext i
  simp only [Finset.mem_union, Rect.mem_set_unit, Finset.mem_univ, iff_true]
  have h0 : (i 0).val < 2 := (i 0).isLt
  have h1 : (i 1).val < 1 := (i 1).isLt
  have h2 : (i 2).val < 512 := (i 2).isLt
  by_cases h : (i 0).val = 0
  · refine .inl fun a => ?_
    match a with
    | ⟨0, _⟩ => exact ⟨Nat.zero_le _, by show (i 0).val < 0 + 1; omega⟩
    | ⟨1, _⟩ => exact ⟨Nat.zero_le _, by show (i 1).val < 0 + 1; omega⟩
    | ⟨2, _⟩ => exact ⟨Nat.zero_le _, by show (i 2).val < 0 + 512; omega⟩
  · refine .inr fun a => ?_
    match a with
    | ⟨0, _⟩ => exact ⟨by show 1 ≤ (i 0).val; omega, by show (i 0).val < 1 + 1; omega⟩
    | ⟨1, _⟩ => exact ⟨Nat.zero_le _, by show (i 1).val < 0 + 1; omega⟩
    | ⟨2, _⟩ => exact ⟨Nat.zero_le _, by show (i 2).val < 0 + 512; omega⟩

omit [FloatOps F] in
/-- The whole slots buffer at contents `f` is slot 0 at `f` and slot 1 at `f`. -/
theorem hPts_split (c : Dev nD) (f : Buf (Elt F) ((c : Thread nD τ).loc cc0_scratch0)) :
    ((((c : Thread nD τ).loc cc0_scratch0) ↦{fullShare} f : sProp 𝕄)) ⊣⊢ iprop(slot0Pts c f ∗ slot1Pts c f) := by
  have h := pointsTo_union (nD := nD) (τ := τ) (sig := sig) (Ix := Unit) (Val := Elt F) (Name := ℕ) (U := UU) (Lvl := ℕ)
    (ℓ := (c : Thread nD τ).loc cc0_scratch0) (q := fullShare) (f := f) slots_disjoint
  rw [slots_cover] at h
  exact h

omit [FloatOps F] in
/-- Both slots at one contents are the whole buffer at it. -/
theorem hPts_join_same (c : Dev nD) (f : Buf (Elt F) ((c : Thread nD τ).loc cc0_scratch0)) :
    iprop(slot0Pts c f ∗ slot1Pts c f) ⊢ ((((c : Thread nD τ).loc cc0_scratch0) ↦{fullShare} f : sProp 𝕄)) :=
  (hPts_split c f).2

omit [FloatOps F] in
/-- The two slots at whatever contents each holds are the whole buffer at some contents: slot 1's pieced into slot 0's. -/
theorem hPts_join_at (c : Dev nD) (f g : Buf (Elt F) ((c : Thread nD τ).loc cc0_scratch0)) :
    iprop(slot0Pts c f ∗ slot1Pts c g) ⊢
      ((((c : Thread nD τ).loc cc0_scratch0) ↦{fullShare}
        ((hS1 : Memref sig .tc .vmem S1x512 .f32).view.set.piecewise g f) : sProp 𝕄)) := by
  have h := pointsTo_join (nD := nD) (τ := τ) (sig := sig) (Ix := Unit) (Val := Elt F) (Name := ℕ) (U := UU) (Lvl := ℕ)
    (ℓ := (c : Thread nD τ).loc cc0_scratch0) (q := fullShare) (f := f) (g := g) slots_disjoint
  rw [slots_cover] at h
  exact h

omit [FloatOps F] in
theorem hPts_join (c : Dev nD) (f g : Buf (Elt F) ((c : Thread nD τ).loc cc0_scratch0)) :
    iprop(slot0Pts c f ∗ slot1Pts c g) ⊢ (iprop(∃ h, (((c : Thread nD τ).loc cc0_scratch0) ↦{fullShare} h)) : sProp 𝕄) := by
  iintro H
  iexists ((hS1 : Memref sig .tc .vmem S1x512 .f32).view.set.piecewise g f)
  iapply (hPts_join_at c f g)
  iexact H

/-! ## The staged block is its first row, its last row and the rows between -/

theorem xTop_set : (xTop : Memref sig .tc .vmem S1x512 .f32).view.set = rTop.set := View.set_slice_whole _ _
theorem xBot_set : (xBot : Memref sig .tc .vmem S1x512 .f32).view.set = rBot.set := View.set_slice_whole _ _

/-- Row 0 and row 1023 share no element. -/
theorem rows_disjoint :
    Disjoint (xTop : Memref sig .tc .vmem S1x512 .f32).view.set (xBot : Memref sig .tc .vmem S1x512 .f32).view.set := by
  rw [xTop_set, xBot_set]
  exact Rect.unit_disjoint (0 : Fin 2) (.inl (by decide : 0 + 1 ≤ 1023))

/-- The block's elements in neither the first nor the last row. -/
def xRest : Finset S1024x512.Idx :=
  (Finset.univ \ (xTop : Memref sig .tc .vmem S1x512 .f32).view.set) \ (xBot : Memref sig .tc .vmem S1x512 .f32).view.set

/-- They are the elements of rows 1 to 1022. -/
theorem mem_xRest (i : S1024x512.Idx) : i ∈ xRest ↔ 1 ≤ (i 0).val ∧ (i 0).val ≤ 1022 := by
  unfold xRest
  rw [Finset.mem_sdiff, Finset.mem_sdiff, xTop_set, xBot_set, Rect.mem_set_unit, Rect.mem_set_unit]
  have h0 : (i 0).val < 1024 := (i 0).isLt
  have h1 : (i 1).val < 512 := (i 1).isLt
  constructor
  · rintro ⟨⟨-, hT⟩, hB⟩
    constructor
    · by_contra hc
      refine hT fun a => ?_
      match a with
      | ⟨0, _⟩ => exact ⟨Nat.zero_le _, by show (i 0).val < 0 + 1; omega⟩
      | ⟨1, _⟩ => exact ⟨Nat.zero_le _, by show (i 1).val < 0 + 512; omega⟩
    · by_contra hc
      refine hB fun a => ?_
      match a with
      | ⟨0, _⟩ => exact ⟨by show 1023 ≤ (i 0).val; omega, by show (i 0).val < 1023 + 1; omega⟩
      | ⟨1, _⟩ => exact ⟨Nat.zero_le _, by show (i 1).val < 0 + 512; omega⟩
  · rintro ⟨hlo, hhi⟩
    refine ⟨⟨Finset.mem_univ _, fun hT => ?_⟩, fun hB => ?_⟩
    · have := (hT 0).2
      have h' : (i 0).val < 0 + 1 := this
      omega
    · have := (hB 0).1
      have h' : 1023 ≤ (i 0).val := this
      omega

omit [FloatOps F] in
/-- The whole block at contents `f` is its first row, its last row and the rows between, each at `f`. -/
theorem xPts_split (c : Dev nD) (f : Buf (Elt F) ((c : Thread nD τ).loc cc0_stg0_0)) :
    ((((c : Thread nD τ).loc cc0_stg0_0) ↦{fullShare} f : sProp 𝕄)) ⊣⊢
      iprop(((xTop : Memref sig .tc .vmem S1x512 .f32).view.loc (c : Thread nD τ) ↦[(xTop : Memref sig .tc .vmem S1x512 .f32).view.set]{fullShare} f)
        ∗ ((xBot : Memref sig .tc .vmem S1x512 .f32).view.loc (c : Thread nD τ) ↦[(xBot : Memref sig .tc .vmem S1x512 .f32).view.set]{fullShare} f)
        ∗ (((c : Thread nD τ).loc cc0_stg0_0) ↦[xRest]{fullShare} f)) := by
  have h1 := pointsTo_split_subset (nD := nD) (τ := τ) (sig := sig) (Ix := Unit) (Val := Elt F) (Name := ℕ) (U := UU) (Lvl := ℕ)
    (ℓ := (c : Thread nD τ).loc cc0_stg0_0) (q := fullShare) (f := f)
    (Finset.subset_univ (xTop : Memref sig .tc .vmem S1x512 .f32).view.set)
  have h2 := pointsTo_split_subset (nD := nD) (τ := τ) (sig := sig) (Ix := Unit) (Val := Elt F) (Name := ℕ) (U := UU) (Lvl := ℕ)
    (ℓ := (c : Thread nD τ).loc cc0_stg0_0) (q := fullShare) (f := f)
    (I := (xBot : Memref sig .tc .vmem S1x512 .f32).view.set) (S := Finset.univ \ (xTop : Memref sig .tc .vmem S1x512 .f32).view.set)
    (Finset.subset_sdiff.mpr ⟨Finset.subset_univ _, rows_disjoint.symm⟩)
  exact ⟨h1.1.trans (Idealize.SL.BI.sep_mono_r h2.1), (Idealize.SL.BI.sep_mono_r h2.2).trans h1.2⟩

omit [FloatOps F] in
/-- At the contents every device starts from: the first-row and last-row assertions the schedule names, and the rest. -/
theorem xPts_split_xs (c : Dev nD) :
    ((((c : Thread nD τ).loc cc0_stg0_0) ↦{fullShare} xs m ρ c : sProp 𝕄)) ⊣⊢
      iprop(topPts m ρ c ∗ botPts m ρ c ∗ (((c : Thread nD τ).loc cc0_stg0_0) ↦[xRest]{fullShare} xs m ρ c)) :=
  xPts_split c (xs m ρ c)

/-! ## What a landed row leaves in a slot -/

/-- A slot's index `(r, j)`, with the unit axis put back, is `(0, r, j)` in the one-row rectangle. -/
theorem squeeze_idx (x : S1x512.Idx) :
    Shape.reshapeEquiv squeezes_S1x1x512_S1x512.numel_eq x = ValueIdx.ix3 (⟨0, Nat.one_pos⟩ : Fin 1) (x 0 : Fin 1) (x 1 : Fin 512) :=
  (congrArg (Shape.reshapeEquiv squeezes_S1x1x512_S1x512.numel_eq) (ValueIdx.eq_ix2 x)).trans
    (ValueIdx.reshapeEquiv_ix2_1ab squeezes_S1x1x512_S1x512.numel_eq (x 0) (x 1))

/-- Where a slot's index sits in the slots buffer: slot 0 at row 0, slot 1 at row 1, the column kept. -/
theorem hS0_emb_val (x : S1x512.Idx) (a : Fin 3) :
    (((hS0 : Memref sig .tc .vmem S1x512 .f32).view.emb x a : Fin _) : ℕ) = (ValueIdx.ix3 (⟨0, by decide⟩ : Fin 2) (⟨0, by decide⟩ : Fin 1) (x 1 : Fin 512) a : ℕ) := by
  have e : (hS0 : Memref sig .tc .vmem S1x512 .f32).view.emb x = rH0.emb (Shape.reshapeEquiv squeezes_S1x1x512_S1x512.numel_eq x) := rfl
  rw [e, squeeze_idx]
  have h0 : (x 0).val < 1 := (x 0).isLt
  match a with
  | ⟨0, _⟩ => show 0 + 1 * 0 = 0; omega
  | ⟨1, _⟩ => show 0 + 1 * (x 0).val = 0; omega
  | ⟨2, _⟩ => show 0 + 1 * (x 1).val = (x 1).val; omega

theorem hS1_emb_val (x : S1x512.Idx) (a : Fin 3) :
    (((hS1 : Memref sig .tc .vmem S1x512 .f32).view.emb x a : Fin _) : ℕ) = (ValueIdx.ix3 (⟨1, by decide⟩ : Fin 2) (⟨0, by decide⟩ : Fin 1) (x 1 : Fin 512) a : ℕ) := by
  have e : (hS1 : Memref sig .tc .vmem S1x512 .f32).view.emb x = rH1.emb (Shape.reshapeEquiv squeezes_S1x1x512_S1x512.numel_eq x) := rfl
  rw [e, squeeze_idx]
  have h0 : (x 0).val < 1 := (x 0).isLt
  match a with
  | ⟨0, _⟩ => show 1 + 1 * 0 = 1; omega
  | ⟨1, _⟩ => show 0 + 1 * (x 0).val = 0; omega
  | ⟨2, _⟩ => show 0 + 1 * (x 1).val = (x 1).val; omega

/-- Where a sent row's index sits in the block: the last row at row 1023, the first at row 0, the column kept. -/
theorem xBot_emb (x : S1x512.Idx) :
    (xBot : Memref sig .tc .vmem S1x512 .f32).view.emb x = ValueIdx.ix2 (⟨1023, by decide⟩ : Fin 1024) (x 1 : Fin 512) := by
  have e : (xBot : Memref sig .tc .vmem S1x512 .f32).view.emb x = rBot.emb x := rfl
  rw [e]
  funext a
  apply Fin.ext
  rw [Rect.emb_apply]
  have h0 : (x 0).val < 1 := (x 0).isLt
  match a with
  | ⟨0, _⟩ => show 1023 + 1 * (x 0).val = 1023; omega
  | ⟨1, _⟩ => show 0 + 1 * (x 1).val = (x 1).val; omega

theorem xTop_emb (x : S1x512.Idx) :
    (xTop : Memref sig .tc .vmem S1x512 .f32).view.emb x = ValueIdx.ix2 (⟨0, by decide⟩ : Fin 1024) (x 1 : Fin 512) := by
  have e : (xTop : Memref sig .tc .vmem S1x512 .f32).view.emb x = rTop.emb x := rfl
  rw [e]
  funext a
  apply Fin.ext
  rw [Rect.emb_apply]
  have h0 : (x 0).val < 1 := (x 0).isLt
  match a with
  | ⟨0, _⟩ => show 0 + 1 * (x 0).val = 0; omega
  | ⟨1, _⟩ => show 0 + 1 * (x 1).val = (x 1).val; omega

/-- The last row of the block before, landed in slot 0, is slot 0 of the halo whose left block is that one. -/
theorem slot0_landed (c : Dev nD) (fd : Buf (Elt F) ((hS0 : Memref sig .tc .vmem S1x512 .f32).view.loc (c : Thread nD τ))) (X Y : Vec F S1024x512 .f32) :
    (((hS0 : Memref sig .tc .vmem S1x512 .f32).view.loc (c : Thread nD τ) ↦[(hS0 : Memref sig .tc .vmem S1x512 .f32).view.set]{fullShare}
        ((hS0 : Memref sig .tc .vmem S1x512 .f32).view.write (Elt F) fd ((xBot : Memref sig .tc .vmem S1x512 .f32).view.read (Elt F) X) Finset.univ)) : sProp 𝕄)
      = slot0Pts c (haloOf X Y) := by
  unfold slot0Pts
  refine pointsTo_congr fun i hi => ?_
  obtain ⟨x, rfl⟩ := View.exists_emb_of_mem_set _ hi
  rw [View.write_emb_of_mem _ _ (Finset.mem_univ x), View.read_apply, xBot_emb]
  have h0 := hS0_emb_val x 0
  have h2 := hS0_emb_val x 2
  show X (ValueIdx.ix2 (⟨1023, by decide⟩ : Fin 1024) (x 1 : Fin 512)) = haloOf X Y ((hS0 : Memref sig .tc .vmem S1x512 .f32).view.emb x)
  unfold haloOf
  rw [if_pos h0]
  exact congrArg X (congrArg (ValueIdx.ix2 (⟨1023, by decide⟩ : Fin 1024)) (Fin.ext h2.symm))

/-- The first row of the block after, landed in slot 1, is slot 1 of the halo whose right block is that one. -/
theorem slot1_landed (c : Dev nD) (fd : Buf (Elt F) ((hS1 : Memref sig .tc .vmem S1x512 .f32).view.loc (c : Thread nD τ))) (X Y : Vec F S1024x512 .f32) :
    (((hS1 : Memref sig .tc .vmem S1x512 .f32).view.loc (c : Thread nD τ) ↦[(hS1 : Memref sig .tc .vmem S1x512 .f32).view.set]{fullShare}
        ((hS1 : Memref sig .tc .vmem S1x512 .f32).view.write (Elt F) fd ((xTop : Memref sig .tc .vmem S1x512 .f32).view.read (Elt F) X) Finset.univ)) : sProp 𝕄)
      = slot1Pts c (haloOf Y X) := by
  unfold slot1Pts
  refine pointsTo_congr fun i hi => ?_
  obtain ⟨x, rfl⟩ := View.exists_emb_of_mem_set _ hi
  rw [View.write_emb_of_mem _ _ (Finset.mem_univ x), View.read_apply, xTop_emb]
  have h0 := hS1_emb_val x 0
  have h2 := hS1_emb_val x 2
  show X (ValueIdx.ix2 (⟨0, by decide⟩ : Fin 1024) (x 1 : Fin 512)) = haloOf Y X ((hS1 : Memref sig .tc .vmem S1x512 .f32).view.emb x)
  unfold haloOf
  rw [if_neg (fun h => absurd (h0.symm.trans h) Nat.one_ne_zero)]
  exact congrArg X (congrArg (ValueIdx.ix2 (⟨0, by decide⟩ : Fin 1024)) (Fin.ext h2.symm))

end Cert.KernelIdealProof

end
-- ==== Proof.KernelIdealStores.lean ====
/-
  What the four stores leave in a device's result block. The body writes rows 1 to 512, then rows 513 to 1022, then
  row 0, then row 1023: four rectangles of the 1024 × 512 block that together hold every element. Each store's payload,
  read at its rectangle's own index, is the index-wise result read at the block index that index sits at; so whatever
  the block held before, after the four stores it holds the index-wise result.
-/
import proofs.«900539_g7700000000000540_dist_halo_stencil_i_m1024_n512_v7x_i8_f32_1_alg».proof.Proof.KernelIdealRegions
import Idealize.ShloMosaic.Lib.Writes

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rectangles of the two interior stores: rows 1 to 512 and rows 513 to 1022. -/
abbrev rMidA : Rect S1024x512 := Rect.unit (s := S1024x512) ![1, 0] S512x512.size inb_S1024x512_S512x512_1_0
abbrev rMidB : Rect S1024x512 := Rect.unit (s := S1024x512) ![513, 0] S510x512.size inb_S1024x512_S510x512_513_0

/-- The four stores, the last one first. -/
def outWrites (c : Dev nD) (x : Vec F S1024x512 .f32) (h : Vec F S2x1x512 .f32) : List (View.Piece (Elt F) S1024x512 .f32) :=
  [⟨rBot, k0_pay9 (posWord c) (k0_pay6 (k0_pay1 x)) (k0_pay7 (k0_pay1 x)) ((hM : Memref sig .tc .vmem S2x1x512 .f32).view.readAt (Elt F) rH1.toLoadRect h)⟩,
   ⟨rTop, k0_pay8 (posWord c) (k0_pay1 x) ((hM : Memref sig .tc .vmem S2x1x512 .f32).view.readAt (Elt F) rH0.toLoadRect h)⟩,
   ⟨rMidB, k0_pay5 (k0_pay1 x) (k0_pay4 (k0_pay1 x)) (Scalar.ofBits .f32 0x3E800000#32)⟩,
   ⟨rMidA, k0_pay3 (k0_pay1 x) (k0_pay2 x)⟩]

/-- An element whose row is among the `n` rows from `off` is in the rectangle of those rows at every column. -/
theorem mem_rows {off n : ℕ} (inb : ∀ a, (![off, 0] : Fin 2 → ℕ) a + (![n, 512] : Fin 2 → ℕ) a ≤ S1024x512.size a) (y : S1024x512.Idx)
    (hlo : off ≤ (y 0).val) (hhi : (y 0).val < off + n) : y ∈ (Rect.unit (s := S1024x512) ![off, 0] ![n, 512] inb).set := by
  rw [Rect.mem_set_unit]
  intro a
  have h1 : (y 1).val < 512 := (y 1).isLt
  match a with
  | ⟨0, _⟩ => exact ⟨hlo, hhi⟩
  | ⟨1, _⟩ => exact ⟨Nat.zero_le _, by show (y 1).val < 0 + 512; omega⟩

/-- Every element of the block is in one of the four rectangles: by its row. -/
theorem outWrites_cover (c : Dev nD) (x : Vec F S1024x512 .f32) (h : Vec F S2x1x512 .f32) (y : S1024x512.Idx) :
    ∃ p ∈ outWrites c x h, y ∈ p.1.set := by
  have h0 : (y 0).val < 1024 := (y 0).isLt
  unfold outWrites
  by_cases hr0 : (y 0).val = 0
  · exact ⟨_, List.mem_cons_of_mem _ List.mem_cons_self, mem_rows inb_S1024x512_S1x512_0_0 y (by omega) (by omega)⟩
  by_cases hr1 : (y 0).val = 1023
  · exact ⟨_, List.mem_cons_self, mem_rows inb_S1024x512_S1x512_1023_0 y (by omega) (by omega)⟩
  by_cases hr2 : (y 0).val ≤ 512
  · exact ⟨_, List.mem_cons_of_mem _ (List.mem_cons_of_mem _ (List.mem_cons_of_mem _ List.mem_cons_self)),
      mem_rows inb_S1024x512_S512x512_1_0 y (by omega) (by omega)⟩
  · exact ⟨_, List.mem_cons_of_mem _ (List.mem_cons_of_mem _ List.mem_cons_self),
      mem_rows inb_S1024x512_S510x512_513_0 y (by omega) (by omega)⟩

section Pieces
variable (c : Dev nD) (x : Vec F S1024x512 .f32) (h : Vec F S2x1x512 .f32)

/-- The last store: its index `(0, j)` sits at row 1023 of the block, where the index-wise result is that store's
    payload at `(0, j)`. -/
theorem outAt_bot (z : S1x512.Idx) :
    outAt c x h (rBot.emb z)
      = k0_pay9 (posWord c) (k0_pay6 (k0_pay1 x)) (k0_pay7 (k0_pay1 x)) ((hM : Memref sig .tc .vmem S2x1x512 .f32).view.readAt (Elt F) rH1.toLoadRect h) z := by
  have hz : (z 0).val < 1 := (z 0).isLt
  have e0 : ((rBot.emb z) 0).val = 1023 + 1 * (z 0).val := rfl
  have e1 : ((rBot.emb z) 1).val = 0 + 1 * (z 1).val := rfl
  generalize rBot.emb z = i at e0 e1 ⊢
  unfold outAt
  rw [dif_neg (show ¬ (i 0).val = 0 by omega), dif_pos (show (i 0).val = 1023 by omega)]
  refine congrArg _ ?_
  funext a
  apply Fin.ext
  match a with
  | ⟨0, _⟩ => show 0 = (z 0).val; omega
  | ⟨1, _⟩ => show (i 1).val = (z 1).val; omega

/-- The third store: its index `(0, j)` sits at row 0. -/
theorem outAt_top (z : S1x512.Idx) :
    outAt c x h (rTop.emb z)
      = k0_pay8 (posWord c) (k0_pay1 x) ((hM : Memref sig .tc .vmem S2x1x512 .f32).view.readAt (Elt F) rH0.toLoadRect h) z := by
  have hz : (z 0).val < 1 := (z 0).isLt
  have e0 : ((rTop.emb z) 0).val = 0 + 1 * (z 0).val := rfl
  have e1 : ((rTop.emb z) 1).val = 0 + 1 * (z 1).val := rfl
  generalize rTop.emb z = i at e0 e1 ⊢
  unfold outAt
  rw [dif_pos (show (i 0).val = 0 by omega)]
  refine congrArg _ ?_
  funext a
  apply Fin.ext
  match a with
  | ⟨0, _⟩ => show 0 = (z 0).val; omega
  | ⟨1, _⟩ => show (i 1).val = (z 1).val; omega

/-- The second store: its index `(r, j)` sits at row `513 + r`, between 513 and 1022. -/
theorem outAt_midB (z : S510x512.Idx) :
    outAt c x h (rMidB.emb z) = k0_pay5 (k0_pay1 x) (k0_pay4 (k0_pay1 x)) (Scalar.ofBits .f32 0x3E800000#32) z := by
  have hz : (z 0).val < 510 := (z 0).isLt
  have e0 : ((rMidB.emb z) 0).val = 513 + 1 * (z 0).val := rfl
  have e1 : ((rMidB.emb z) 1).val = 0 + 1 * (z 1).val := rfl
  generalize rMidB.emb z = i at e0 e1 ⊢
  unfold outAt
  rw [dif_neg (show ¬ (i 0).val = 0 by omega), dif_neg (show ¬ (i 0).val = 1023 by omega), dif_neg (show ¬ (i 0).val ≤ 512 by omega)]
  refine congrArg _ ?_
  funext a
  apply Fin.ext
  match a with
  | ⟨0, _⟩ => show (i 0).val - 513 = (z 0).val; omega
  | ⟨1, _⟩ => show (i 1).val = (z 1).val; omega

/-- The first store: its index `(r, j)` sits at row `1 + r`, between 1 and 512. -/
theorem outAt_midA (z : S512x512.Idx) :
    outAt c x h (rMidA.emb z) = k0_pay3 (k0_pay1 x) (k0_pay2 x) z := by
  have hz : (z 0).val < 512 := (z 0).isLt
  have e0 : ((rMidA.emb z) 0).val = 1 + 1 * (z 0).val := rfl
  have e1 : ((rMidA.emb z) 1).val = 0 + 1 * (z 1).val := rfl
  generalize rMidA.emb z = i at e0 e1 ⊢
  unfold outAt
  rw [dif_neg (show ¬ (i 0).val = 0 by omega), dif_neg (show ¬ (i 0).val = 1023 by omega), dif_pos (show (i 0).val ≤ 512 by omega)]
  refine congrArg _ ?_
  funext a
  apply Fin.ext
  match a with
  | ⟨0, _⟩ => show (i 0).val - 1 = (z 0).val; omega
  | ⟨1, _⟩ => show (i 1).val = (z 1).val; omega

/-- Every one of the four payloads agrees with the index-wise result on its rectangle. -/
theorem outWrites_pieces : ∀ p ∈ outWrites c x h, ∀ z : p.1.shape.Idx, p.2 z = outAt c x h (p.1.emb z) := by
  unfold outWrites
  intro p hp
  rcases List.mem_cons.mp hp with rfl | hp
  · exact fun z => (outAt_bot c x h z).symm
  rcases List.mem_cons.mp hp with rfl | hp
  · exact fun z => (outAt_top c x h z).symm
  rcases List.mem_cons.mp hp with rfl | hp
  · exact fun z => (outAt_midB c x h z).symm
  rcases List.mem_cons.mp hp with rfl | hp
  · exact fun z => (outAt_midA c x h z).symm
  exact absurd hp List.not_mem_nil

/-- Whatever the block held, after the four stores it holds the index-wise result. -/
theorem writes_outWrites (g1 : (cc0_stg1_0 : Ref sig .tc).ty.Contents (Elt F)) :
    (oM : Memref sig .tc .vmem S1024x512 .f32).view.writes (Elt F) g1 (outWrites c x h) = outAt c x h := by
  funext i
  have e := View.read_writes_apply_of_pieces (v := (oM : Memref sig .tc .vmem S1024x512 .f32).view) (f := g1)
    (outAt c x h) (outWrites c x h) (outWrites_pieces c x h) i (outWrites_cover c x h i)
  rwa [View.read_whole] at e

end Pieces

/-- The same with the four stores written out, the last one first. -/
theorem writes_eq_outAt (g1 : (cc0_stg1_0 : Ref sig .tc).ty.Contents (Elt F)) (c : Dev nD) (x : Vec F S1024x512 .f32) (h : Vec F S2x1x512 .f32) :
    (oM : Memref sig .tc .vmem S1024x512 .f32).view.writes (Elt F) g1
      [⟨rBot, k0_pay9 (posWord c) (k0_pay6 (k0_pay1 x)) (k0_pay7 (k0_pay1 x)) ((hM : Memref sig .tc .vmem S2x1x512 .f32).view.readAt (Elt F) rH1.toLoadRect h)⟩,
       ⟨rTop, k0_pay8 (posWord c) (k0_pay1 x) ((hM : Memref sig .tc .vmem S2x1x512 .f32).view.readAt (Elt F) rH0.toLoadRect h)⟩,
       ⟨Rect.unit (s := S1024x512) ![513, 0] S510x512.size inb_S1024x512_S510x512_513_0, k0_pay5 (k0_pay1 x) (k0_pay4 (k0_pay1 x)) (Scalar.ofBits .f32 0x3E800000#32)⟩,
       ⟨Rect.unit (s := S1024x512) ![1, 0] S512x512.size inb_S1024x512_S512x512_1_0, k0_pay3 (k0_pay1 x) (k0_pay2 x)⟩]
      = outAt c x h := by
  have e := writes_outWrites c x h g1
  unfold outWrites at e
  exact e

end Cert.KernelIdealProof

end
-- ==== Proof.KernelIdealBody.lean ====
/-
  One device's run of the kernel body, at a symbolic place on the ring. The device tells both neighbours it has entered
  (handing each the slot that neighbour will write), computes the interior rows that need no neighbour, waits for both
  neighbours' entry, sends its first row before and its last row after, computes the rest of the interior, and, as each
  neighbour's row lands, the boundary row that needs it; last it takes back the two rows it lent to the transfers.
-/
import proofs.«900539_g7700000000000540_dist_halo_stencil_i_m1024_n512_v7x_i8_f32_1_alg».proof.Proof.KernelIdealGhost
import proofs.«900539_g7700000000000540_dist_halo_stencil_i_m1024_n512_v7x_i8_f32_1_alg».proof.Proof.KernelIdealRegions
import proofs.«900539_g7700000000000540_dist_halo_stencil_i_m1024_n512_v7x_i8_f32_1_alg».proof.Proof.KernelIdealStores

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at the cells a device meets, each payload spelt as the assertion itself -/

/-- What the device hands the device before it with its entry signal: its own slot 0. And the device after: slot 1. -/
theorem payload_bar_true_lft (c : Dev nD) : (sched (F := F) m ρ).payload (barCell (lft c)) 0 true
    = iprop((∃ f, (hS0 : Memref sig .tc .vmem S1x512 .f32).view.loc (c : Thread nD τ) ↦[(hS0 : Memref sig .tc .vmem S1x512 .f32).view.set]{fullShare} f) ∗ reached ER (rLCell c) 0) := by
  rw [payload_bar_true]; unfold barPayT slot0Pts; rw [rgt_lft]
theorem payload_bar_false_rgt (c : Dev nD) : (sched (F := F) m ρ).payload (barCell (rgt c)) 0 false
    = iprop((∃ f, (hS1 : Memref sig .tc .vmem S1x512 .f32).view.loc (c : Thread nD τ) ↦[(hS1 : Memref sig .tc .vmem S1x512 .f32).view.set]{fullShare} f) ∗ reached ER (rRCell c) 0) := by
  rw [payload_bar_false]; unfold barPayF slot1Pts; rw [lft_rgt]

theorem true_mem_bar (c : Dev nD) : true ∈ (sched (F := F) m ρ).duties (barCell c) 0 := by rw [duties_bar]; exact Finset.mem_univ _
theorem false_mem_bar (c : Dev nD) : false ∈ (sched (F := F) m ρ).duties (barCell c) 0 := by rw [duties_bar]; exact Finset.mem_univ _

theorem payload_rL_own (c : Dev nD) (d : Bool) : (sched (F := F) m ρ).payload (rLCell c) 0 d
    = ((hS0 : Memref sig .tc .vmem S1x512 .f32).view.loc (c : Thread nD τ) ↦[(hS0 : Memref sig .tc .vmem S1x512 .f32).view.set]{fullShare} hal m ρ c : sProp 𝕄) := by
  rw [payload_rL]; rfl
theorem payload_rR_own (c : Dev nD) (d : Bool) : (sched (F := F) m ρ).payload (rRCell c) 0 d
    = ((hS1 : Memref sig .tc .vmem S1x512 .f32).view.loc (c : Thread nD τ) ↦[(hS1 : Memref sig .tc .vmem S1x512 .f32).view.set]{fullShare} hal m ρ c : sProp 𝕄) := by
  rw [payload_rR]; rfl
theorem payload_sL_own (c : Dev nD) (d : Bool) : (sched (F := F) m ρ).payload (sLCell c) 0 d
    = ((xTop : Memref sig .tc .vmem S1x512 .f32).view.loc (c : Thread nD τ) ↦[(xTop : Memref sig .tc .vmem S1x512 .f32).view.set]{fullShare} xs m ρ c : sProp 𝕄) := by
  rw [payload_sL]; rfl
theorem payload_sR_own (c : Dev nD) (d : Bool) : (sched (F := F) m ρ).payload (sRCell c) 0 d
    = ((xBot : Memref sig .tc .vmem S1x512 .f32).view.loc (c : Thread nD τ) ↦[(xBot : Memref sig .tc .vmem S1x512 .f32).view.set]{fullShare} xs m ρ c : sProp 𝕄) := by
  rw [payload_sR]; rfl

omit [FloatOps F] in
/-- Both payloads of the barrier cell's round. -/
theorem pay_bar (c : Dev nD) : bigSep Finset.univ (fun d => (sched (F := F) m ρ).payload (barCell c) 0 d) = iprop(barPayF c ∗ barPayT c) := by
  rw [bigSep_univ_eq_bigSepL [false, true] (by decide) (by decide), bigSepL_cons_cons, bigSepL_singleton, payload_bar_false, payload_bar_true]
  rfl

attribute [local sl_rounds] duties_bar duties_sL duties_sR duties_rL duties_rR amount_bar amount_dma expect_bar expect_sL expect_sR expect_rL expect_rR
  payload_bar_true_lft payload_bar_false_rgt true_mem_bar false_mem_bar payload_rL_own payload_rR_own payload_sL_own payload_sR_own
attribute [local sl_canon] dev1_eq dev2_eq dev3_eq dev4_eq

/-- A returned value bound to a continuation is the continuation at the value. -/
theorem ret_bind_eq {E : Type → Type} {α β : Type} (a : α) (k : α → Prog E β) : (Prog.ret a).bind k = k a := rfl

omit [FloatOps F] in
theorem whole_loc_eq (c : Dev nD) (b : Ref sig .tc) (f : Buf (Elt F) ((c : Thread nD τ).loc b)) :
    ((((c : Thread nD τ).loc b) ↦{fullShare} f : sProp 𝕄)) = ((Memref.whole b).view.loc (c : Thread nD τ) ↦{fullShare} f) := rfl

section Body
variable (K : Dev nD × Fin 5 → ℕ)

omit [FloatOps F] in
theorem hz2 : (![0, 0] : Fin 2 → Nat) = fun _ => 0 := funext fun a => by fin_cases a <;> rfl
omit [FloatOps F] in
/-- The whole staged block read through the whole rectangle is the block. -/
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz2 _ f

/-- The transfer of the first row to the device before: it pays the send cell's duty with the row lent, and the duty of
    that device's receive-from-after cell with the slot that device handed over, now holding the row. -/
theorem wp_send_left (c n : Dev nD) (hn : n = lft c)
    {hsc : (hS1 : Memref sig (Dev.tc n : Thread nD τ).2.kind .vmem S1x512 .f32).view.ref.isScScratch = false}
    {hsrc : (xTop : Memref sig .tc .vmem S1x512 .f32).view.WordExact} {hdst : (hS1 : Memref sig .tc .vmem S1x512 .f32).view.WordExact}
    {hsem : DmaTarget.Typed .vmem (.dma rcvR) (.remote (Dev.tc n : Thread nD τ) (hS1 : Memref sig .tc .vmem S1x512 .f32) (.dma sndL) hsc)}
    {α : Type} {Q : α → sProp 𝕄} {k : PUnit → Prog (TpuEff nD τ sig (Elt F) Λ₀ .tc) α}
    (fn : Buf (Elt F) ((hS1 : Memref sig .tc .vmem S1x512 .f32).view.loc (lft c : Thread nD τ))) (O : CellTallies nD τ sig Unit) (W : Waits sig Unit) :
    iprop(cellInv ER (sched m ρ) (K (c, 1)) (sLCell c) ∗ cellInv ER (sched m ρ) (K (lft c, 4)) (rRCell (lft c))
        ∗ topPts m ρ c ∗ slot1Pts (lft c) fn
        ∗ owes (c : Thread nD τ) (O + tallyAt (rRCell (lft c)) () N) W
        ∗ dutyTok ER (sLCell c) 0 false ∗ reached ER (sLCell c) 0
        ∗ dutyTok ER (rRCell (lft c)) 0 false ∗ reached ER (rRCell (lft c)) 0)
      ⊢ iprop(((cred (tallyAt (sLCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xTop (.remote (Dev.tc n : Thread nD τ) hS1 (.dma sndL) hsc) (.dma rcvR) hsrc hdst hsem) k) Q) := by
  subst hn
  unfold topPts slot1Pts
  exact Rounds.wp_send_pointsTo 𝒱₀ ER (sched m ρ) (c : Thread nD τ) none (κ₁ := K (c, 1)) (κ₂ := K (lft c, 4))
    (r₁ := 0) (r₂ := 0) (d₁ := false) (d₂ := false) (fd := fn) (sS := .dma sndL) (sem := .dma rcvR)
    (by rw [duties_sL]; exact Finset.mem_singleton_self _) (by rw [duties_rR]; exact Finset.mem_singleton_self _)
    () () N N_hS1 (amount_dma m ρ c sndL false) (amount_dma m ρ (lft c) rcvR false) O rfl (W := W)
    (by rw [payload_sL]; unfold topPts; exact BI.Entails.refl _)
    (by rw [payload_rR, slot1_landed (lft c) fn (xs m ρ c) (xs m ρ (lft (lft c)))]; unfold hal; rw [rgt_lft])

/-- The transfer of the last row to the device after, likewise. -/
theorem wp_send_right (c n : Dev nD) (hn : n = rgt c)
    {hsc : (hS0 : Memref sig (Dev.tc n : Thread nD τ).2.kind .vmem S1x512 .f32).view.ref.isScScratch = false}
    {hsrc : (xBot : Memref sig .tc .vmem S1x512 .f32).view.WordExact} {hdst : (hS0 : Memref sig .tc .vmem S1x512 .f32).view.WordExact}
    {hsem : DmaTarget.Typed .vmem (.dma rcvL) (.remote (Dev.tc n : Thread nD τ) (hS0 : Memref sig .tc .vmem S1x512 .f32) (.dma sndR) hsc)}
    {α : Type} {Q : α → sProp 𝕄} {k : PUnit → Prog (TpuEff nD τ sig (Elt F) Λ₀ .tc) α}
    (fn : Buf (Elt F) ((hS0 : Memref sig .tc .vmem S1x512 .f32).view.loc (rgt c : Thread nD τ))) (W : Waits sig Unit) :
    iprop(cellInv ER (sched m ρ) (K (c, 2)) (sRCell c) ∗ cellInv ER (sched m ρ) (K (rgt c, 3)) (rLCell (rgt c))
        ∗ botPts m ρ c ∗ slot0Pts (rgt c) fn
        ∗ owes (c : Thread nD τ) (tallyAt (rLCell (rgt c)) () N) W
        ∗ dutyTok ER (sRCell c) 0 false ∗ reached ER (sRCell c) 0
        ∗ dutyTok ER (rLCell (rgt c)) 0 false ∗ reached ER (rLCell (rgt c)) 0)
      ⊢ iprop(((cred (tallyAt (sRCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xBot (.remote (Dev.tc n : Thread nD τ) hS0 (.dma sndR) hsc) (.dma rcvL) hsrc hdst hsem) k) Q) := by
  subst hn
  unfold botPts slot0Pts
  exact Rounds.wp_send_pointsTo 𝒱₀ ER (sched m ρ) (c : Thread nD τ) none (κ₁ := K (c, 2)) (κ₂ := K (rgt c, 3))
    (r₁ := 0) (r₂ := 0) (d₁ := false) (d₂ := false) (fd := fn)
    (by rw [duties_sR]; exact Finset.mem_singleton_self _) (by rw [duties_rL]; exact Finset.mem_singleton_self _)
    () () N rfl (amount_dma m ρ c sndR false) (amount_dma m ρ (rgt c) rcvL false) 0 (by rw [zero_add]) (W := W)
    (by rw [payload_sR]; unfold botPts; exact BI.Entails.refl _)
    (by rw [payload_rL, slot0_landed (rgt c) fn (xs m ρ c) (xs m ρ (rgt (rgt c)))]; unfold hal; rw [lft_rgt])

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ cred (tallyAt (rLCell c) () N) ∗ cred (tallyAt (rRCell c) () N) ∗ levAts L lv ∗ ∃ f, hPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xs m ρ c) ∗ stg c cc0_stg1_0 (outOf m ρ c))

set_option maxHeartbeats 3200000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost invs hPts
  iintro ⟨⟨⟨⟨⟨#HIbar, #HIsL, #HIsR, #HIrL, #HIrR, #HIbarL, #HIbarR, #HIrRL, #HIrLR⟩, HatB, HatSL, HatSR, HatRL, HatRR,
      #HrBL, #HrBR, #HrRRL, #HrRLR, #HrSL, #HrSR, #HrRL, #HrRR, HtBL, HtBR, HtRRL, HtRLR, HtSL, HtSR⟩, HcB, HcRL, HcRR, #Hlev, ⟨%f0, Hh⟩⟩,
    Ho, ⟨%d0, %g0, %hg0, Hx⟩, ⟨%d1, %g1, %hg1, Hout⟩⟩, Hk⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃
  -- the slots buffer as its two slots; the staged blocks spelt through their memrefs
  ihave Hh2 := (hPts_split (F := F) c f0).1 $$ Hh
  unfold slot0Pts slot1Pts
  icases Hh2 with ⟨Hh0, Hh1⟩
  ihave Hx := (Entails.of_eq (whole_loc_eq (F := F) c cc0_stg0_0 _)) $$ Hx
  ihave Hout := (Entails.of_eq (whole_loc_eq (F := F) c cc0_stg1_0 _)) $$ Hout
  sl_unfold [cc0_body]
  -- the two entry signals, the block loaded, the first interior piece stored
  sl_exec
  -- the two rows to be sent, carved out of the staged block
  ihave Hx3 := (xPts_split_xs (F := F) m ρ c).1 $$ Hx
  unfold topPts botPts
  icases Hx3 with ⟨Htop, Hbot, Hrest⟩
  have hMW : (levAts L lv : sProp 𝕄) ⊢ MayWait (c : Thread nD τ) (.reg barS) () (tallyAt (rLCell (rgt c)) () N + tallyAt (rRCell (lft c)) () N) := mayWait_bar c
  -- the wait for both neighbours' entry
  sl_exec
  ihave Hp := (Entails.of_eq (pay_bar m ρ c)) $$ HatB_pay1
  unfold barPayF barPayT
  icases Hp with ⟨⟨⟨%fl, HslL⟩, -⟩, ⟨%fr, HslR⟩, -⟩
  -- the first row to the device before
  iapply (wp_send_left m ρ K c _ (dev3_eq c) fl (tallyAt (rLCell (rgt c)) () N) _) $$ [Htop HslL HO HtSL HtRRL]
  · isplitr; · iexact HIsL
    isplitr; · iexact HIrRL
    isplitl [Htop]; · unfold topPts; iexact Htop
    isplitl [HslL]; · iexact HslL
    isplitl [HO]; · iexact HO
    isplitl [HtSL]; · iexact HtSL
    isplitr; · iexact HrSL
    isplitl [HtRRL]; · iexact HtRRL
    iexact HrRRL
  iintro ⟨HcSL, HO⟩
  -- the last row to the device after
  iapply (wp_send_right m ρ K c _ (dev4_eq c) fr _) $$ [Hbot HslR HO HtSR HtRLR]
  · isplitr; · iexact HIsR
    isplitr; · iexact HIrLR
    isplitl [Hbot]; · unfold botPts; iexact Hbot
    isplitl [HslR]; · iexact HslR
    isplitl [HO]; · iexact HO
    isplitl [HtSR]; · iexact HtSR
    isplitr; · iexact HrSR
    isplitl [HtRLR]; · iexact HtRLR
    iexact HrRLR
  iintro ⟨HcSR, HO⟩
  rw [ret_bind_eq]
  -- the second interior piece; each neighbour's row as it lands and the boundary row that needs it; the two rows lent, back
  sl_exec
  -- the four own transfer cells close: their counters at zero are the device's again
  imod (Rounds.cell_close ER (sched m ρ) (Set.mem_univ (K (c, 1))) (fun h => h) (R := 1) (duties_later m ρ (sLCell c))) $$ [HatSL] with HzSL
  · isplitr; · iexact HIsL
    iexact HatSL
  imod (Rounds.cell_close ER (sched m ρ) (Set.mem_univ (K (c, 2))) (fun h => h) (R := 1) (duties_later m ρ (sRCell c))) $$ [HatSR] with HzSR
  · isplitr; · iexact HIsR
    iexact HatSR
  imod (Rounds.cell_close ER (sched m ρ) (Set.mem_univ (K (c, 3))) (fun h => h) (R := 1) (duties_later m ρ (rLCell c))) $$ [HatRL] with HzRL
  · isplitr; · iexact HIrL
    iexact HatRL
  imod (Rounds.cell_close ER (sched m ρ) (Set.mem_univ (K (c, 4))) (fun h => h) (R := 1) (duties_later m ρ (rRCell c))) $$ [HatRR] with HzRR
  · isplitr; · iexact HIrR
    iexact HatRR
  sl_step
  iapply Hk
  unfold bodyPost Φ₁ Dat.owesAt Pipeline.owesWithin hPts
  rw [show (dats m ρ 0 c).owed t₀.succ = 0 from rfl]
  isplitl [HatRL_pay1 HatRR_pay1 HzSL HzSR HzRL HzRR]
  · isplitl [HatRL_pay1 HatRR_pay1]
    · iexists (hal m ρ c)
      iapply (hPts_join_same (F := F) c (hal m ρ c))
      unfold slot0Pts slot1Pts
      isplitl [HatRL_pay1]; · iexact HatRL_pay1
      iexact HatRR_pay1
    isplitl [HzSL]; · iexact HzSL
    isplitl [HzSR]; · iexact HzSR
    isplitl [HzRL]; · iexact HzRL
    iexact HzRR
  isplitl [HO]
  · iexists (insert (SemLoc.dma sndR, ()) (insert (SemLoc.dma sndL, ()) (insert (SemLoc.dma rcvR, ()) (insert (SemLoc.dma rcvL, ()) (insert (SemLoc.reg barS, ()) W)))))
    isplitr; · ipureintro; exact fun _ _ => Or.inl trivial
    iexact HO
  isplitl [HatSL_pay1 HatSR_pay1 Hrest]
  · iexists _; isplitr; · (ipureintro; rfl)
    iapply (xPts_split_xs (F := F) m ρ c).2
    unfold topPts botPts
    isplitl [HatSL_pay1]; · iexact HatSL_pay1
    isplitl [HatSR_pay1]; · iexact HatSR_pay1
    iexact Hrest
  -- the result buffer: the four stores cover it, whatever it held
  iexists _
  isplitr
  rotate_left
  · iexact Hout
  · ipureintro
    exact (writes_eq_outAt g1 c _ (hal m ρ c)).trans (congrArg (fun x => outAt c x (hal m ρ c)) (read_x (xs m ρ c)))

set_option maxRecDepth 4000 in
/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of device `c`, in the pipeline library's form. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

/-- info: 'Cert.KernelIdealProof.body_obligation' depends on axioms: [propext, Classical.choice, Quot.sound] -/
#guard_msgs in #print axioms body_obligation

end Cert.KernelIdealProof

end
-- ==== Proof.KernelRegions.lean ====
/-
  How a device's two buffers are cut into the regions the protocol hands around. The slots buffer (two rows of 512) is
  its two one-row slots: they share no element and together are every element. The staged block (1024 rows of 512) is
  its first row, its last row and the 1022 rows between. A row that lands in a slot overwrites exactly that slot's
  elements, so what the slot holds afterwards is read off the sender's block: slot 0 takes the sender's last row,
  slot 1 the sender's first row.
-/
import proofs.«900539_g7700000000000540_dist_halo_stencil_i_m1024_n512_v7x_i8_f32_1_alg».proof.Proof.KernelSched
import Idealize.ShloMosaic.Lib.Pipeline.Value
import Idealize.ShloMosaic.Lib.ValueLayout

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots buffer is its two slots -/

/-- A slot's elements are those of its one-row rectangle of the slots buffer: dropping the unit axis moves no element. -/
theorem hS0_set : (hS0 : Memref sig .tc .vmem S1x512 .f32).view.set = rH0.set :=
  (View.set_reshape _ _).trans (View.set_slice_whole _ _)
theorem hS1_set : (hS1 : Memref sig .tc .vmem S1x512 .f32).view.set = rH1.set :=
  (View.set_reshape _ _).trans (View.set_slice_whole _ _)

/-- Slot 0 is row 0 and slot 1 is row 1 of the buffer's leading axis: no common element. -/
theorem slots_disjoint :
    Disjoint (hS0 : Memref sig .tc .vmem S1x512 .f32).view.set (hS1 : Memref sig .tc .vmem S1x512 .f32).view.set := by
  rw [hS0_set, hS1_set]
  exact Rect.unit_disjoint (0 : Fin 3) (.inl (Nat.le_refl 1))

/-- The leading axis has two coordinates, the middle one a single one, and each slot keeps all 512 of the last: every
    element is in slot 0 or in slot 1. -/
theorem slots_cover :
    (hS0 : Memref sig .tc .vmem S1x512 .f32).view.set ∪ (hS1 : Memref sig .tc .vmem S1x512 .f32).view.set = Finset.univ := by
  rw [hS0_set, hS1_set]
  ext i
  simp only [Finset.mem_union, Rect.mem_set_unit, Finset.mem_univ, iff_true]
  have h0 : (i 0).val < 2 := (i 0).isLt
  have h1 : (i 1).val < 1 := (i 1).isLt
  have h2 : (i 2).val < 512 := (i 2).isLt
  by_cases h : (i 0).val = 0
  · refine .inl fun a => ?_
    match a with
    | ⟨0, _⟩ => exact ⟨Nat.zero_le _, by show (i 0).val < 0 + 1; omega⟩
    | ⟨1, _⟩ => exact ⟨Nat.zero_le _, by show (i 1).val < 0 + 1; omega⟩
    | ⟨2, _⟩ => exact ⟨Nat.zero_le _, by show (i 2).val < 0 + 512; omega⟩
  · refine .inr fun a => ?_
    match a with
    | ⟨0, _⟩ => exact ⟨by show 1 ≤ (i 0).val; omega, by show (i 0).val < 1 + 1; omega⟩
    | ⟨1, _⟩ => exact ⟨Nat.zero_le _, by show (i 1).val < 0 + 1; omega⟩
    | ⟨2, _⟩ => exact ⟨Nat.zero_le _, by show (i 2).val < 0 + 512; omega⟩

omit [FloatOps F] in
/-- The whole slots buffer at contents `f` is slot 0 at `f` and slot 1 at `f`. -/
theorem hPts_split (c : Dev nD) (f : Buf (Elt F) ((c : Thread nD τ).loc cc0_scratch0)) :
    ((((c : Thread nD τ).loc cc0_scratch0) ↦{fullShare} f : sProp 𝕄)) ⊣⊢ iprop(slot0Pts c f ∗ slot1Pts c f) := by
  have h := pointsTo_union (nD := nD) (τ := τ) (sig := sig) (Ix := Unit) (Val := Elt F) (Name := ℕ) (U := UU) (Lvl := ℕ)
    (ℓ := (c : Thread nD τ).loc cc0_scratch0) (q := fullShare) (f := f) slots_disjoint
  rw [slots_cover] at h
  exact h

omit [FloatOps F] in
/-- Both slots at one contents are the whole buffer at it. -/
theorem hPts_join_same (c : Dev nD) (f : Buf (Elt F) ((c : Thread nD τ).loc cc0_scratch0)) :
    iprop(slot0Pts c f ∗ slot1Pts c f) ⊢ ((((c : Thread nD τ).loc cc0_scratch0) ↦{fullShare} f : sProp 𝕄)) :=
  (hPts_split c f).2

omit [FloatOps F] in
/-- The two slots at whatever contents each holds are the whole buffer at some contents: slot 1's pieced into slot 0's. -/
theorem hPts_join_at (c : Dev nD) (f g : Buf (Elt F) ((c : Thread nD τ).loc cc0_scratch0)) :
    iprop(slot0Pts c f ∗ slot1Pts c g) ⊢
      ((((c : Thread nD τ).loc cc0_scratch0) ↦{fullShare}
        ((hS1 : Memref sig .tc .vmem S1x512 .f32).view.set.piecewise g f) : sProp 𝕄)) := by
  have h := pointsTo_join (nD := nD) (τ := τ) (sig := sig) (Ix := Unit) (Val := Elt F) (Name := ℕ) (U := UU) (Lvl := ℕ)
    (ℓ := (c : Thread nD τ).loc cc0_scratch0) (q := fullShare) (f := f) (g := g) slots_disjoint
  rw [slots_cover] at h
  exact h

omit [FloatOps F] in
theorem hPts_join (c : Dev nD) (f g : Buf (Elt F) ((c : Thread nD τ).loc cc0_scratch0)) :
    iprop(slot0Pts c f ∗ slot1Pts c g) ⊢ (iprop(∃ h, (((c : Thread nD τ).loc cc0_scratch0) ↦{fullShare} h)) : sProp 𝕄) := by
  iintro H
  iexists ((hS1 : Memref sig .tc .vmem S1x512 .f32).view.set.piecewise g f)
  iapply (hPts_join_at c f g)
  iexact H

/-! ## The staged block is its first row, its last row and the rows between -/

theorem xTop_set : (xTop : Memref sig .tc .vmem S1x512 .f32).view.set = rTop.set := View.set_slice_whole _ _
theorem xBot_set : (xBot : Memref sig .tc .vmem S1x512 .f32).view.set = rBot.set := View.set_slice_whole _ _

/-- Row 0 and row 1023 share no element. -/
theorem rows_disjoint :
    Disjoint (xTop : Memref sig .tc .vmem S1x512 .f32).view.set (xBot : Memref sig .tc .vmem S1x512 .f32).view.set := by
  rw [xTop_set, xBot_set]
  exact Rect.unit_disjoint (0 : Fin 2) (.inl (by decide : 0 + 1 ≤ 1023))

/-- The block's elements in neither the first nor the last row. -/
def xRest : Finset S1024x512.Idx :=
  (Finset.univ \ (xTop : Memref sig .tc .vmem S1x512 .f32).view.set) \ (xBot : Memref sig .tc .vmem S1x512 .f32).view.set

/-- They are the elements of rows 1 to 1022. -/
theorem mem_xRest (i : S1024x512.Idx) : i ∈ xRest ↔ 1 ≤ (i 0).val ∧ (i 0).val ≤ 1022 := by
  unfold xRest
  rw [Finset.mem_sdiff, Finset.mem_sdiff, xTop_set, xBot_set, Rect.mem_set_unit, Rect.mem_set_unit]
  have h0 : (i 0).val < 1024 := (i 0).isLt
  have h1 : (i 1).val < 512 := (i 1).isLt
  constructor
  · rintro ⟨⟨-, hT⟩, hB⟩
    constructor
    · by_contra hc
      refine hT fun a => ?_
      match a with
      | ⟨0, _⟩ => exact ⟨Nat.zero_le _, by show (i 0).val < 0 + 1; omega⟩
      | ⟨1, _⟩ => exact ⟨Nat.zero_le _, by show (i 1).val < 0 + 512; omega⟩
    · by_contra hc
      refine hB fun a => ?_
      match a with
      | ⟨0, _⟩ => exact ⟨by show 1023 ≤ (i 0).val; omega, by show (i 0).val < 1023 + 1; omega⟩
      | ⟨1, _⟩ => exact ⟨Nat.zero_le _, by show (i 1).val < 0 + 512; omega⟩
  · rintro ⟨hlo, hhi⟩
    refine ⟨⟨Finset.mem_univ _, fun hT => ?_⟩, fun hB => ?_⟩
    · have := (hT 0).2
      have h' : (i 0).val < 0 + 1 := this
      omega
    · have := (hB 0).1
      have h' : 1023 ≤ (i 0).val := this
      omega

omit [FloatOps F] in
/-- The whole block at contents `f` is its first row, its last row and the rows between, each at `f`. -/
theorem xPts_split (c : Dev nD) (f : Buf (Elt F) ((c : Thread nD τ).loc cc0_stg0_0)) :
    ((((c : Thread nD τ).loc cc0_stg0_0) ↦{fullShare} f : sProp 𝕄)) ⊣⊢
      iprop(((xTop : Memref sig .tc .vmem S1x512 .f32).view.loc (c : Thread nD τ) ↦[(xTop : Memref sig .tc .vmem S1x512 .f32).view.set]{fullShare} f)
        ∗ ((xBot : Memref sig .tc .vmem S1x512 .f32).view.loc (c : Thread nD τ) ↦[(xBot : Memref sig .tc .vmem S1x512 .f32).view.set]{fullShare} f)
        ∗ (((c : Thread nD τ).loc cc0_stg0_0) ↦[xRest]{fullShare} f)) := by
  have h1 := pointsTo_split_subset (nD := nD) (τ := τ) (sig := sig) (Ix := Unit) (Val := Elt F) (Name := ℕ) (U := UU) (Lvl := ℕ)
    (ℓ := (c : Thread nD τ).loc cc0_stg0_0) (q := fullShare) (f := f)
    (Finset.subset_univ (xTop : Memref sig .tc .vmem S1x512 .f32).view.set)
  have h2 := pointsTo_split_subset (nD := nD) (τ := τ) (sig := sig) (Ix := Unit) (Val := Elt F) (Name := ℕ) (U := UU) (Lvl := ℕ)
    (ℓ := (c : Thread nD τ).loc cc0_stg0_0) (q := fullShare) (f := f)
    (I := (xBot : Memref sig .tc .vmem S1x512 .f32).view.set) (S := Finset.univ \ (xTop : Memref sig .tc .vmem S1x512 .f32).view.set)
    (Finset.subset_sdiff.mpr ⟨Finset.subset_univ _, rows_disjoint.symm⟩)
  exact ⟨h1.1.trans (Idealize.SL.BI.sep_mono_r h2.1), (Idealize.SL.BI.sep_mono_r h2.2).trans h1.2⟩

omit [FloatOps F] in
/-- At the contents every device starts from: the first-row and last-row assertions the schedule names, and the rest. -/
theorem xPts_split_xs (c : Dev nD) :
    ((((c : Thread nD τ).loc cc0_stg0_0) ↦{fullShare} xs m ρ c : sProp 𝕄)) ⊣⊢
      iprop(topPts m ρ c ∗ botPts m ρ c ∗ (((c : Thread nD τ).loc cc0_stg0_0) ↦[xRest]{fullShare} xs m ρ c)) :=
  xPts_split c (xs m ρ c)

/-! ## What a landed row leaves in a slot -/

/-- A slot's index `(r, j)`, with the unit axis put back, is `(0, r, j)` in the one-row rectangle. -/
theorem squeeze_idx (x : S1x512.Idx) :
    Shape.reshapeEquiv squeezes_S1x1x512_S1x512.numel_eq x = ValueIdx.ix3 (⟨0, Nat.one_pos⟩ : Fin 1) (x 0 : Fin 1) (x 1 : Fin 512) :=
  (congrArg (Shape.reshapeEquiv squeezes_S1x1x512_S1x512.numel_eq) (ValueIdx.eq_ix2 x)).trans
    (ValueIdx.reshapeEquiv_ix2_1ab squeezes_S1x1x512_S1x512.numel_eq (x 0) (x 1))

/-- Where a slot's index sits in the slots buffer: slot 0 at row 0, slot 1 at row 1, the column kept. -/
theorem hS0_emb_val (x : S1x512.Idx) (a : Fin 3) :
    (((hS0 : Memref sig .tc .vmem S1x512 .f32).view.emb x a : Fin _) : ℕ) = (ValueIdx.ix3 (⟨0, by decide⟩ : Fin 2) (⟨0, by decide⟩ : Fin 1) (x 1 : Fin 512) a : ℕ) := by
  have e : (hS0 : Memref sig .tc .vmem S1x512 .f32).view.emb x = rH0.emb (Shape.reshapeEquiv squeezes_S1x1x512_S1x512.numel_eq x) := rfl
  rw [e, squeeze_idx]
  have h0 : (x 0).val < 1 := (x 0).isLt
  match a with
  | ⟨0, _⟩ => show 0 + 1 * 0 = 0; omega
  | ⟨1, _⟩ => show 0 + 1 * (x 0).val = 0; omega
  | ⟨2, _⟩ => show 0 + 1 * (x 1).val = (x 1).val; omega

theorem hS1_emb_val (x : S1x512.Idx) (a : Fin 3) :
    (((hS1 : Memref sig .tc .vmem S1x512 .f32).view.emb x a : Fin _) : ℕ) = (ValueIdx.ix3 (⟨1, by decide⟩ : Fin 2) (⟨0, by decide⟩ : Fin 1) (x 1 : Fin 512) a : ℕ) := by
  have e : (hS1 : Memref sig .tc .vmem S1x512 .f32).view.emb x = rH1.emb (Shape.reshapeEquiv squeezes_S1x1x512_S1x512.numel_eq x) := rfl
  rw [e, squeeze_idx]
  have h0 : (x 0).val < 1 := (x 0).isLt
  match a with
  | ⟨0, _⟩ => show 1 + 1 * 0 = 1; omega
  | ⟨1, _⟩ => show 0 + 1 * (x 0).val = 0; omega
  | ⟨2, _⟩ => show 0 + 1 * (x 1).val = (x 1).val; omega

/-- Where a sent row's index sits in the block: the last row at row 1023, the first at row 0, the column kept. -/
theorem xBot_emb (x : S1x512.Idx) :
    (xBot : Memref sig .tc .vmem S1x512 .f32).view.emb x = ValueIdx.ix2 (⟨1023, by decide⟩ : Fin 1024) (x 1 : Fin 512) := by
  have e : (xBot : Memref sig .tc .vmem S1x512 .f32).view.emb x = rBot.emb x := rfl
  rw [e]
  funext a
  apply Fin.ext
  rw [Rect.emb_apply]
  have h0 : (x 0).val < 1 := (x 0).isLt
  match a with
  | ⟨0, _⟩ => show 1023 + 1 * (x 0).val = 1023; omega
  | ⟨1, _⟩ => show 0 + 1 * (x 1).val = (x 1).val; omega

theorem xTop_emb (x : S1x512.Idx) :
    (xTop : Memref sig .tc .vmem S1x512 .f32).view.emb x = ValueIdx.ix2 (⟨0, by decide⟩ : Fin 1024) (x 1 : Fin 512) := by
  have e : (xTop : Memref sig .tc .vmem S1x512 .f32).view.emb x = rTop.emb x := rfl
  rw [e]
  funext a
  apply Fin.ext
  rw [Rect.emb_apply]
  have h0 : (x 0).val < 1 := (x 0).isLt
  match a with
  | ⟨0, _⟩ => show 0 + 1 * (x 0).val = 0; omega
  | ⟨1, _⟩ => show 0 + 1 * (x 1).val = (x 1).val; omega

/-- The last row of the block before, landed in slot 0, is slot 0 of the halo whose left block is that one. -/
theorem slot0_landed (c : Dev nD) (fd : Buf (Elt F) ((hS0 : Memref sig .tc .vmem S1x512 .f32).view.loc (c : Thread nD τ))) (X Y : Vec F S1024x512 .f32) :
    (((hS0 : Memref sig .tc .vmem S1x512 .f32).view.loc (c : Thread nD τ) ↦[(hS0 : Memref sig .tc .vmem S1x512 .f32).view.set]{fullShare}
        ((hS0 : Memref sig .tc .vmem S1x512 .f32).view.write (Elt F) fd ((xBot : Memref sig .tc .vmem S1x512 .f32).view.read (Elt F) X) Finset.univ)) : sProp 𝕄)
      = slot0Pts c (haloOf X Y) := by
  unfold slot0Pts
  refine pointsTo_congr fun i hi => ?_
  obtain ⟨x, rfl⟩ := View.exists_emb_of_mem_set _ hi
  rw [View.write_emb_of_mem _ _ (Finset.mem_univ x), View.read_apply, xBot_emb]
  have h0 := hS0_emb_val x 0
  have h2 := hS0_emb_val x 2
  show X (ValueIdx.ix2 (⟨1023, by decide⟩ : Fin 1024) (x 1 : Fin 512)) = haloOf X Y ((hS0 : Memref sig .tc .vmem S1x512 .f32).view.emb x)
  unfold haloOf
  rw [if_pos h0]
  exact congrArg X (congrArg (ValueIdx.ix2 (⟨1023, by decide⟩ : Fin 1024)) (Fin.ext h2.symm))

/-- The first row of the block after, landed in slot 1, is slot 1 of the halo whose right block is that one. -/
theorem slot1_landed (c : Dev nD) (fd : Buf (Elt F) ((hS1 : Memref sig .tc .vmem S1x512 .f32).view.loc (c : Thread nD τ))) (X Y : Vec F S1024x512 .f32) :
    (((hS1 : Memref sig .tc .vmem S1x512 .f32).view.loc (c : Thread nD τ) ↦[(hS1 : Memref sig .tc .vmem S1x512 .f32).view.set]{fullShare}
        ((hS1 : Memref sig .tc .vmem S1x512 .f32).view.write (Elt F) fd ((xTop : Memref sig .tc .vmem S1x512 .f32).view.read (Elt F) X) Finset.univ)) : sProp 𝕄)
      = slot1Pts c (haloOf Y X) := by
  unfold slot1Pts
  refine pointsTo_congr fun i hi => ?_
  obtain ⟨x, rfl⟩ := View.exists_emb_of_mem_set _ hi
  rw [View.write_emb_of_mem _ _ (Finset.mem_univ x), View.read_apply, xTop_emb]
  have h0 := hS1_emb_val x 0
  have h2 := hS1_emb_val x 2
  show X (ValueIdx.ix2 (⟨0, by decide⟩ : Fin 1024) (x 1 : Fin 512)) = haloOf Y X ((hS1 : Memref sig .tc .vmem S1x512 .f32).view.emb x)
  unfold haloOf
  rw [if_neg (fun h => absurd (h0.symm.trans h) Nat.one_ne_zero)]
  exact congrArg X (congrArg (ValueIdx.ix2 (⟨0, by decide⟩ : Fin 1024)) (Fin.ext h2.symm))

end Cert.KernelProof

end
-- ==== Proof.KernelStores.lean ====
/-
  What the four stores leave in a device's result block. The body writes rows 1 to 512, then rows 513 to 1022, then
  row 0, then row 1023: four rectangles of the 1024 × 512 block that together hold every element. Each store's payload,
  read at its rectangle's own index, is the index-wise result read at the block index that index sits at; so whatever
  the block held before, after the four stores it holds the index-wise result.
-/
import proofs.«900539_g7700000000000540_dist_halo_stencil_i_m1024_n512_v7x_i8_f32_1_alg».proof.Proof.KernelRegions
import Idealize.ShloMosaic.Lib.Writes

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rectangles of the two interior stores: rows 1 to 512 and rows 513 to 1022. -/
abbrev rMidA : Rect S1024x512 := Rect.unit (s := S1024x512) ![1, 0] S512x512.size inb_S1024x512_S512x512_1_0
abbrev rMidB : Rect S1024x512 := Rect.unit (s := S1024x512) ![513, 0] S510x512.size inb_S1024x512_S510x512_513_0

/-- The four stores, the last one first. -/
def outWrites (c : Dev nD) (x : Vec F S1024x512 .f32) (h : Vec F S2x1x512 .f32) : List (View.Piece (Elt F) S1024x512 .f32) :=
  [⟨rBot, k0_pay9 (posWord c) (k0_pay6 (k0_pay1 x)) (k0_pay7 (k0_pay1 x)) ((hM : Memref sig .tc .vmem S2x1x512 .f32).view.readAt (Elt F) rH1.toLoadRect h)⟩,
   ⟨rTop, k0_pay8 (posWord c) (k0_pay1 x) ((hM : Memref sig .tc .vmem S2x1x512 .f32).view.readAt (Elt F) rH0.toLoadRect h)⟩,
   ⟨rMidB, k0_pay5 (k0_pay1 x) (k0_pay4 (k0_pay1 x)) (Scalar.ofBits .f32 0x3E800000#32)⟩,
   ⟨rMidA, k0_pay3 (k0_pay1 x) (k0_pay2 x)⟩]

/-- An element whose row is among the `n` rows from `off` is in the rectangle of those rows at every column. -/
theorem mem_rows {off n : ℕ} (inb : ∀ a, (![off, 0] : Fin 2 → ℕ) a + (![n, 512] : Fin 2 → ℕ) a ≤ S1024x512.size a) (y : S1024x512.Idx)
    (hlo : off ≤ (y 0).val) (hhi : (y 0).val < off + n) : y ∈ (Rect.unit (s := S1024x512) ![off, 0] ![n, 512] inb).set := by
  rw [Rect.mem_set_unit]
  intro a
  have h1 : (y 1).val < 512 := (y 1).isLt
  match a with
  | ⟨0, _⟩ => exact ⟨hlo, hhi⟩
  | ⟨1, _⟩ => exact ⟨Nat.zero_le _, by show (y 1).val < 0 + 512; omega⟩

/-- Every element of the block is in one of the four rectangles: by its row. -/
theorem outWrites_cover (c : Dev nD) (x : Vec F S1024x512 .f32) (h : Vec F S2x1x512 .f32) (y : S1024x512.Idx) :
    ∃ p ∈ outWrites c x h, y ∈ p.1.set := by
  have h0 : (y 0).val < 1024 := (y 0).isLt
  unfold outWrites
  by_cases hr0 : (y 0).val = 0
  · exact ⟨_, List.mem_cons_of_mem _ List.mem_cons_self, mem_rows inb_S1024x512_S1x512_0_0 y (by omega) (by omega)⟩
  by_cases hr1 : (y 0).val = 1023
  · exact ⟨_, List.mem_cons_self, mem_rows inb_S1024x512_S1x512_1023_0 y (by omega) (by omega)⟩
  by_cases hr2 : (y 0).val ≤ 512
  · exact ⟨_, List.mem_cons_of_mem _ (List.mem_cons_of_mem _ (List.mem_cons_of_mem _ List.mem_cons_self)),
      mem_rows inb_S1024x512_S512x512_1_0 y (by omega) (by omega)⟩
  · exact ⟨_, List.mem_cons_of_mem _ (List.mem_cons_of_mem _ List.mem_cons_self),
      mem_rows inb_S1024x512_S510x512_513_0 y (by omega) (by omega)⟩

section Pieces
variable (c : Dev nD) (x : Vec F S1024x512 .f32) (h : Vec F S2x1x512 .f32)

/-- The last store: its index `(0, j)` sits at row 1023 of the block, where the index-wise result is that store's
    payload at `(0, j)`. -/
theorem outAt_bot (z : S1x512.Idx) :
    outAt c x h (rBot.emb z)
      = k0_pay9 (posWord c) (k0_pay6 (k0_pay1 x)) (k0_pay7 (k0_pay1 x)) ((hM : Memref sig .tc .vmem S2x1x512 .f32).view.readAt (Elt F) rH1.toLoadRect h) z := by
  have hz : (z 0).val < 1 := (z 0).isLt
  have e0 : ((rBot.emb z) 0).val = 1023 + 1 * (z 0).val := rfl
  have e1 : ((rBot.emb z) 1).val = 0 + 1 * (z 1).val := rfl
  generalize rBot.emb z = i at e0 e1 ⊢
  unfold outAt
  rw [dif_neg (show ¬ (i 0).val = 0 by omega), dif_pos (show (i 0).val = 1023 by omega)]
  refine congrArg _ ?_
  funext a
  apply Fin.ext
  match a with
  | ⟨0, _⟩ => show 0 = (z 0).val; omega
  | ⟨1, _⟩ => show (i 1).val = (z 1).val; omega

/-- The third store: its index `(0, j)` sits at row 0. -/
theorem outAt_top (z : S1x512.Idx) :
    outAt c x h (rTop.emb z)
      = k0_pay8 (posWord c) (k0_pay1 x) ((hM : Memref sig .tc .vmem S2x1x512 .f32).view.readAt (Elt F) rH0.toLoadRect h) z := by
  have hz : (z 0).val < 1 := (z 0).isLt
  have e0 : ((rTop.emb z) 0).val = 0 + 1 * (z 0).val := rfl
  have e1 : ((rTop.emb z) 1).val = 0 + 1 * (z 1).val := rfl
  generalize rTop.emb z = i at e0 e1 ⊢
  unfold outAt
  rw [dif_pos (show (i 0).val = 0 by omega)]
  refine congrArg _ ?_
  funext a
  apply Fin.ext
  match a with
  | ⟨0, _⟩ => show 0 = (z 0).val; omega
  | ⟨1, _⟩ => show (i 1).val = (z 1).val; omega

/-- The second store: its index `(r, j)` sits at row `513 + r`, between 513 and 1022. -/
theorem outAt_midB (z : S510x512.Idx) :
    outAt c x h (rMidB.emb z) = k0_pay5 (k0_pay1 x) (k0_pay4 (k0_pay1 x)) (Scalar.ofBits .f32 0x3E800000#32) z := by
  have hz : (z 0).val < 510 := (z 0).isLt
  have e0 : ((rMidB.emb z) 0).val = 513 + 1 * (z 0).val := rfl
  have e1 : ((rMidB.emb z) 1).val = 0 + 1 * (z 1).val := rfl
  generalize rMidB.emb z = i at e0 e1 ⊢
  unfold outAt
  rw [dif_neg (show ¬ (i 0).val = 0 by omega), dif_neg (show ¬ (i 0).val = 1023 by omega), dif_neg (show ¬ (i 0).val ≤ 512 by omega)]
  refine congrArg _ ?_
  funext a
  apply Fin.ext
  match a with
  | ⟨0, _⟩ => show (i 0).val - 513 = (z 0).val; omega
  | ⟨1, _⟩ => show (i 1).val = (z 1).val; omega

/-- The first store: its index `(r, j)` sits at row `1 + r`, between 1 and 512. -/
theorem outAt_midA (z : S512x512.Idx) :
    outAt c x h (rMidA.emb z) = k0_pay3 (k0_pay1 x) (k0_pay2 x) z := by
  have hz : (z 0).val < 512 := (z 0).isLt
  have e0 : ((rMidA.emb z) 0).val = 1 + 1 * (z 0).val := rfl
  have e1 : ((rMidA.emb z) 1).val = 0 + 1 * (z 1).val := rfl
  generalize rMidA.emb z = i at e0 e1 ⊢
  unfold outAt
  rw [dif_neg (show ¬ (i 0).val = 0 by omega), dif_neg (show ¬ (i 0).val = 1023 by omega), dif_pos (show (i 0).val ≤ 512 by omega)]
  refine congrArg _ ?_
  funext a
  apply Fin.ext
  match a with
  | ⟨0, _⟩ => show (i 0).val - 1 = (z 0).val; omega
  | ⟨1, _⟩ => show (i 1).val = (z 1).val; omega

/-- Every one of the four payloads agrees with the index-wise result on its rectangle. -/
theorem outWrites_pieces : ∀ p ∈ outWrites c x h, ∀ z : p.1.shape.Idx, p.2 z = outAt c x h (p.1.emb z) := by
  unfold outWrites
  intro p hp
  rcases List.mem_cons.mp hp with rfl | hp
  · exact fun z => (outAt_bot c x h z).symm
  rcases List.mem_cons.mp hp with rfl | hp
  · exact fun z => (outAt_top c x h z).symm
  rcases List.mem_cons.mp hp with rfl | hp
  · exact fun z => (outAt_midB c x h z).symm
  rcases List.mem_cons.mp hp with rfl | hp
  · exact fun z => (outAt_midA c x h z).symm
  exact absurd hp List.not_mem_nil

/-- Whatever the block held, after the four stores it holds the index-wise result. -/
theorem writes_outWrites (g1 : (cc0_stg1_0 : Ref sig .tc).ty.Contents (Elt F)) :
    (oM : Memref sig .tc .vmem S1024x512 .f32).view.writes (Elt F) g1 (outWrites c x h) = outAt c x h := by
  funext i
  have e := View.read_writes_apply_of_pieces (v := (oM : Memref sig .tc .vmem S1024x512 .f32).view) (f := g1)
    (outAt c x h) (outWrites c x h) (outWrites_pieces c x h) i (outWrites_cover c x h i)
  rwa [View.read_whole] at e

end Pieces

/-- The same with the four stores written out, the last one first. -/
theorem writes_eq_outAt (g1 : (cc0_stg1_0 : Ref sig .tc).ty.Contents (Elt F)) (c : Dev nD) (x : Vec F S1024x512 .f32) (h : Vec F S2x1x512 .f32) :
    (oM : Memref sig .tc .vmem S1024x512 .f32).view.writes (Elt F) g1
      [⟨rBot, k0_pay9 (posWord c) (k0_pay6 (k0_pay1 x)) (k0_pay7 (k0_pay1 x)) ((hM : Memref sig .tc .vmem S2x1x512 .f32).view.readAt (Elt F) rH1.toLoadRect h)⟩,
       ⟨rTop, k0_pay8 (posWord c) (k0_pay1 x) ((hM : Memref sig .tc .vmem S2x1x512 .f32).view.readAt (Elt F) rH0.toLoadRect h)⟩,
       ⟨Rect.unit (s := S1024x512) ![513, 0] S510x512.size inb_S1024x512_S510x512_513_0, k0_pay5 (k0_pay1 x) (k0_pay4 (k0_pay1 x)) (Scalar.ofBits .f32 0x3E800000#32)⟩,
       ⟨Rect.unit (s := S1024x512) ![1, 0] S512x512.size inb_S1024x512_S512x512_1_0, k0_pay3 (k0_pay1 x) (k0_pay2 x)⟩]
      = outAt c x h := by
  have e := writes_outWrites c x h g1
  unfold outWrites at e
  exact e

end Cert.KernelProof

end
-- ==== Proof.KernelBody.lean ====
/-
  One device's run of the kernel body, at a symbolic place on the ring. The device tells both neighbours it has entered
  (handing each the slot that neighbour will write), computes the interior rows that need no neighbour, waits for both
  neighbours' entry, sends its first row before and its last row after, computes the rest of the interior, and, as each
  neighbour's row lands, the boundary row that needs it; last it takes back the two rows it lent to the transfers.
-/
import proofs.«900539_g7700000000000540_dist_halo_stencil_i_m1024_n512_v7x_i8_f32_1_alg».proof.Proof.KernelGhost
import proofs.«900539_g7700000000000540_dist_halo_stencil_i_m1024_n512_v7x_i8_f32_1_alg».proof.Proof.KernelRegions
import proofs.«900539_g7700000000000540_dist_halo_stencil_i_m1024_n512_v7x_i8_f32_1_alg».proof.Proof.KernelStores

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables at the cells a device meets, each payload spelt as the assertion itself -/

/-- What the device hands the device before it with its entry signal: its own slot 0. And the device after: slot 1. -/
theorem payload_bar_true_lft (c : Dev nD) : (sched (F := F) m ρ).payload (barCell (lft c)) 0 true
    = iprop((∃ f, (hS0 : Memref sig .tc .vmem S1x512 .f32).view.loc (c : Thread nD τ) ↦[(hS0 : Memref sig .tc .vmem S1x512 .f32).view.set]{fullShare} f) ∗ reached ER (rLCell c) 0) := by
  rw [payload_bar_true]; unfold barPayT slot0Pts; rw [rgt_lft]
theorem payload_bar_false_rgt (c : Dev nD) : (sched (F := F) m ρ).payload (barCell (rgt c)) 0 false
    = iprop((∃ f, (hS1 : Memref sig .tc .vmem S1x512 .f32).view.loc (c : Thread nD τ) ↦[(hS1 : Memref sig .tc .vmem S1x512 .f32).view.set]{fullShare} f) ∗ reached ER (rRCell c) 0) := by
  rw [payload_bar_false]; unfold barPayF slot1Pts; rw [lft_rgt]

theorem true_mem_bar (c : Dev nD) : true ∈ (sched (F := F) m ρ).duties (barCell c) 0 := by rw [duties_bar]; exact Finset.mem_univ _
theorem false_mem_bar (c : Dev nD) : false ∈ (sched (F := F) m ρ).duties (barCell c) 0 := by rw [duties_bar]; exact Finset.mem_univ _

theorem payload_rL_own (c : Dev nD) (d : Bool) : (sched (F := F) m ρ).payload (rLCell c) 0 d
    = ((hS0 : Memref sig .tc .vmem S1x512 .f32).view.loc (c : Thread nD τ) ↦[(hS0 : Memref sig .tc .vmem S1x512 .f32).view.set]{fullShare} hal m ρ c : sProp 𝕄) := by
  rw [payload_rL]; rfl
theorem payload_rR_own (c : Dev nD) (d : Bool) : (sched (F := F) m ρ).payload (rRCell c) 0 d
    = ((hS1 : Memref sig .tc .vmem S1x512 .f32).view.loc (c : Thread nD τ) ↦[(hS1 : Memref sig .tc .vmem S1x512 .f32).view.set]{fullShare} hal m ρ c : sProp 𝕄) := by
  rw [payload_rR]; rfl
theorem payload_sL_own (c : Dev nD) (d : Bool) : (sched (F := F) m ρ).payload (sLCell c) 0 d
    = ((xTop : Memref sig .tc .vmem S1x512 .f32).view.loc (c : Thread nD τ) ↦[(xTop : Memref sig .tc .vmem S1x512 .f32).view.set]{fullShare} xs m ρ c : sProp 𝕄) := by
  rw [payload_sL]; rfl
theorem payload_sR_own (c : Dev nD) (d : Bool) : (sched (F := F) m ρ).payload (sRCell c) 0 d
    = ((xBot : Memref sig .tc .vmem S1x512 .f32).view.loc (c : Thread nD τ) ↦[(xBot : Memref sig .tc .vmem S1x512 .f32).view.set]{fullShare} xs m ρ c : sProp 𝕄) := by
  rw [payload_sR]; rfl

omit [FloatOps F] in
/-- Both payloads of the barrier cell's round. -/
theorem pay_bar (c : Dev nD) : bigSep Finset.univ (fun d => (sched (F := F) m ρ).payload (barCell c) 0 d) = iprop(barPayF c ∗ barPayT c) := by
  rw [bigSep_univ_eq_bigSepL [false, true] (by decide) (by decide), bigSepL_cons_cons, bigSepL_singleton, payload_bar_false, payload_bar_true]
  rfl

attribute [local sl_rounds] duties_bar duties_sL duties_sR duties_rL duties_rR amount_bar amount_dma expect_bar expect_sL expect_sR expect_rL expect_rR
  payload_bar_true_lft payload_bar_false_rgt true_mem_bar false_mem_bar payload_rL_own payload_rR_own payload_sL_own payload_sR_own
attribute [local sl_canon] dev1_eq dev2_eq dev3_eq dev4_eq

/-- A returned value bound to a continuation is the continuation at the value. -/
theorem ret_bind_eq {E : Type → Type} {α β : Type} (a : α) (k : α → Prog E β) : (Prog.ret a).bind k = k a := rfl

omit [FloatOps F] in
theorem whole_loc_eq (c : Dev nD) (b : Ref sig .tc) (f : Buf (Elt F) ((c : Thread nD τ).loc b)) :
    ((((c : Thread nD τ).loc b) ↦{fullShare} f : sProp 𝕄)) = ((Memref.whole b).view.loc (c : Thread nD τ) ↦{fullShare} f) := rfl

section Body
variable (K : Dev nD × Fin 5 → ℕ)

omit [FloatOps F] in
theorem hz2 : (![0, 0] : Fin 2 → Nat) = fun _ => 0 := funext fun a => by fin_cases a <;> rfl
omit [FloatOps F] in
/-- The whole staged block read through the whole rectangle is the block. -/
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz2 _ f

/-- The transfer of the first row to the device before: it pays the send cell's duty with the row lent, and the duty of
    that device's receive-from-after cell with the slot that device handed over, now holding the row. -/
theorem wp_send_left (c n : Dev nD) (hn : n = lft c)
    {hsc : (hS1 : Memref sig (Dev.tc n : Thread nD τ).2.kind .vmem S1x512 .f32).view.ref.isScScratch = false}
    {hsrc : (xTop : Memref sig .tc .vmem S1x512 .f32).view.WordExact} {hdst : (hS1 : Memref sig .tc .vmem S1x512 .f32).view.WordExact}
    {hsem : DmaTarget.Typed .vmem (.dma rcvR) (.remote (Dev.tc n : Thread nD τ) (hS1 : Memref sig .tc .vmem S1x512 .f32) (.dma sndL) hsc)}
    {α : Type} {Q : α → sProp 𝕄} {k : PUnit → Prog (TpuEff nD τ sig (Elt F) Λ₀ .tc) α}
    (fn : Buf (Elt F) ((hS1 : Memref sig .tc .vmem S1x512 .f32).view.loc (lft c : Thread nD τ))) (O : CellTallies nD τ sig Unit) (W : Waits sig Unit) :
    iprop(cellInv ER (sched m ρ) (K (c, 1)) (sLCell c) ∗ cellInv ER (sched m ρ) (K (lft c, 4)) (rRCell (lft c))
        ∗ topPts m ρ c ∗ slot1Pts (lft c) fn
        ∗ owes (c : Thread nD τ) (O + tallyAt (rRCell (lft c)) () N) W
        ∗ dutyTok ER (sLCell c) 0 false ∗ reached ER (sLCell c) 0
        ∗ dutyTok ER (rRCell (lft c)) 0 false ∗ reached ER (rRCell (lft c)) 0)
      ⊢ iprop(((cred (tallyAt (sLCell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xTop (.remote (Dev.tc n : Thread nD τ) hS1 (.dma sndL) hsc) (.dma rcvR) hsrc hdst hsem) k) Q) := by
  subst hn
  unfold topPts slot1Pts
  exact Rounds.wp_send_pointsTo 𝒱₀ ER (sched m ρ) (c : Thread nD τ) none (κ₁ := K (c, 1)) (κ₂ := K (lft c, 4))
    (r₁ := 0) (r₂ := 0) (d₁ := false) (d₂ := false) (fd := fn) (sS := .dma sndL) (sem := .dma rcvR)
    (by rw [duties_sL]; exact Finset.mem_singleton_self _) (by rw [duties_rR]; exact Finset.mem_singleton_self _)
    () () N N_hS1 (amount_dma m ρ c sndL false) (amount_dma m ρ (lft c) rcvR false) O rfl (W := W)
    (by rw [payload_sL]; unfold topPts; exact BI.Entails.refl _)
    (by rw [payload_rR, slot1_landed (lft c) fn (xs m ρ c) (xs m ρ (lft (lft c)))]; unfold hal; rw [rgt_lft])

/-- The transfer of the last row to the device after, likewise. -/
theorem wp_send_right (c n : Dev nD) (hn : n = rgt c)
    {hsc : (hS0 : Memref sig (Dev.tc n : Thread nD τ).2.kind .vmem S1x512 .f32).view.ref.isScScratch = false}
    {hsrc : (xBot : Memref sig .tc .vmem S1x512 .f32).view.WordExact} {hdst : (hS0 : Memref sig .tc .vmem S1x512 .f32).view.WordExact}
    {hsem : DmaTarget.Typed .vmem (.dma rcvL) (.remote (Dev.tc n : Thread nD τ) (hS0 : Memref sig .tc .vmem S1x512 .f32) (.dma sndR) hsc)}
    {α : Type} {Q : α → sProp 𝕄} {k : PUnit → Prog (TpuEff nD τ sig (Elt F) Λ₀ .tc) α}
    (fn : Buf (Elt F) ((hS0 : Memref sig .tc .vmem S1x512 .f32).view.loc (rgt c : Thread nD τ))) (W : Waits sig Unit) :
    iprop(cellInv ER (sched m ρ) (K (c, 2)) (sRCell c) ∗ cellInv ER (sched m ρ) (K (rgt c, 3)) (rLCell (rgt c))
        ∗ botPts m ρ c ∗ slot0Pts (rgt c) fn
        ∗ owes (c : Thread nD τ) (tallyAt (rLCell (rgt c)) () N) W
        ∗ dutyTok ER (sRCell c) 0 false ∗ reached ER (sRCell c) 0
        ∗ dutyTok ER (rLCell (rgt c)) 0 false ∗ reached ER (rLCell (rgt c)) 0)
      ⊢ iprop(((cred (tallyAt (sRCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xBot (.remote (Dev.tc n : Thread nD τ) hS0 (.dma sndR) hsc) (.dma rcvL) hsrc hdst hsem) k) Q) := by
  subst hn
  unfold botPts slot0Pts
  exact Rounds.wp_send_pointsTo 𝒱₀ ER (sched m ρ) (c : Thread nD τ) none (κ₁ := K (c, 2)) (κ₂ := K (rgt c, 3))
    (r₁ := 0) (r₂ := 0) (d₁ := false) (d₂ := false) (fd := fn)
    (by rw [duties_sR]; exact Finset.mem_singleton_self _) (by rw [duties_rL]; exact Finset.mem_singleton_self _)
    () () N rfl (amount_dma m ρ c sndR false) (amount_dma m ρ (rgt c) rcvL false) 0 (by rw [zero_add]) (W := W)
    (by rw [payload_sR]; unfold botPts; exact BI.Entails.refl _)
    (by rw [payload_rL, slot0_landed (rgt c) fn (xs m ρ c) (xs m ρ (rgt (rgt c)))]; unfold hal; rw [lft_rgt])

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ cred (tallyAt (rLCell c) () N) ∗ cred (tallyAt (rRCell c) () N) ∗ levAts L lv ∗ ∃ f, hPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xs m ρ c) ∗ stg c cc0_stg1_0 (outOf m ρ c))

set_option maxHeartbeats 3200000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost invs hPts
  iintro ⟨⟨⟨⟨⟨#HIbar, #HIsL, #HIsR, #HIrL, #HIrR, #HIbarL, #HIbarR, #HIrRL, #HIrLR⟩, HatB, HatSL, HatSR, HatRL, HatRR,
      #HrBL, #HrBR, #HrRRL, #HrRLR, #HrSL, #HrSR, #HrRL, #HrRR, HtBL, HtBR, HtRRL, HtRLR, HtSL, HtSR⟩, HcB, HcRL, HcRR, #Hlev, ⟨%f0, Hh⟩⟩,
    Ho, ⟨%d0, %g0, %hg0, Hx⟩, ⟨%d1, %g1, %hg1, Hout⟩⟩, Hk⟩
  have hx : g0 = xs m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃
  -- the slots buffer as its two slots; the staged blocks spelt through their memrefs
  ihave Hh2 := (hPts_split (F := F) c f0).1 $$ Hh
  unfold slot0Pts slot1Pts
  icases Hh2 with ⟨Hh0, Hh1⟩
  ihave Hx := (Entails.of_eq (whole_loc_eq (F := F) c cc0_stg0_0 _)) $$ Hx
  ihave Hout := (Entails.of_eq (whole_loc_eq (F := F) c cc0_stg1_0 _)) $$ Hout
  sl_unfold [cc0_body]
  -- the two entry signals, the block loaded, the first interior piece stored
  sl_exec
  -- the two rows to be sent, carved out of the staged block
  ihave Hx3 := (xPts_split_xs (F := F) m ρ c).1 $$ Hx
  unfold topPts botPts
  icases Hx3 with ⟨Htop, Hbot, Hrest⟩
  have hMW : (levAts L lv : sProp 𝕄) ⊢ MayWait (c : Thread nD τ) (.reg barS) () (tallyAt (rLCell (rgt c)) () N + tallyAt (rRCell (lft c)) () N) := mayWait_bar c
  -- the wait for both neighbours' entry
  sl_exec
  ihave Hp := (Entails.of_eq (pay_bar m ρ c)) $$ HatB_pay1
  unfold barPayF barPayT
  icases Hp with ⟨⟨⟨%fl, HslL⟩, -⟩, ⟨%fr, HslR⟩, -⟩
  -- the first row to the device before
  iapply (wp_send_left m ρ K c _ (dev3_eq c) fl (tallyAt (rLCell (rgt c)) () N) _) $$ [Htop HslL HO HtSL HtRRL]
  · isplitr; · iexact HIsL
    isplitr; · iexact HIrRL
    isplitl [Htop]; · unfold topPts; iexact Htop
    isplitl [HslL]; · iexact HslL
    isplitl [HO]; · iexact HO
    isplitl [HtSL]; · iexact HtSL
    isplitr; · iexact HrSL
    isplitl [HtRRL]; · iexact HtRRL
    iexact HrRRL
  iintro ⟨HcSL, HO⟩
  -- the last row to the device after
  iapply (wp_send_right m ρ K c _ (dev4_eq c) fr _) $$ [Hbot HslR HO HtSR HtRLR]
  · isplitr; · iexact HIsR
    isplitr; · iexact HIrLR
    isplitl [Hbot]; · unfold botPts; iexact Hbot
    isplitl [HslR]; · iexact HslR
    isplitl [HO]; · iexact HO
    isplitl [HtSR]; · iexact HtSR
    isplitr; · iexact HrSR
    isplitl [HtRLR]; · iexact HtRLR
    iexact HrRLR
  iintro ⟨HcSR, HO⟩
  rw [ret_bind_eq]
  -- the second interior piece; each neighbour's row as it lands and the boundary row that needs it; the two rows lent, back
  sl_exec
  -- the four own transfer cells close: their counters at zero are the device's again
  imod (Rounds.cell_close ER (sched m ρ) (Set.mem_univ (K (c, 1))) (fun h => h) (R := 1) (duties_later m ρ (sLCell c))) $$ [HatSL] with HzSL
  · isplitr; · iexact HIsL
    iexact HatSL
  imod (Rounds.cell_close ER (sched m ρ) (Set.mem_univ (K (c, 2))) (fun h => h) (R := 1) (duties_later m ρ (sRCell c))) $$ [HatSR] with HzSR
  · isplitr; · iexact HIsR
    iexact HatSR
  imod (Rounds.cell_close ER (sched m ρ) (Set.mem_univ (K (c, 3))) (fun h => h) (R := 1) (duties_later m ρ (rLCell c))) $$ [HatRL] with HzRL
  · isplitr; · iexact HIrL
    iexact HatRL
  imod (Rounds.cell_close ER (sched m ρ) (Set.mem_univ (K (c, 4))) (fun h => h) (R := 1) (duties_later m ρ (rRCell c))) $$ [HatRR] with HzRR
  · isplitr; · iexact HIrR
    iexact HatRR
  sl_step
  iapply Hk
  unfold bodyPost Φ₁ Dat.owesAt Pipeline.owesWithin hPts
  rw [show (dats m ρ 0 c).owed t₀.succ = 0 from rfl]
  isplitl [HatRL_pay1 HatRR_pay1 HzSL HzSR HzRL HzRR]
  · isplitl [HatRL_pay1 HatRR_pay1]
    · iexists (hal m ρ c)
      iapply (hPts_join_same (F := F) c (hal m ρ c))
      unfold slot0Pts slot1Pts
      isplitl [HatRL_pay1]; · iexact HatRL_pay1
      iexact HatRR_pay1
    isplitl [HzSL]; · iexact HzSL
    isplitl [HzSR]; · iexact HzSR
    isplitl [HzRL]; · iexact HzRL
    iexact HzRR
  isplitl [HO]
  · iexists (insert (SemLoc.dma sndR, ()) (insert (SemLoc.dma sndL, ()) (insert (SemLoc.dma rcvR, ()) (insert (SemLoc.dma rcvL, ()) (insert (SemLoc.reg barS, ()) W)))))
    isplitr; · ipureintro; exact fun _ _ => Or.inl trivial
    iexact HO
  isplitl [HatSL_pay1 HatSR_pay1 Hrest]
  · iexists _; isplitr; · (ipureintro; rfl)
    iapply (xPts_split_xs (F := F) m ρ c).2
    unfold topPts botPts
    isplitl [HatSL_pay1]; · iexact HatSL_pay1
    isplitl [HatSR_pay1]; · iexact HatSR_pay1
    iexact Hrest
  -- the result buffer: the four stores cover it, whatever it held
  iexists _
  isplitr
  rotate_left
  · iexact Hout
  · ipureintro
    exact (writes_eq_outAt g1 c _ (hal m ρ c)).trans (congrArg (fun x => outAt c x (hal m ρ c)) (read_x (xs m ρ c)))

set_option maxRecDepth 4000 in
/-- What the pipeline hands the body at its one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation of device `c`, in the pipeline library's form. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Body

/-- info: 'Cert.KernelProof.body_obligation' depends on axioms: [propext, Classical.choice, Quot.sound] -/
#guard_msgs in #print axioms body_obligation

end Cert.KernelProof

end
-- ==== Proof.lean ====
/-
  The claim: on eight devices, each holding 1024 rows of an 8192 × 512 array, the kernel computes the three-point
  smoothing along the rows (row r becomes ¼·x[r-1] + ½·x[r] + ¼·x[r+1], the first and the last row of the whole array
  kept), each device fetching the one row it lacks on either side from its ring neighbour; the one-device program
  computes the same smoothing of the whole array. Both are the same products and sums in the same order, so over the
  extended reals each device's result block is its block of the one-device result, with no condition on the inputs.
  The five conjuncts are assembled in Proof/Conjuncts.lean from: one device's body run at a symbolic place on the ring
  (Proof/KernelIdealBody.lean; the word-level program's is the same text), the launch of the eight devices with their
  entry handshake and four transfer cells each (Proof/KernelIdealLaunch.lean), the one-device program's run
  (Proof/RefRun.lean) and the comparison of a device's block with the whole array's smoothing (Proof/Bridge.lean).
-/
import proofs.«900539_g7700000000000540_dist_halo_stencil_i_m1024_n512_v7x_i8_f32_1_alg».proof.Defs
import proofs.«900539_g7700000000000540_dist_halo_stencil_i_m1024_n512_v7x_i8_f32_1_alg».proof.Proof.Gen.Kernel
import proofs.«900539_g7700000000000540_dist_halo_stencil_i_m1024_n512_v7x_i8_f32_1_alg».proof.Proof.Gen.Kernel.Skeleton
import proofs.«900539_g7700000000000540_dist_halo_stencil_i_m1024_n512_v7x_i8_f32_1_alg».proof.Proof.Gen.Kernel.Launch
import proofs.«900539_g7700000000000540_dist_halo_stencil_i_m1024_n512_v7x_i8_f32_1_alg».proof.Proof.Gen.Kernel.Points
import proofs.«900539_g7700000000000540_dist_halo_stencil_i_m1024_n512_v7x_i8_f32_1_alg».proof.Proof.Gen.Kernel.Frame
import proofs.«900539_g7700000000000540_dist_halo_stencil_i_m1024_n512_v7x_i8_f32_1_alg».proof.Proof.Gen.KernelIdeal
import proofs.«900539_g7700000000000540_dist_halo_stencil_i_m1024_n512_v7x_i8_f32_1_alg».proof.Proof.Gen.KernelIdeal.Skeleton
import proofs.«900539_g7700000000000540_dist_halo_stencil_i_m1024_n512_v7x_i8_f32_1_alg».proof.Proof.Gen.KernelIdeal.Launch
import proofs.«900539_g7700000000000540_dist_halo_stencil_i_m1024_n512_v7x_i8_f32_1_alg».proof.Proof.Gen.KernelIdeal.Points
import proofs.«900539_g7700000000000540_dist_halo_stencil_i_m1024_n512_v7x_i8_f32_1_alg».proof.Proof.Gen.KernelIdeal.Frame
import proofs.«900539_g7700000000000540_dist_halo_stencil_i_m1024_n512_v7x_i8_f32_1_alg».proof.Proof.Gen.ReferenceIdeal
import proofs.«900539_g7700000000000540_dist_halo_stencil_i_m1024_n512_v7x_i8_f32_1_alg».proof.Proof.Gen.Pre_finite_inputs_Kernel
import proofs.«900539_g7700000000000540_dist_halo_stencil_i_m1024_n512_v7x_i8_f32_1_alg».proof.Proof.Gen.Pre_finite_inputs_ReferenceIdeal
import proofs.«900539_g7700000000000540_dist_halo_stencil_i_m1024_n512_v7x_i8_f32_1_alg».proof.Proof.Conjuncts
import proofs.«900539_g7700000000000540_dist_halo_stencil_i_m1024_n512_v7x_i8_f32_1_alg».proof.Proof.KernelIdealBody
import proofs.«900539_g7700000000000540_dist_halo_stencil_i_m1024_n512_v7x_i8_f32_1_alg».proof.Proof.KernelBody
import Idealize.ShloMosaic.Adequacy
import Idealize.ShloMosaic.Init

noncomputable section

namespace Cert.Proof

open Idealize.ShloMosaic Idealize.SL.Sem Cert.Kernel

theorem claim : Cert.Claim :=
  Cert.Conjuncts.claim_of (fun m ρ c => Cert.KernelProof.body_obligation m ρ c) (fun m ρ c => Cert.KernelIdealProof.body_obligation m ρ c)

end Cert.Proof

end
